-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_v47 : IVec S_ 1) (main_v49 : IVec S50000 1) (main_c_19 : IVec S_ 1) : IVec S_ 1 :=
  let main_v50 : IVec S_ 1 := (fun x v => Host.reduce IntOp.andi x v reducesTo_S50000_S_d0 h_S_) main_v49 main_c_19
  let main_v51 : IVec S_ 1 := andi main_v47 main_v50
  main_v51

def fn_part2 {F : FTy → Type} [FloatOps F] (main_arg2 : IVec S50000 32) (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S50000 32 := broadcastInDim S50000 ![] bcast_S_S50000 main_c_16
  let main_v45 : IVec S50000 1 := cmpi .sge main_arg2 main_v44
  let main_c_17 : IVec S_ 1 := constantI S_ 1 1#1
  let main_v46 : IVec S_ 1 := (fun x v => Host.reduce IntOp.andi x v reducesTo_S50000_S_d0 h_S_) main_v45 main_c_17
  let main_v47 : IVec S_ 1 := andi main_v43 main_v46
  let main_c_18 : IVec S_ 32 := constantI S_ 32 256#32
  let main_v48 : IVec S50000 32 := broadcastInDim S50000 ![] bcast_S_S50000 main_c_18
  let main_v49 : IVec S50000 1 := cmpi .slt main_arg2 main_v48
  let main_c_19 : IVec S_ 1 := constantI S_ 1 1#1
  fn_part3 (F := F) main_v47 main_v49 main_c_19

def fn_part1 {F : FTy → Type} [FloatOps F] (main_arg2 : IVec S50000 32) (main_arg6 : FVec F S64 .f32) (main_arg7 : FVec F S64x64 .f32) (main_arg8 : FVec F S64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x10 .f32) (main_arg10 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg2 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩
abbrev S1x10 : Shape := ⟨2, ![1, 10]⟩
abbrev S256x10 : Shape := ⟨2, ![256, 10]⟩
abbrev S256x64 : Shape := ⟨2, ![256, 64]⟩
abbrev S256x1 : Shape := ⟨2, ![256, 1]⟩
abbrev S1x256 : Shape := ⟨2, ![1, 256]⟩
abbrev S5000x256 : Shape := ⟨2, ![5000, 256]⟩

abbrev nBuf : Space → Nat
  | .hbm => 131
  | .vmem => 39
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S_, .f32⟩
  | 26 => ⟨S800000, .f32⟩
  | 27 => ⟨S50000, .f32⟩
  | 28 => ⟨S_, .f32⟩
  | 29 => ⟨S50000, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S50000, .f32⟩
  | 52 => ⟨S50000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x1, .f32⟩
  | 63 => ⟨S800000x64, .f32⟩
  | 64 => ⟨S800000x64, .f32⟩
  | 65 => ⟨S_, .f32⟩
  | 66 => ⟨S50000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S50000x64, .f32⟩
  | 76 => ⟨S1x64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x1, .f32⟩
  | 88 => ⟨S800000x64, .f32⟩
  | 89 => ⟨S800000x64, .f32⟩
  | 90 => ⟨S_, .f32⟩
  | 91 => ⟨S50000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S50000x64, .f32⟩
  | 101 => ⟨S1x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x1, .f32⟩
  | 113 => ⟨S800000x64, .f32⟩
  | 114 => ⟨S800000x64, .f32⟩
  | 115 => ⟨S_, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S50000x64, .f32⟩
  | 126 => ⟨S1x64, .f32⟩
  | 127 => ⟨S50000x64, .f32⟩
  | _ => ⟨S50000x64, .f32⟩

abbrev hbmTy0_1 (i : Nat) : BufTy := match i % 128 with
  | 0 => ⟨S50000x1, .i32⟩
  | 1 => ⟨S1x10, .f32⟩
  | 2 => ⟨S256x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x1, .f32⟩
  | .local _ .vmem, ⟨15, _⟩ => ⟨S5000x1, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .i32⟩
  | .local _ .vmem, ⟨33, _⟩ => ⟨S5000x1, .i32⟩
  | .local _ .vmem, ⟨34, _⟩ => ⟨S64x10, .f32⟩
  | .local _ .vmem, ⟨35, _⟩ => ⟨S1x10, .f32⟩
  | .local _ .vmem, ⟨36, _⟩ => ⟨S256x10, .f32⟩
  | .local _ .vmem, ⟨37, _⟩ => ⟨S256x64, .f32⟩
  | .local _ .vmem, ⟨38, _⟩ => ⟨S256x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_c_15 : Ref sig .tc := ⟨.hbm, 92, rfl⟩
abbrev main_v64 : Ref sig .tc := ⟨.hbm, 93, rfl⟩
abbrev main_v65 : Ref sig .tc := ⟨.hbm, 94, rfl⟩
abbrev main_c_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_c_20 : Ref sig .tc := ⟨.hbm, 117, rfl⟩
abbrev main_v84 : Ref sig .tc := ⟨.hbm, 118, rfl⟩
abbrev main_v85 : Ref sig .tc := ⟨.hbm, 119, rfl⟩
abbrev main_c_21 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_scratch0 : Ref sig .tc := ⟨.vmem, 37, rfl⟩
abbrev cc3_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10_S1x10 : S10.ShapeCasts S1x10
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x256_d1_w32 : S1x256.Iotas .tc 32 [1]
  broadcasts_S5000x1_S5000x256 : S5000x1.Broadcasts S5000x256
  broadcasts_S1x256_S5000x256 : S1x256.Broadcasts S5000x256
  natLt_1_32 : 1 < 32
  broadcasts_S256x1_S256x64 : S256x1.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x256_S5000x64_S256x64_0_0_1_1_n_n_wf : DotDims.WF S5000x256 S5000x64 S256x64 [0] [0] [1] [1] [] []
  dot_S5000x256_S5000x1_S256x1_0_0_1_1_n_n_wf : DotDims.WF S5000x256 S5000x1 S256x1 [0] [0] [1] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x10.size a ≤ S256x10.size a
  hwx3_4 : ∀ i : grid3.Coords, EltTy.bits .f32 = 32 ∨ (Rect.block (s := S256x10) S256x10.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S5000x64_S256x64_0_0_1_1_n_n : DotDims S5000x256 S5000x64 S256x64 where
  lhsContracting := [0]
  rhsContracting := [0]
  lhsNonContracting := [1]
  rhsNonContracting := [1]
  lhsBatch := []
  rhsBatch := []
  wf := dot_S5000x256_S5000x64_S256x64_0_0_1_1_n_n_wf
def dot_S5000x256_S5000x1_S256x1_0_0_1_1_n_n : DotDims S5000x256 S5000x1 S256x1 where
  lhsContracting := [0]
  rhsContracting := [0]
  lhsNonContracting := [1]
  rhsNonContracting := [1]
  lhsBatch := []
  rhsBatch := []
  wf := dot_S5000x256_S5000x1_S256x1_0_0_1_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_v50) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v70) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v90) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v92) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S256x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 259
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000x64, .f32⟩
  | 16 => ⟨S_, .f32⟩
  | 17 => ⟨S50000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S_, .f32⟩
  | 27 => ⟨S800000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x1, .f32⟩
  | 64 => ⟨S800000x64, .f32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S50000x64, .f32⟩
  | 75 => ⟨S50000, .f32⟩
  | 76 => ⟨S50000x1, .f32⟩
  | 77 => ⟨S50000x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S_, .f32⟩
  | 88 => ⟨S50000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S_, .f32⟩
  | 98 => ⟨S800000, .f32⟩
  | 99 => ⟨S50000, .f32⟩
  | 100 => ⟨S_, .f32⟩
  | 101 => ⟨S50000, .f32⟩
  | 102 => ⟨S50000, .f32⟩
  | 103 => ⟨S50000, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000, .f32⟩
  | 122 => ⟨S800000, .f32⟩
  | 123 => ⟨S_, .f32⟩
  | 124 => ⟨S50000x64, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S800000x1, .f32⟩
  | 7 => ⟨S800000x64, .f32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S50000x64, .f32⟩
  | 18 => ⟨S50000, .f32⟩
  | 19 => ⟨S50000x1, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S_, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S_, .f32⟩
  | 41 => ⟨S800000, .f32⟩
  | 42 => ⟨S50000, .f32⟩
  | 43 => ⟨S_, .f32⟩
  | 44 => ⟨S50000, .f32⟩
  | 45 => ⟨S50000, .f32⟩
  | 46 => ⟨S50000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000, .f32⟩
  | 65 => ⟨S800000, .f32⟩
  | 66 => ⟨S_, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S800000x1, .f32⟩
  | 78 => ⟨S800000x64, .f32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S50000x64, .f32⟩
  | 89 => ⟨S50000, .f32⟩
  | 90 => ⟨S50000x1, .f32⟩
  | 91 => ⟨S50000x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S256x64, .f32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S256x64, .f32⟩
  | 108 => ⟨S_, .f32⟩
  | 109 => ⟨S256, .f32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S_, .f32⟩
  | 119 => ⟨S50000, .f32⟩
  | 120 => ⟨S256, .f32⟩
  | 121 => ⟨S_, .f32⟩
  | 122 => ⟨S256, .f32⟩
  | 123 => ⟨S256, .f32⟩
  | 124 => ⟨S256x1, .f32⟩
  | 125 => ⟨S256x64, .f32⟩
  | 126 => ⟨S256x64, .f32⟩
  | 127 => ⟨S256x10, .f32⟩
  | _ => ⟨S50000x64, .f32⟩

abbrev hbmTy0_2 (i : Nat) : BufTy := match i % 128 with
  | 0 => ⟨S1x10, .f32⟩
  | 1 => ⟨S256x10, .f32⟩
  | 2 => ⟨S256x10, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_c_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_c_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call0_cst : Ref sig .tc := ⟨.hbm, 83, rfl⟩
abbrev main_call0_v0 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_c_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_c_22 : Ref sig .tc := ⟨.hbm, 125, rfl⟩
abbrev main_v88 : Ref sig .tc := ⟨.hbm, 126, rfl⟩
abbrev main_v89 : Ref sig .tc := ⟨.hbm, 127, rfl⟩
abbrev main_c_23 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_c_24 : Ref sig .tc := ⟨.hbm, 137, rfl⟩
abbrev main_v98 : Ref sig .tc := ⟨.hbm, 138, rfl⟩
abbrev main_v99 : Ref sig .tc := ⟨.hbm, 139, rfl⟩
abbrev main_c_25 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call1_cst : Ref sig .tc := ⟨.hbm, 154, rfl⟩
abbrev main_call1_v0 : Ref sig .tc := ⟨.hbm, 155, rfl⟩
abbrev main_v113 : Ref sig .tc := ⟨.hbm, 156, rfl⟩
abbrev main_v114 : Ref sig .tc := ⟨.hbm, 157, rfl⟩
abbrev main_cst_26 : Ref sig .tc := ⟨.hbm, 158, rfl⟩
abbrev main_v115 : Ref sig .tc := ⟨.hbm, 159, rfl⟩
abbrev main_c_27 : Ref sig .tc := ⟨.hbm, 160, rfl⟩
abbrev main_v116 : Ref sig .tc := ⟨.hbm, 161, rfl⟩
abbrev main_v117 : Ref sig .tc := ⟨.hbm, 162, rfl⟩
abbrev main_c_28 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_29 : Ref sig .tc := ⟨.hbm, 168, rfl⟩
abbrev main_v122 : Ref sig .tc := ⟨.hbm, 169, rfl⟩
abbrev main_v123 : Ref sig .tc := ⟨.hbm, 170, rfl⟩
abbrev main_cst_30 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_31 : Ref sig .tc := ⟨.hbm, 175, rfl⟩
abbrev main_v127 : Ref sig .tc := ⟨.hbm, 176, rfl⟩
abbrev main_v128 : Ref sig .tc := ⟨.hbm, 177, rfl⟩
abbrev main_c_32 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_33 : Ref sig .tc := ⟨.hbm, 184, rfl⟩
abbrev main_v134 : Ref sig .tc := ⟨.hbm, 185, rfl⟩
abbrev main_v135 : Ref sig .tc := ⟨.hbm, 186, rfl⟩
abbrev main_c_34 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_35 : Ref sig .tc := ⟨.hbm, 194, rfl⟩
abbrev main_v142 : Ref sig .tc := ⟨.hbm, 195, rfl⟩
abbrev main_c_36 : Ref sig .tc := ⟨.hbm, 196, rfl⟩
abbrev main_v143 : Ref sig .tc := ⟨.hbm, 197, rfl⟩
abbrev main_v144 : Ref sig .tc := ⟨.hbm, 198, rfl⟩
abbrev main_c_37 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_c_38 : Ref sig .tc := ⟨.hbm, 208, rfl⟩
abbrev main_v153 : Ref sig .tc := ⟨.hbm, 209, rfl⟩
abbrev main_v154 : Ref sig .tc := ⟨.hbm, 210, rfl⟩
abbrev main_c_39 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_40 : Ref sig .tc := ⟨.hbm, 225, rfl⟩
abbrev main_v168 : Ref sig .tc := ⟨.hbm, 226, rfl⟩
abbrev main_c_41 : Ref sig .tc := ⟨.hbm, 227, rfl⟩
abbrev main_v169 : Ref sig .tc := ⟨.hbm, 228, rfl⟩
abbrev main_v170 : Ref sig .tc := ⟨.hbm, 229, rfl⟩
abbrev main_c_42 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_cst_43 : Ref sig .tc := ⟨.hbm, 236, rfl⟩
abbrev main_v176 : Ref sig .tc := ⟨.hbm, 237, rfl⟩
abbrev main_c_44 : Ref sig .tc := ⟨.hbm, 238, rfl⟩
abbrev main_v177 : Ref sig .tc := ⟨.hbm, 239, rfl⟩
abbrev main_v178 : Ref sig .tc := ⟨.hbm, 240, rfl⟩
abbrev main_c_45 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_46 : Ref sig .tc := ⟨.hbm, 246, rfl⟩
abbrev main_v183 : Ref sig .tc := ⟨.hbm, 247, rfl⟩
abbrev main_v184 : Ref sig .tc := ⟨.hbm, 248, rfl⟩
abbrev main_cst_47 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  dot_S256x64_S64x10_S256x10_1_0_0_1_n_n_wf : DotDims.WF S256x64 S64x10 S256x10 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KI.Layer0.lean ====
/- Region 0 of the program: the first graph-convolution layer, run as a software pipeline over ten row blocks.

   At grid point `t` the pipeline presents the body with six staging buffers: rows `5000 t … 5000 t + 4999` of
   the aggregated-neighbour array (window 0), of the node features (window 1) and of the per-row scale
   (window 2); the whole 64 x 64 weight (window 3) and the whole 1 x 64 bias (window 4), which are copied in
   at the first point and then stay put; and the buffer that receives rows `5000 t … 5000 t + 4999` of the
   result (window 5). The body reads the five input buffers whole and overwrites the output buffer whole with
       max (bf16 (agg + scale * x) * bf16 W + b, 0),
   so what it leaves is a function of the five input blocks alone. Everything below is stated at a
   parameter `V`: the contents of the core's buffers at the moment the region is entered. -/
import proofs.«413695_j61357902791131_1_alg».proof.Proof.Gen.KernelIdeal.Launch
import proofs.«413695_j61357902791131_1_alg».proof.Proof.Gen.KernelIdeal.Skeleton
import proofs.«413695_j61357902791131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided structurally, one step per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer0
-- the core's buffer contents when the region is entered
variable (V : (c : Dev nD) → (b : Ref sig .tc) → Buf (Elt F) ((c : Thread nD τ).loc b))

/-! ## The blocks the windows present -/

/-- The block window `w` presents at grid point `t`: the entries of its array, as the region found it, that the
    window's index map selects there. For windows 0, 1, 2 and 5 these are rows `5000 t … 5000 t + 4999`; for
    windows 3 and 4 the index map is constant and the block is the whole array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes

Every access of the body is to a whole staging buffer: the rectangle with corner `(0, 0)` and the buffer's
own extents. -/

/-- All of a 5000 x 64 buffer. -/
abbrev r0_rows : Rect S5000x64 := Rect.unit (s := S5000x64) ![0, 0] S5000x64.size inb_S5000x64_S5000x64_0_0
/-- All of a 5000 x 1 buffer. -/
abbrev r0_col : Rect S5000x1 := Rect.unit (s := S5000x1) ![0, 0] S5000x1.size inb_S5000x1_S5000x1_0_0
/-- All of the 64 x 64 weight buffer. -/
abbrev r0_wt : Rect S64x64 := Rect.unit (s := S64x64) ![0, 0] S64x64.size inb_S64x64_S64x64_0_0
/-- All of the 1 x 64 bias buffer. -/
abbrev r0_bias : Rect S1x64 := Rect.unit (s := S1x64) ![0, 0] S1x64.size inb_S1x64_S1x64_0_0

/-! ## What the body leaves in the output buffer -/

/-- The output buffer after the body, as a function of the five input blocks `x0` (aggregate), `x1` (features),
    `x2` (scale), `x3` (weight), `x4` (bias): the body's single store, laid over the buffer. Its payload is
    the layer's value `k0_pay1`, whose arguments come in the order the body loads them — aggregate, scale,
    features, weight, bias — which is why `x2` precedes `x1` below. -/
def out0_5 (x0 : Vec F S5000x64 .f32) (x1 : Vec F S5000x64 .f32) (x2 : Vec F S5000x1 .f32) (x3 : Vec F S64x64 .f32) (x4 : Vec F S1x64 .f32) :
    Vec F S5000x64 .f32 :=
  View.canon [⟨r0_rows, k0_pay1 (View.ld x0 r0_rows) (View.ld x2 r0_col) (View.ld x1 r0_rows) (View.ld x3 r0_wt) (View.ld x4 r0_bias)⟩]

/-- The one store is to the whole buffer, so every index of the buffer lies in its rectangle. -/
theorem cover0_5 (p : Vec F S5000x64 .f32) (y : S5000x64.Idx) :
    ∃ pc ∈ ([⟨r0_rows, p⟩] : List (View.Piece (Elt F) S5000x64 .f32)), y ∈ pc.1.set :=
  View.cover_of_tiled [⟨r0_rows, p⟩] S5000x64.size (by rfl) y

/-! ## The body's triple -/

set_option maxHeartbeats 1000000 in
/-- The body, run on six whole staging buffers of which the five inputs hold `x0 … x4` and the output holds
    anything, ends with the inputs as they were and the output at `out0_5 x0 x1 x2 x3 x4`. The body is its
    skeleton of memory operations: five whole-buffer loads of the inputs, one load of the output buffer whose
    value nothing reads (so whatever the buffer held is immaterial), and one whole-buffer store; a single store
    that covers the buffer leaves exactly its payload there. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S5000x1 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the region's pipeline on core `c`. The six arrays hold what the region found (`V`). After the
    body at point `t` each input buffer still holds its block and the output buffer holds `out0_5` of the five
    input blocks. The invariant carried from point to point is the untouched remainder of the core's state; no
    share is split and no tally is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the contents the region found. -/
theorem A_eq0 (c : Dev nD) (w : Fin cfg0.W) : (dat0 V c).A w = V c (Pipeline.arrRef spec0 w) := by
  dsimp only [dat0]

/-- What the body leaves, window by window: each input's block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- and the layer's value on the five blocks in the output. -/
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-! ## What the body finds in the input buffers

An input buffer holds its window's block at every point, whether or not the pipeline copied it in there. Where it
did, the copy put the block there. Where it did not, the window's block index is the one of the point before, the
body left that point's block in place, and the two blocks are the same entries of the same array. Windows 0, 1
and 2 are copied in at every point; windows 3 and 4 only at the first, their index map being constant — the
one statement covers both kinds. None of the windows is clipped at the array's edge (5000 divides 50000) and
none has an idle point, which discharges the side conditions by unfolding. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the pipeline hands the body at point `t`: the invariant, the tallies owed, and the six current staging
    buffers, each at what it holds when the body starts. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the same, each buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. The five input buffers hold their blocks (`before0_w`) and the output buffer holds
    something, so the body's triple applies at those blocks; the invariant and the tallies are the same before and
    after and pass by unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation on the body, at every point: its conjunction over the six windows, written
    out, is `sound_body0`. -/
theorem body_obligation0 (c : Dev nD) : BodyObligation (dat0 (F := F) V c) (defs₀ (F := F)) Variants.none () Set.univ := fun t => by
  rw [bigSep_W0, bigSep_W0]
  exact sound_body0 V c t

end Layer0

end Cert.KernelIdeal.Hand

end
-- ==== Proof.KI.Layer1.lean ====
/- Region 1 of the program: the second graph-convolution layer, run as a software pipeline over ten row blocks.

   At grid point `t` the pipeline presents the body with six staging buffers: rows `5000 t … 5000 t + 4999` of
   the aggregated-neighbour array of this layer (window 0), of the first layer's result (window 1) and of the
   per-row scale (window 2); the whole 64 x 64 weight (window 3) and the whole 1 x 64 bias (window 4), which are
   copied in at the first point and then stay put; and the buffer that receives rows `5000 t … 5000 t + 4999` of the
   result (window 5). The body reads the five input buffers whole and overwrites the output buffer whole with
       max (bf16 (agg + scale * x) * bf16 W + b, 0),
   so what it leaves is a function of the five input blocks alone. Everything below is stated at a
   parameter `V`: the contents of the core's buffers at the moment the region is entered. -/
import proofs.«413695_j61357902791131_1_alg».proof.Proof.Gen.KernelIdeal.Launch
import proofs.«413695_j61357902791131_1_alg».proof.Proof.Gen.KernelIdeal.Skeleton
import proofs.«413695_j61357902791131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided structurally, one step per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer1
-- the core's buffer contents when the region is entered
variable (V : (c : Dev nD) → (b : Ref sig .tc) → Buf (Elt F) ((c : Thread nD τ).loc b))

/-! ## The blocks the windows present -/

/-- The block window `w` presents at grid point `t`: the entries of its array, as the region found it, that the
    window's index map selects there. For windows 0, 1, 2 and 5 these are rows `5000 t … 5000 t + 4999`; for
    windows 3 and 4 the index map is constant and the block is the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes

Every access of the body is to a whole staging buffer: the rectangle with corner `(0, 0)` and the buffer's
own extents. -/

/-- All of a 5000 x 64 buffer. -/
abbrev r1_rows : Rect S5000x64 := Rect.unit (s := S5000x64) ![0, 0] S5000x64.size inb_S5000x64_S5000x64_0_0
/-- All of a 5000 x 1 buffer. -/
abbrev r1_col : Rect S5000x1 := Rect.unit (s := S5000x1) ![0, 0] S5000x1.size inb_S5000x1_S5000x1_0_0
/-- All of the 64 x 64 weight buffer. -/
abbrev r1_wt : Rect S64x64 := Rect.unit (s := S64x64) ![0, 0] S64x64.size inb_S64x64_S64x64_0_0
/-- All of the 1 x 64 bias buffer. -/
abbrev r1_bias : Rect S1x64 := Rect.unit (s := S1x64) ![0, 0] S1x64.size inb_S1x64_S1x64_0_0

/-! ## What the body leaves in the output buffer -/

/-- The output buffer after the body, as a function of the five input blocks `x0` (aggregate), `x1` (the layer's input),
    `x2` (scale), `x3` (weight), `x4` (bias): the body's single store, laid over the buffer. Its payload is
    the layer's value `k1_pay1`, whose arguments come in the order the body loads them — aggregate, scale,
    layer input, weight, bias — which is why `x2` precedes `x1` below. -/
def out1_5 (x0 : Vec F S5000x64 .f32) (x1 : Vec F S5000x64 .f32) (x2 : Vec F S5000x1 .f32) (x3 : Vec F S64x64 .f32) (x4 : Vec F S1x64 .f32) :
    Vec F S5000x64 .f32 :=
  View.canon [⟨r1_rows, k1_pay1 (View.ld x0 r1_rows) (View.ld x2 r1_col) (View.ld x1 r1_rows) (View.ld x3 r1_wt) (View.ld x4 r1_bias)⟩]

/-- The one store is to the whole buffer, so every index of the buffer lies in its rectangle. -/
theorem cover1_5 (p : Vec F S5000x64 .f32) (y : S5000x64.Idx) :
    ∃ pc ∈ ([⟨r1_rows, p⟩] : List (View.Piece (Elt F) S5000x64 .f32)), y ∈ pc.1.set :=
  View.cover_of_tiled [⟨r1_rows, p⟩] S5000x64.size (by rfl) y

/-! ## The body's triple -/

set_option maxHeartbeats 1000000 in
/-- The body, run on six whole staging buffers of which the five inputs hold `x0 … x4` and the output holds
    anything, ends with the inputs as they were and the output at `out1_5 x0 x1 x2 x3 x4`. The body is its
    skeleton of memory operations: five whole-buffer loads of the inputs, one load of the output buffer whose
    value nothing reads (so whatever the buffer held is immaterial), and one whole-buffer store; a single store
    that covers the buffer leaves exactly its payload there. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S5000x1 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`. The six arrays hold what the region found (`V`). After the
    body at point `t` each input buffer still holds its block and the output buffer holds `out1_5` of the five
    input blocks. The invariant carried from point to point is the untouched remainder of the core's state; no
    share is split and no tally is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the contents the region found. -/
theorem A_eq1 (c : Dev nD) (w : Fin cfg1.W) : (dat1 V c).A w = V c (Pipeline.arrRef spec1 w) := by
  dsimp only [dat1]

/-- What the body leaves, window by window: each input's block in place, -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- and the layer's value on the five blocks in the output. -/
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in the input buffers

An input buffer holds its window's block at every point, whether or not the pipeline copied it in there. Where it
did, the copy put the block there. Where it did not, the window's block index is the one of the point before, the
body left that point's block in place, and the two blocks are the same entries of the same array. Windows 0, 1
and 2 are copied in at every point; windows 3 and 4 only at the first, their index map being constant — the
one statement covers both kinds. None of the windows is clipped at the array's edge (5000 divides 50000) and
none has an idle point, which discharges the side conditions by unfolding. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation -/

/-- What the pipeline hands the body at point `t`: the invariant, the tallies owed, and the six current staging
    buffers, each at what it holds when the body starts. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. The five input buffers hold their blocks (`before1_w`) and the output buffer holds
    something, so the body's triple applies at those blocks; the invariant and the tallies are the same before and
    after and pass by unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation on the body, at every point: its conjunction over the six windows, written
    out, is `sound_body1`. -/
theorem body_obligation1 (c : Dev nD) : BodyObligation (dat1 (F := F) V c) (defs₀ (F := F)) Variants.none () Set.univ := fun t => by
  rw [bigSep_W1, bigSep_W1]
  exact sound_body1 V c t

end Layer1

end Cert.KernelIdeal.Hand

end
-- ==== Proof.KI.Layer2.lean ====
/- Region 2 of the program: the third and last graph-convolution layer, run as a software pipeline over ten
   row blocks.

   At grid point `t` the pipeline presents the body with six staging buffers: rows `5000 t … 5000 t + 4999` of
   the aggregated-neighbour array of this layer (window 0), of the second layer's result (window 1) and of the
   per-row scale (window 2); the whole 64 x 64 weight (window 3) and the whole 1 x 64 bias (window 4), which are
   copied in at the first point and then stay put; and the buffer that receives rows `5000 t … 5000 t + 4999` of
   the result (window 5). The body reads the five input buffers whole and overwrites the output buffer whole
   with
       bf16 (agg + scale * x) * bf16 W + b
   — the affine map alone: unlike the two layers before it, this one is not followed by a clamp at zero —, so
   what it leaves is a function of the five input blocks alone. Everything below is stated at a parameter `V`:
   the contents of the core's buffers at the moment the region is entered. -/
import proofs.«413695_j61357902791131_1_alg».proof.Proof.Gen.KernelIdeal.Launch
import proofs.«413695_j61357902791131_1_alg».proof.Proof.Gen.KernelIdeal.Skeleton
import proofs.«413695_j61357902791131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle 5000 rows long is decided structurally, one step per row
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Layer2
-- the core's buffer contents when the region is entered
variable (V : (c : Dev nD) → (b : Ref sig .tc) → Buf (Elt F) ((c : Thread nD τ).loc b))

/-! ## The blocks the windows present -/

/-- The block window `w` presents at grid point `t`: the entries of its array, as the region found it, that the
    window's index map selects there. For windows 0, 1, 2 and 5 these are rows `5000 t … 5000 t + 4999`; for
    windows 3 and 4 the index map is constant and the block is the whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body reads and writes

Every access of the body is to a whole staging buffer: the rectangle with corner `(0, 0)` and the buffer's
own extents. -/

/-- All of a 5000 x 64 buffer. -/
abbrev r2_rows : Rect S5000x64 := Rect.unit (s := S5000x64) ![0, 0] S5000x64.size inb_S5000x64_S5000x64_0_0
/-- All of a 5000 x 1 buffer. -/
abbrev r2_col : Rect S5000x1 := Rect.unit (s := S5000x1) ![0, 0] S5000x1.size inb_S5000x1_S5000x1_0_0
/-- All of the 64 x 64 weight buffer. -/
abbrev r2_wt : Rect S64x64 := Rect.unit (s := S64x64) ![0, 0] S64x64.size inb_S64x64_S64x64_0_0
/-- All of the 1 x 64 bias buffer. -/
abbrev r2_bias : Rect S1x64 := Rect.unit (s := S1x64) ![0, 0] S1x64.size inb_S1x64_S1x64_0_0

/-! ## What the body leaves in the output buffer -/

/-- The output buffer after the body, as a function of the five input blocks `x0` (aggregate), `x1` (the layer's input),
    `x2` (scale), `x3` (weight), `x4` (bias): the body's single store, laid over the buffer. Its payload is
    the layer's value `k2_pay1`, whose arguments come in the order the body loads them — aggregate, scale,
    layer input, weight, bias — which is why `x2` precedes `x1` below. -/
def out2_5 (x0 : Vec F S5000x64 .f32) (x1 : Vec F S5000x64 .f32) (x2 : Vec F S5000x1 .f32) (x3 : Vec F S64x64 .f32) (x4 : Vec F S1x64 .f32) :
    Vec F S5000x64 .f32 :=
  View.canon [⟨r2_rows, k2_pay1 (View.ld x0 r2_rows) (View.ld x2 r2_col) (View.ld x1 r2_rows) (View.ld x3 r2_wt) (View.ld x4 r2_bias)⟩]

/-- The one store is to the whole buffer, so every index of the buffer lies in its rectangle. -/
theorem cover2_5 (p : Vec F S5000x64 .f32) (y : S5000x64.Idx) :
    ∃ pc ∈ ([⟨r2_rows, p⟩] : List (View.Piece (Elt F) S5000x64 .f32)), y ∈ pc.1.set :=
  View.cover_of_tiled [⟨r2_rows, p⟩] S5000x64.size (by rfl) y

/-! ## The body's triple -/

set_option maxHeartbeats 1000000 in
/-- The body, run on six whole staging buffers of which the five inputs hold `x0 … x4` and the output holds
    anything, ends with the inputs as they were and the output at `out2_5 x0 x1 x2 x3 x4`. The body is its
    skeleton of memory operations: five whole-buffer loads of the inputs, one load of the output buffer whose
    value nothing reads (so whatever the buffer held is immaterial), and one whole-buffer store; a single store
    that covers the buffer leaves exactly its payload there. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S5000x1 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x64 .f32) (x1 : Vec F S5000x64 .f32) (x2 : Vec F S5000x1 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2_kernel i arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the region's pipeline on core `c`. The six arrays hold what the region found (`V`). After the
    body at point `t` each input buffer still holds its block and the output buffer holds `out2_5` of the five
    input blocks. The invariant carried from point to point is the untouched remainder of the core's state; no
    share is split and no tally is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the contents the region found. -/
theorem A_eq2 (c : Dev nD) (w : Fin cfg2.W) : (dat2 V c).A w = V c (Pipeline.arrRef spec2 w) := by
  dsimp only [dat2]

/-- What the body leaves, window by window: each input's block in place, -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
/-- and the layer's value on the five blocks in the output. -/
theorem after2_5 (c : Dev nD) (t : Fin cfg2.N) :
    (dat2 V c).after 5 t = out2_5 (iblk2 V c 0 t) (iblk2 V c 1 t) (iblk2 V c 2 t) (iblk2 V c 3 t) (iblk2 V c 4 t) := by
  dsimp only [dat2]

/-! ## What the body finds in the input buffers

An input buffer holds its window's block at every point, whether or not the pipeline copied it in there. Where it
did, the copy put the block there. Where it did not, the window's block index is the one of the point before, the
body left that point's block in place, and the two blocks are the same entries of the same array. Windows 0, 1
and 2 are copied in at every point; windows 3 and 4 only at the first, their index map being constant — the
one statement covers both kinds. None of the windows is clipped at the array's edge (5000 divides 50000) and
none has an idle point, which discharges the side conditions by unfolding. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation -/

/-- What the pipeline hands the body at point `t`: the invariant, the tallies owed, and the six current staging
    buffers, each at what it holds when the body starts. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same, each buffer at what the proof data say the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The five input buffers hold their blocks (`before2_w`) and the output buffer holds
    something, so the body's triple applies at those blocks; the invariant and the tallies are the same before and
    after and pass by unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline rule's obligation on the body, at every point: its conjunction over the six windows, written
    out, is `sound_body2`. -/
theorem body_obligation2 (c : Dev nD) : BodyObligation (dat2 (F := F) V c) (defs₀ (F := F)) Variants.none () Set.univ := fun t => by
  rw [bigSep_W2, bigSep_W2]
  exact sound_body2 V c t

end Layer2

end Cert.KernelIdeal.Hand

end
-- ==== Proof.KI.Pool.lean ====
/- Region 3 of the program: the mean pooling of the node features over the graphs and the linear read-out, run as a
   software pipeline over ten blocks of 5000 nodes.

   At grid point `t` the pipeline presents the body with five staging buffers: rows `5000 t … 5000 t + 4999` of the
   node features (window 0) and of the nodes' graph labels (window 1); the whole 64 x 10 read-out weight (window 2)
   and the whole 1 x 10 bias (window 3), which are copied in at the first point and then stay put; and the buffer of
   the 256 x 10 result (window 4), which is written back after the last point only. Beside them the body has two
   buffers of its own that are carried from point to point: the per-graph sums of the node features (256 x 64) and
   the per-graph node counts (256 x 1). The first point zeroes both; every point adds to them the one-hot pooling of
   its block (the transposed one-hot of the labels times the features, and the one-hot's column sums); the last point
   divides the sums by the counts clamped below by one, applies the read-out and stores the result.

   So what the two accumulators hold after point `n` is a recursion on `n` over the blocks (`acc3`), and the
   result is a function of the accumulators after the last point and the read-out's two blocks (`outFinal`). The
   module states the body's triple once per case of its two conditionals (first point, last point, any other), the
   invariant carried between points (before the first point every buffer of the body's own holds anything; afterwards
   the two accumulators hold `acc3` of the point before and every other such buffer is untouched), the proof data
   of the pipeline, and the rule's obligation on the body at every point; and that the invariant is entered from, and
   gives back, the region's own. Everything is stated at a parameter `V`: the contents of the core's buffers at the
   moment the region is entered. -/
import proofs.«413695_j61357902791131_1_alg».proof.Proof.Gen.KernelIdeal.Launch
import proofs.«413695_j61357902791131_1_alg».proof.Proof.Gen.KernelIdeal.Skeleton
import proofs.«413695_j61357902791131_1_alg».proof.Proof.Gen.KernelIdeal.Points
import Idealize.ShloMosaic.Lib.Pipeline.FrameBody
import Idealize.ShloMosaic.Lib.Ring
import Idealize.ShloMosaic.Lib.Tactic

-- membership of an index in a rectangle of these extents is decided structurally, one step per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling and classifier region: the accumulators and the proof data

The fourth pallas_call runs over ten blocks of 5000 nodes. Two scratch buffers are carried from point to point:
the per-graph sums of node features (256 x 64) and the per-graph node counts (256 x 1). The first point zeroes
both before adding its block; every point adds the one-hot pooling of its block; the last point divides the sums
by the counts (at least one), applies the classifier and stores the 256 x 10 result. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The whole-buffer rectangles the body loads and stores through -/

abbrev rH : Rect S5000x64 := Rect.unit (s := S5000x64) ![0, 0] S5000x64.size inb_S5000x64_S5000x64_0_0
abbrev rB : Rect S5000x1 := Rect.unit (s := S5000x1) ![0, 0] S5000x1.size inb_S5000x1_S5000x1_0_0
abbrev rS : Rect S256x64 := Rect.unit (s := S256x64) ![0, 0] S256x64.size inb_S256x64_S256x64_0_0
abbrev rC : Rect S256x1 := Rect.unit (s := S256x1) ![0, 0] S256x1.size inb_S256x1_S256x1_0_0
abbrev rW : Rect S64x10 := Rect.unit (s := S64x10) ![0, 0] S64x10.size inb_S64x10_S64x10_0_0
abbrev rBi : Rect S1x10 := Rect.unit (s := S1x10) ![0, 0] S1x10.size inb_S1x10_S1x10_0_0
abbrev rO : Rect S256x10 := Rect.unit (s := S256x10) ![0, 0] S256x10.size inb_S256x10_S256x10_0_0

/-! ## One point's update of the accumulators, as plain functions of the blocks -/

/-- The sums after the zeroing store of the first point. -/
def sumInit : Vec F S256x64 .f32 := View.canon [⟨rS, k3_pay1 (F := F)⟩]
/-- The counts after the zeroing store of the first point. -/
def cntInit : Vec F S256x1 .f32 := View.canon [⟨rC, k3_pay2 (F := F)⟩]
/-- The sums after one point: the old sums plus the one-hot pooling (transposed one-hot times features) of the block. -/
def sumStep (bt : Vec F S5000x1 .i32) (h : Vec F S5000x64 .f32) (s : Vec F S256x64 .f32) : Vec F S256x64 .f32 :=
  View.canon [⟨rS, k3_pay4 (View.ld bt rB) (View.ld h rH) (View.ld s rS)⟩]
/-- The counts after one point: the old counts plus the one-hot's column sums. -/
def cntStep (bt : Vec F S5000x1 .i32) (cn : Vec F S256x1 .f32) : Vec F S256x1 .f32 :=
  View.canon [⟨rC, k3_pay5 (View.ld bt rB) (View.ld cn rC)⟩]
/-- The result the last point stores: the mean (sums over counts clamped below by one) through the classifier. -/
def outFinal (s : Vec F S256x64 .f32) (cn : Vec F S256x1 .f32) (wfc : Vec F S64x10 .f32) (bfc : Vec F S1x10 .f32) : Vec F S256x10 .f32 :=
  View.canon [⟨rO, k3_pay6 (View.ld s rS) (View.ld cn rC) (View.ld wfc rW) (View.ld bfc rBi)⟩]

/-- What the two scratch buffers hold after the body at position `n`: at the first point one update of the zeroed
    accumulators, afterwards one update of what the point before left. -/
def acc3 (c : Dev nD) : (n : ℕ) → n < cfg3.N → Vec F S256x64 .f32 × Vec F S256x1 .f32
  | 0, hn => (sumStep (iblk3 V c 1 ⟨0, hn⟩) (iblk3 V c 0 ⟨0, hn⟩) sumInit, cntStep (iblk3 V c 1 ⟨0, hn⟩) cntInit)
  | n + 1, hn =>
    (sumStep (iblk3 V c 1 ⟨n + 1, hn⟩) (iblk3 V c 0 ⟨n + 1, hn⟩) (acc3 c n (Nat.lt_of_succ_lt hn)).1,
     cntStep (iblk3 V c 1 ⟨n + 1, hn⟩) (acc3 c n (Nat.lt_of_succ_lt hn)).2)

/-- The two scratch operands as memrefs: whole scoped buffers of the call's own. -/
abbrev scM0 : Memref sig .tc .vmem S256x64 .f32 := Memref.whole cc3_scratch0
abbrev scM1 : Memref sig .tc .vmem S256x1 .f32 := Memref.whole cc3_scratch1

/-- The region invariant before position `n`: before the first point the scoped rest (every scratch at anything) and
    the generator register; afterwards the two accumulators at what the point before left, every other scoped
    buffer untouched, and the generator register. -/
def Phi3 (c : Dev nD) : (n : ℕ) → n ≤ cfg3.N → sProp 𝕄
  | 0, _ => Pipeline.ΦA spec3 c
  | n + 1, hn => iprop(iprop(owns (c : Thread nD τ) scM0 fullShare (acc3 V c n hn).1 ∗ owns (c : Thread nD τ) scM1 fullShare (acc3 V c n hn).2)
      ∗ Pipeline.scopedRestBut spec3 c [cc3_scratch0, cc3_scratch1] ∗ (∃ r, prngReg c r))

/-- The proof data of the pooling pipeline on core `c`. The inputs' buffers hold their blocks after the body; the
    output's holds the classifier's result over the accumulators of its point (consulted at the last point only:
    elsewhere the window is idle and handed back as found). -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outFinal (acc3 V c t.val t.isLt).1 (acc3 V c t.val t.isLt).2 (iblk3 V c 2 t) (iblk3 V c 3 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem nine_lt : 9 < cfg3.N := by rw [show cfg3.N = 10 from N_3]; decide

theorem after3_4_last (c : Dev nD) (t : Fin cfg3.N) (ht : t.val = 9) :
    (dat3 V c).after 4 t = outFinal (acc3 V c 9 nine_lt).1 (acc3 V c 9 nine_lt).2 (iblk3 V c 2 t) (iblk3 V c 3 t) := by
  obtain ⟨n, hn⟩ := t
  dsimp only at ht
  subst ht
  dsimp only [dat3]

/-! ## The body's two conditions, in closed form over the grid -/

/-- The first conditional's condition (the zeroing of the accumulators): the coordinate is zero. -/
abbrev cond3_0 (i : grid3.Coords) : Prop :=
  (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
/-- The second conditional's condition (the classifier and the result's store): the coordinate is nine. -/
abbrev cond3_2 (i : grid3.Coords) : Prop := k3_cond2 i = 1#1
theorem hcond3_2 : ∀ t : Fin cfg3.N, cond3_2 (grid3.coords t) ↔ t.val = 9 :=
  (by decide +kernel : ∀ t : Fin grid3.N, cond3_2 (grid3.coords t) ↔ t.val = 9)

/-! ## The whole-buffer stores cover their buffers -/

theorem coverS (p0 : Vec F S256x64 .f32) (y : S256x64.Idx) :
    ∃ pc ∈ ([⟨rS, p0⟩] : List (View.Piece (Elt F) S256x64 .f32)), y ∈ pc.1.set :=
  View.cover_of_tiled [⟨rS, p0⟩] S256x64.size (by rfl) y
theorem coverC (p0 : Vec F S256x1 .f32) (y : S256x1.Idx) :
    ∃ pc ∈ ([⟨rC, p0⟩] : List (View.Piece (Elt F) S256x1 .f32)), y ∈ pc.1.set :=
  View.cover_of_tiled [⟨rC, p0⟩] S256x1.size (by rfl) y
theorem coverO (p0 : Vec F S256x10 .f32) (y : S256x10.Idx) :
    ∃ pc ∈ ([⟨rO, p0⟩] : List (View.Piece (Elt F) S256x10 .f32)), y ∈ pc.1.set :=
  View.cover_of_tiled [⟨rO, p0⟩] S256x10.size (by rfl) y

/-- The accumulators' rectangles are their whole buffers. -/
theorem memS (p0 : Vec F S256x64 .f32) (y : S256x64.Idx) : y ∈ (rS : Rect S256x64).set := by
  obtain ⟨pc, hm, hy⟩ := coverS p0 y
  rw [List.mem_singleton] at hm; subst hm; exact hy
theorem memC (p0 : Vec F S256x1 .f32) (y : S256x1.Idx) : y ∈ (rC : Rect S256x1).set := by
  obtain ⟨pc, hm, hy⟩ := coverC p0 y
  rw [List.mem_singleton] at hm; subst hm; exact hy

/-- A store through the whole accumulator, whatever was stored before it, leaves its payload laid over the buffer. -/
theorem read_last_S {κ : Kind} {sp : Space} (v : View sig κ sp S256x64 .f32) (f : v.ty.Contents (Elt F)) (w : Vec F S256x64 .f32)
    (L : List (View.Piece (Elt F) S256x64 .f32)) :
    v.read (Elt F) (v.writes (Elt F) f (⟨rS, w⟩ :: L)) = View.canon [⟨rS, w⟩] :=
  (View.read_writes_of_cover_last v f v f ⟨rS, w⟩ L [] (memS w)).trans (View.read_writes_eq_canon v f [⟨rS, w⟩] (coverS w))
theorem read_last_C {κ : Kind} {sp : Space} (v : View sig κ sp S256x1 .f32) (f : v.ty.Contents (Elt F)) (w : Vec F S256x1 .f32)
    (L : List (View.Piece (Elt F) S256x1 .f32)) :
    v.read (Elt F) (v.writes (Elt F) f (⟨rC, w⟩ :: L)) = View.canon [⟨rC, w⟩] :=
  (View.read_writes_of_cover_last v f v f ⟨rC, w⟩ L [] (memC w)).trans (View.read_writes_eq_canon v f [⟨rC, w⟩] (coverC w))

/-! ## The body's triple, one per case of its two conditionals -/

set_option maxHeartbeats 1000000 in
/-- A point that is neither the first nor the last: the accumulators are read and stored back updated. -/
theorem sound_middle (c : Dev nD) (E : Set ℕ) (i : grid3.Coords) (hc0 : ¬cond3_0 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S256x10 .f32) (harg5 : arg5.IsWhole) (arg6 : Memref sig .tc .vmem S256x64 .f32) (harg6 : arg6.IsWhole)
    (arg7 : Memref sig .tc .vmem S256x1 .f32) (harg7 : arg7.IsWhole)
    (h : Vec F S5000x64 .f32) (bt : Vec F S5000x1 .i32) (s : Vec F S256x64 .f32) (cn : Vec F S256x1 .f32) (K : PUnit → sProp 𝕄) :
    iprop(owns (c : Thread nD τ) arg1 fullShare h ∗ owns (c : Thread nD τ) arg2 fullShare bt
        ∗ owns (c : Thread nD τ) arg6 fullShare s ∗ owns (c : Thread nD τ) arg7 fullShare cn
        ∗ (iprop(owns (c : Thread nD τ) arg1 fullShare h ∗ owns (c : Thread nD τ) arg2 fullShare bt
            ∗ owns (c : Thread nD τ) arg6 fullShare (sumStep bt h s) ∗ owns (c : Thread nD τ) arg7 fullShare (cntStep bt cn)) -∗ K ⟨⟩))
      ⊢ wp frame (wpE (defs₀ (F := F)) Variants.none c none) E
          (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f1, %hf1, H1⟩, ⟨%f2, %hf2, H2⟩, ⟨%f6, %hf6, H6⟩, ⟨%f7, %hf7, H7⟩, Hk⟩
  subst hf1; subst hf2; subst hf6; subst hf7
  sl_exec (disch := first | exact hc0 | exact hc2)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    exact View.read_writes_eq_canon _ _ _ (coverS _)
  iexists _; isplitr
  swap; · iexact H7
  ipureintro
  exact View.read_writes_eq_canon _ _ _ (coverC _)

set_option maxHeartbeats 1000000 in
/-- The first point: both accumulators are zeroed, then updated. -/
theorem sound_first (c : Dev nD) (E : Set ℕ) (i : grid3.Coords) (hc0 : cond3_0 i) (hc2 : ¬cond3_2 i)
    (arg1 : Memref sig .tc .vmem S5000x64 .f32) (harg1 : arg1.IsWhole) (arg2 : Memref sig .tc .vmem S5000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S256x10 .f32) (harg5 : arg5.IsWhole) (arg6 : Memref sig .tc .vmem S256x64 .f32) (harg6 : arg6.IsWhole)
    (arg7 : Memref sig .tc .vmem S256x1 .f32) (harg7 : arg7.IsWhole)
    (h : Vec F S5000x64 .f32) (bt : Vec F S5000x1 .i32) (K : PUnit → sProp 𝕄) :
    iprop(owns (c : Thread nD τ) arg1 fullShare h ∗ owns (c : Thread nD τ) arg2 fullShare bt
        ∗ (∃ d, owns (c : Thread nD τ) arg6 fullShare d) ∗ (∃ d, owns (c : Thread nD τ) arg7 fullShare d)
        ∗ (iprop(owns (c : Thread nD τ) arg1 fullShare h ∗ owns (c : Thread nD τ) arg2 fullShare bt
            ∗ owns (c : Thread nD τ) arg6 fullShare (sumStep bt h sumInit) ∗ owns (c : Thread nD τ) arg7 fullShare (cntStep bt cntInit)) -∗ K ⟨⟩))
      ⊢ wp frame (wpE (defs₀ (F := F)) Variants.none c none) E
          (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f1, %hf1, H1⟩, ⟨%f2, %hf2, H2⟩, ⟨%d6, %f6, -, H6⟩, ⟨%d7, %f7, -, H7⟩, Hk⟩
  subst hf1; subst hf2
  sl_exec (disch := first | exact hc0 | exact hc2)
  sl_step
  iapply Hk
  isplitl [H1]
  · iexists f1; isplitr; · ipureintro; rfl
    iexact H1
  isplitl [H2]
  · iexists f2; isplitr; · ipureintro; rfl
    iexact H2
  isplitl [H6]
  · iexists _; isplitr
    swap; · iexact H6
    ipureintro
    unfold sound_first.sl.v18 sound_first.sl.H6_1
    rw [View.readCov_eq_canon_ld _ _ _ (coverS _)]
    exact read_last_S _ _ _ _
  iexists _; isplitr
  swap; · iexact H7
  ipureintro
  unfold sound_first.sl.v23 sound_first.sl.H7_1
  rw [View.readCov_eq_canon_ld _ _ _ (coverC _)]
  exact read_last_C _ _ _ _

set_option maxHeartbeats 1000000 in
/-- The last point: the accumulators are updated, then the mean goes through the classifier into the output's buffer. -/
theorem sound_last (c : Dev nD) (E : Set ℕ) (i : grid3.Coords) (hc0 : ¬cond3_0 i) (hc2 : cond3_2 i)
    (arg1 : Memref sig .tc .vmem S5000x64 .f32) (harg1 : arg1.IsWhole) (arg2 : Memref sig .tc .vmem S5000x1 .i32) (harg2 : arg2.IsWhole)
    (arg3 : Memref sig .tc .vmem S64x10 .f32) (harg3 : arg3.IsWhole) (arg4 : Memref sig .tc .vmem S1x10 .f32) (harg4 : arg4.IsWhole)
    (arg5 : Memref sig .tc .vmem S256x10 .f32) (harg5 : arg5.IsWhole) (arg6 : Memref sig .tc .vmem S256x64 .f32) (harg6 : arg6.IsWhole)
    (arg7 : Memref sig .tc .vmem S256x1 .f32) (harg7 : arg7.IsWhole)
    (h : Vec F S5000x64 .f32) (bt : Vec F S5000x1 .i32) (wfc : Vec F S64x10 .f32) (bfc : Vec F S1x10 .f32)
    (s : Vec F S256x64 .f32) (cn : Vec F S256x1 .f32) (K : PUnit → sProp 𝕄) :
    iprop(owns (c : Thread nD τ) arg1 fullShare h ∗ owns (c : Thread nD τ) arg2 fullShare bt
        ∗ owns (c : Thread nD τ) arg3 fullShare wfc ∗ owns (c : Thread nD τ) arg4 fullShare bfc
        ∗ (∃ d, owns (c : Thread nD τ) arg5 fullShare d)
        ∗ owns (c : Thread nD τ) arg6 fullShare s ∗ owns (c : Thread nD τ) arg7 fullShare cn
        ∗ (iprop(owns (c : Thread nD τ) arg1 fullShare h ∗ owns (c : Thread nD τ) arg2 fullShare bt
            ∗ owns (c : Thread nD τ) arg3 fullShare wfc ∗ owns (c : Thread nD τ) arg4 fullShare bfc
            ∗ owns (c : Thread nD τ) arg5 fullShare (outFinal (sumStep bt h s) (cntStep bt cn) wfc bfc)
            ∗ owns (c : Thread nD τ) arg6 fullShare (sumStep bt h s) ∗ owns (c : Thread nD τ) arg7 fullShare (cntStep bt cn)) -∗ K ⟨⟩))
      ⊢ wp frame (wpE (defs₀ (F := F)) Variants.none c none) E
          (cc3__pool_fc_kernel i arg1 harg1 arg2 harg2 arg3 harg3 arg4 harg4 arg5 harg5 arg6 harg6 arg7 harg7) K := by
  simp only [cc3__pool_fc_kernel_eq_skeleton]; unfold cc3__pool_fc_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf1; subst hf2; subst hf3; subst hf4; subst hf6; subst hf7
  sl_exec (disch := first | exact hc0 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    unfold sound_last.sl.v31 sound_last.sl.v32 sound_last.sl.H6_1 sound_last.sl.H7_1
    rw [View.readCov_eq_canon_ld _ _ _ (coverS _), View.readCov_eq_canon_ld _ _ _ (coverC _)]
    exact View.read_writes_eq_canon _ _ _ (coverO _)
  isplitl [H6]
  · iexists _; isplitr
    swap; · iexact H6
    ipureintro
    unfold sound_last.sl.H6_1
    exact View.read_writes_eq_canon _ _ _ (coverS _)
  iexists _; isplitr
  swap; · iexact H7
  ipureintro
  unfold sound_last.sl.H7_1
  exact View.read_writes_eq_canon _ _ _ (coverC _)

/-! ## The invariant, unfolded at each kind of position -/

/-- The class's invariant with the two accumulators taken out of the scoped rest. -/
theorem PhiA3_eq (c : Dev nD) :
    (Pipeline.ΦA spec3 c : sProp 𝕄)
      = iprop(iprop(iprop((∃ d, owns (c : Thread nD τ) scM0 fullShare d) ∗ (∃ d, owns (c : Thread nD τ) scM1 fullShare d))
          ∗ Pipeline.scopedRestBut spec3 c [cc3_scratch0, cc3_scratch1]) ∗ (∃ r, prngReg c r)) := by
  unfold Pipeline.ΦA; rw [scopedRest3_split]; simp only [scM0, scM1, owns_whole]; try rfl

theorem Phi3_zero (c : Dev nD) (n : ℕ) (h : n ≤ cfg3.N) (hz : n = 0) : Phi3 V c n h = Pipeline.ΦA spec3 c := by
  subst hz; rfl

/-- After point `n` (before point `n + 1`): the accumulators at that point's contents. -/
theorem Phi3_succ (c : Dev nD) (n : ℕ) (hn : n < cfg3.N) :
    Phi3 V c (n + 1) hn = iprop(iprop(owns (c : Thread nD τ) scM0 fullShare (acc3 V c n hn).1 ∗ owns (c : Thread nD τ) scM1 fullShare (acc3 V c n hn).2)
      ∗ Pipeline.scopedRestBut spec3 c [cc3_scratch0, cc3_scratch1] ∗ (∃ r, prngReg c r)) := rfl

/-- Before a point that is not the first: the accumulators at what the point before left. -/
theorem Phi3_pos (c : Dev nD) (n : ℕ) (h : n ≤ cfg3.N) (hz : n ≠ 0) :
    Phi3 V c n h = iprop(iprop(owns (c : Thread nD τ) scM0 fullShare (acc3 V c (n - 1) (by omega)).1
        ∗ owns (c : Thread nD τ) scM1 fullShare (acc3 V c (n - 1) (by omega)).2)
      ∗ Pipeline.scopedRestBut spec3 c [cc3_scratch0, cc3_scratch1] ∗ (∃ r, prngReg c r)) := by
  cases n with
  | zero => exact absurd rfl hz
  | succ n => rfl

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-! ## The accumulators, unfolded at each kind of position -/

theorem acc3_zero_1 (c : Dev nD) (t : Fin cfg3.N) (h : t.val = 0) :
    (acc3 V c t.val t.isLt).1 = sumStep (iblk3 V c 1 t) (iblk3 V c 0 t) sumInit := by
  obtain ⟨n, hn⟩ := t
  dsimp only at h
  subst h
  rfl
theorem acc3_zero_2 (c : Dev nD) (t : Fin cfg3.N) (h : t.val = 0) :
    (acc3 V c t.val t.isLt).2 = cntStep (iblk3 V c 1 t) cntInit := by
  obtain ⟨n, hn⟩ := t
  dsimp only at h
  subst h
  rfl
theorem acc3_pos_1 (c : Dev nD) (t : Fin cfg3.N) (h : t.val ≠ 0) :
    (acc3 V c t.val t.isLt).1
      = sumStep (iblk3 V c 1 t) (iblk3 V c 0 t) (acc3 V c (t.val - 1) (Nat.lt_of_le_of_lt (Nat.sub_le _ _) t.isLt)).1 := by
  obtain ⟨n, hn⟩ := t
  cases n with
  | zero => exact absurd rfl h
  | succ n => rfl
theorem acc3_pos_2 (c : Dev nD) (t : Fin cfg3.N) (h : t.val ≠ 0) :
    (acc3 V c t.val t.isLt).2
      = cntStep (iblk3 V c 1 t) (acc3 V c (t.val - 1) (Nat.lt_of_le_of_lt (Nat.sub_le _ _) t.isLt)).2 := by
  obtain ⟨n, hn⟩ := t
  cases n with
  | zero => exact absurd rfl h
  | succ n => rfl

/-! ## What the body leaves, window by window, and what it finds in the inputs' buffers -/

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = outFinal (acc3 V c t.val t.isLt).1 (acc3 V c t.val t.isLt).2 (iblk3 V c 2 t) (iblk3 V c 3 t) := by
  dsimp only [dat3]

/-- An input's buffer holds its window's block at every point, copied in there or not: where it was not, the block
    index is the one of the point before, the body left that block in place, and the two are the same entries of the
    same array. None of the four is clipped and none has an idle point. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The output's window: idle and not written back except at the last point -/

theorem idleAt3_4 : ∀ t : Fin cfg3.N, ¬cond3_2 (grid3.coords t) → cfg3.idle 4 (grid3.coords t) = true :=
  (by decide +kernel : ∀ t : Fin grid3.N, ¬cond3_2 (grid3.coords t) → cfg3.idle 4 (grid3.coords t) = true)
theorem noFlush3_4 : ∀ t : Fin cfg3.N, ¬cond3_2 (grid3.coords t) → (cfg3.win 4).flush t = false :=
  (by decide +kernel : ∀ t : Fin grid3.N, ¬cond3_2 (grid3.coords t) → win3_4.flush t = false)
theorem liveAt3_4 : ∀ t : Fin cfg3.N, cond3_2 (grid3.coords t) → cfg3.idle 4 (grid3.coords t) = false :=
  (by decide +kernel : ∀ t : Fin grid3.N, cond3_2 (grid3.coords t) → cfg3.idle 4 (grid3.coords t) = false)

/-! ## The body obligation -/

/-- What the pipeline hands the body at point `t`: the invariant, the tallies owed, and the five current staging
    buffers, each at what it holds when the body starts. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body hands back: the invariant at the next position, each input's buffer at its block, and the output's
    buffer at the result where the body stores it, as found elsewhere. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ (dat3 V c).leavesExact 4 t)

set_option maxHeartbeats 4000000 in
/-- The body at any point, by the point's case. At the first point the invariant is the class's: the accumulators hold
    anything, are zeroed and updated. At any later point the invariant hands them over at what the point before left
    and takes them back updated. The output's buffer is stored only at the last point; elsewhere it is handed back as
    found. The rest of the scoped buffers, the generator register and the tallies pass by unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [after3_0, after3_1, after3_2, after3_3]
  have hN : t.val < 10 := lt_of_lt_of_eq t.isLt (show cfg3.N = 10 from N_3)
  by_cases h0 : t.val = 0
  · have hc0 : cond3_0 (grid3.coords t) := (hcond3_0 t).mpr h0
    have hc2 : ¬cond3_2 (grid3.coords t) := fun h => by have := (hcond3_2 t).mp h; omega
    rw [Dat.leavesExact_idle (dat3 V c) 4 t (idleAt3_4 t hc2) (noFlush3_4 t hc2)]
    rw [acc3_zero_1 V c t h0, acc3_zero_2 V c t h0]
    rw [Phi3_castSucc V c t, Phi3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_first c Set.univ _ hc0 hc2 _ _ _ _ _ _ _ _ _ _ _ _ _ _ (iblk3 V c 0 t) (iblk3 V c 1 t) _)
    isplitl [H0]; · iexact H0
    isplitl [H1]; · iexact H1
    isplitl [HS0]; · iexact HS0
    isplitl [HS1]; · iexact HS1
    iintro ⟨H0, H1, HS0, HS1⟩
    isplitl [HS0 HS1 HR Hg]
    · isplitl [HS0 HS1]
      · isplitl [HS0]; · iexact HS0
        iexact HS1
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · have hc0 : ¬cond3_0 (grid3.coords t) := fun h => h0 ((hcond3_0 t).mp h)
    by_cases h9 : t.val = 9
    · have hc2 : cond3_2 (grid3.coords t) := (hcond3_2 t).mpr h9
      rw [show (dat3 V c).leavesExact 4 t = owns (c : Thread nD τ) (st3_4 t) fullShare ((dat3 V c).after 4 t) from by
        unfold Dat.leavesExact; rw [liveAt3_4 t hc2], after3_4]
      rw [acc3_pos_1 V c t h0, acc3_pos_2 V c t h0]
      rw [Phi3_castSucc V c t, Phi3_pos V c _ _ h0]
      iintro ⟨⟨⟨HS0, HS1⟩, HR, Hg⟩, Ho, ⟨%d0, H0⟩, ⟨%d1, H1⟩, ⟨%d2, H2⟩, ⟨%d3, H3⟩, ⟨%d4, H4⟩⟩
      iapply (sound_last c Set.univ _ hc0 hc2 _ _ _ _ _ _ _ _ _ _ _ _ _ _
        (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      iexact H4
    · have hc2 : ¬cond3_2 (grid3.coords t) := fun h => h9 ((hcond3_2 t).mp h)
      rw [Dat.leavesExact_idle (dat3 V c) 4 t (idleAt3_4 t hc2) (noFlush3_4 t hc2)]
      rw [acc3_pos_1 V c t h0, acc3_pos_2 V c t h0]
      rw [Phi3_castSucc V c t, Phi3_pos V c _ _ h0]
      iintro ⟨⟨⟨HS0, HS1⟩, HR, Hg⟩, Ho, ⟨%d0, H0⟩, ⟨%d1, H1⟩, ⟨%d2, H2⟩, ⟨%d3, H3⟩, ⟨%d4, H4⟩⟩
      iapply (sound_middle c Set.univ _ hc0 hc2 _ _ _ _ _ _ _ _ _ _ _ _ _ _ (iblk3 V c 0 t) (iblk3 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 HR Hg]
      · isplitl [HS0 HS1]
        · isplitl [HS0]; · iexact HS0
          iexact HS1
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The pipeline rule's obligation on the body, at every point: its conjunction over the five windows, written
    out, is `sound_body3`. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the class's back: what the accumulators hold is forgotten. -/
theorem Phi3_out (c : Dev nD) (t : Fin (cfg3.N + 1)) (ht : t.val ≠ 0) : (dat3 V c).Φ t ⊢ Pipeline.ΦA spec3 c := by
  rw [show (dat3 V c).Φ t = Phi3 V c t.val (Nat.le_of_lt_succ t.isLt) from rfl, Phi3_pos V c _ _ ht, PhiA3_eq]
  iintro ⟨⟨HS0, HS1⟩, HR, Hg⟩
  isplitl [HS0 HS1 HR]
  · isplitl [HS0 HS1]
    · isplitl [HS0]
      · iexists _; iexact HS0
      iexists _; iexact HS1
    iexact HR
  iexact Hg

theorem hout3 (c : Dev nD) : (dat3 V c).Φ (Fin.last cfg3.N) ⊢ Pipeline.ΦA spec3 c :=
  Phi3_out V c _ (by rw [Fin.val_last]; have : cfg3.N = 10 := N_3; omega)

end Cert.KernelIdeal.Hand

end
-- ==== Proof.KI.Run.lean ====
/-
  The run of the graph-convolution program: three layer regions and the pooling-and-classifier region among four
  stretches of host operations. The buffer contents at every boundary between segments are a fold from the launch
  memory; every argument array is read back through that fold to its launch contents; @main is the list of its eight
  segments, each region entered at the contents the fold gives it; the launch theorem for a list of segments then
  says that every weakly fair execution terminates with the result array at what the last region's write-back leaves
  and the arguments as launched.
-/
import proofs.«413695_j61357902791131_1_alg».proof.Proof.Gen.KernelIdeal.Launch
import proofs.«413695_j61357902791131_1_alg».proof.Proof.Gen.KernelIdeal.Skeleton
import proofs.«413695_j61357902791131_1_alg».proof.Proof.Gen.KernelIdeal.Points
import proofs.«413695_j61357902791131_1_alg».proof.Proof.KI.Layer0
import proofs.«413695_j61357902791131_1_alg».proof.Proof.KI.Layer1
import proofs.«413695_j61357902791131_1_alg».proof.Proof.KI.Layer2
import proofs.«413695_j61357902791131_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at the boundaries of @main's segments

@main alternates four stretches of host operations with the four kernel regions and ends with the last region.
The contents of core `c`'s buffers at each boundary are a fold from the launch memory: a stretch of host operations
takes contents `X` to `StableHlo.after ops X`; a region takes its entry contents to the same contents with its own
arrays replaced by what its write-backs leave (the inputs as entered, the output with every block written). -/

/-- The references the first stretch of host operations writes: the edge indices split and wrapped, the degree and
    its inverse square root, the per-edge and per-node scales, the first aggregation and the first bias row. -/
def wr0 : List (Ref sig .tc) :=
  [ main_v0, main_v1, main_v2, main_v3, main_cst, main_v4, main_c, main_v5, main_v6, main_c_0, main_v7, main_v8,
    main_v9, main_v10, main_cst_1, main_v11, main_v12, main_cst_2, main_v13, main_v14, main_v15, main_c_3,
    main_v16, main_v17, main_c_4, main_v18, main_v19, main_v20, main_v21, main_v22, main_c_5, main_v23, main_v24,
    main_c_6, main_v25, main_v26, main_v27, main_v28, main_v29, main_v30, main_v31, main_v32, main_c_7, main_v33,
    main_v34, main_c_8, main_v35, main_v36, main_v37, main_v38, main_v39, main_v40, main_v41, main_v42, main_cst_9,
    main_v43, main_c_10, main_v44, main_v45, main_c_11, main_v46, main_v47, main_v48, main_v49, main_v50, main_v51 ]
/-- The references the second stretch writes: the second aggregation and the second bias row. -/
def wr1 : List (Ref sig .tc) :=
  [ main_c_12, main_v53, main_v54, main_c_13, main_v55, main_v56, main_v57, main_v58, main_v59, main_v60, main_v61,
    main_v62, main_cst_14, main_v63, main_c_15, main_v64, main_v65, main_c_16, main_v66, main_v67, main_v68,
    main_v69, main_v70, main_v71 ]
/-- The references the third stretch writes: the third aggregation and the third bias row. -/
def wr2 : List (Ref sig .tc) :=
  [ main_c_17, main_v73, main_v74, main_c_18, main_v75, main_v76, main_v77, main_v78, main_v79, main_v80, main_v81,
    main_v82, main_cst_19, main_v83, main_c_20, main_v84, main_v85, main_c_21, main_v86, main_v87, main_v88,
    main_v89, main_v90, main_v91 ]
/-- The references the fourth stretch writes: the graph ids as a column and the classifier's bias as a row. -/
def wr3 : List (Ref sig .tc) := [ main_v93, main_v94 ]

set_option maxHeartbeats 4000000 in
/-- Every operation of stretch 0 writes one of `wr0`. -/
theorem hostOps0_writes : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- so a reference outside `wr0` keeps its contents through the stretch. -/
theorem hostOps0_keeps (X : Valuation τ sig (Elt F)) (r : Ref sig .tc) (hr : r ∉ wr0) :
    StableHlo.after hostOps0 X (Proc.devRef .tc r) = X (Proc.devRef .tc r) :=
  StableHlo.after_of_writes_sub hostOps0 X hostOps0_writes hr

/-- Every operation of stretch 1 writes one of `wr1`. -/
theorem hostOps1_writes : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- so a reference outside `wr1` keeps its contents through the stretch. -/
theorem hostOps1_keeps (X : Valuation τ sig (Elt F)) (r : Ref sig .tc) (hr : r ∉ wr1) :
    StableHlo.after hostOps1 X (Proc.devRef .tc r) = X (Proc.devRef .tc r) :=
  StableHlo.after_of_writes_sub hostOps1 X hostOps1_writes hr

/-- Every operation of stretch 2 writes one of `wr2`. -/
theorem hostOps2_writes : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- so a reference outside `wr2` keeps its contents through the stretch. -/
theorem hostOps2_keeps (X : Valuation τ sig (Elt F)) (r : Ref sig .tc) (hr : r ∉ wr2) :
    StableHlo.after hostOps2 X (Proc.devRef .tc r) = X (Proc.devRef .tc r) :=
  StableHlo.after_of_writes_sub hostOps2 X hostOps2_writes hr

/-- Every operation of stretch 3 writes one of `wr3`. -/
theorem hostOps3_writes : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff]
  repeat' apply And.intro
  all_goals exact List.mem_toFinset.mpr (List.mem_map_of_mem (by decide))
/-- so a reference outside `wr3` keeps its contents through the stretch. -/
theorem hostOps3_keeps (X : Valuation τ sig (Elt F)) (r : Ref sig .tc) (hr : r ∉ wr3) :
    StableHlo.after hostOps3 X (Proc.devRef .tc r) = X (Proc.devRef .tc r) :=
  StableHlo.after_of_writes_sub hostOps3 X hostOps3_writes hr

/-- Core `c`'s buffers at launch. -/
abbrev launchC : Dev nD → Valuation τ sig (Elt F) := fun c b => (s₀ m ρ).mem ((c : Dev nD), b)
/-- At region 0's entry: the launch contents after the first stretch. -/
abbrev entry0 : Dev nD → Valuation τ sig (Elt F) := fun c => StableHlo.after hostOps0 (launchC m ρ c)
/-- The same read at the TensorCore's references: what region 0's proof data take. -/
abbrev VE0 : (c : Dev nD) → (b : Ref sig .tc) → Buf (Elt F) ((c : Thread nD τ).loc b) := fun c b => entry0 m ρ c b
theorem VE0_eq (c : Dev nD) (b : Ref sig .tc) :
    VE0 m ρ c b = StableHlo.after hostOps0 (fun b' => m ((c : Dev nD), b')) (Proc.devRef .tc b) := rfl

/-- At region 0's exit: its arrays at what the pipeline leaves after its last point, every other buffer as entered. -/
def exit0 (c : Dev nD) : Valuation τ sig (Elt F) :=
  Pipeline.withArrays spec0 c (entry0 m ρ c) fun w => (dat0 (VE0 m ρ) c).arrAt w cfg0.N
theorem exit0_arr (c : Dev nD) (w : Fin cfg0.W) :
    exit0 m ρ c (Proc.devRef .tc (Pipeline.arrRef spec0 w)) = (dat0 (VE0 m ρ) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 m ρ c (Proc.devRef .tc b) = entry0 m ρ c (Proc.devRef .tc b) := by
  unfold exit0; exact Pipeline.withArrays_of_ne spec0 c _ _ b hb
/-- The same read at the TensorCore's references. -/
abbrev VX0 : (c : Dev nD) → (b : Ref sig .tc) → Buf (Elt F) ((c : Thread nD τ).loc b) := fun c b => exit0 m ρ c b
/-- The two facts that put region 0's arrays back among the unscoped buffers at its exit: each array holds what
    the pipeline leaves, every other buffer what it held at entry. -/
theorem hF0 (c : Dev nD) (w : Fin cfg0.W) : (dat0 (VE0 m ρ) c).arrAt w cfg0.N = VX0 m ρ c (Pipeline.arrRef spec0 w) :=
  (exit0_arr m ρ c w).symm
theorem hrest0 (c : Dev nD) : ∀ b, b ∉ Finset.univ.image (Pipeline.arrRef spec0) → VX0 m ρ c b = VE0 m ρ c b :=
  fun b hb => exit0_of_ne m ρ c b fun w e => hb (Finset.mem_image.mpr ⟨w, Finset.mem_univ _, e⟩)
/-- An INPUT array of region 0 leaves the region as it entered (no write-back touches it). -/
theorem exit0_in (c : Dev nD) (w : Fin cfg0.W) (hin : (cfg0.win w).isOut = false) :
    exit0 m ρ c (Proc.devRef .tc (Pipeline.arrRef spec0 w)) = entry0 m ρ c (Proc.devRef .tc (Pipeline.arrRef spec0 w)) :=
  (exit0_arr m ρ c w).trans (((dat0 (VE0 m ρ) c).arrAt_in w hin _).trans (A_eq0 (VE0 m ρ) c w))

/-- At region 1's entry: region 0's exit contents after stretch 1. -/
abbrev entry1 : Dev nD → Valuation τ sig (Elt F) := fun c => StableHlo.after hostOps1 (exit0 m ρ c)
abbrev VE1 : (c : Dev nD) → (b : Ref sig .tc) → Buf (Elt F) ((c : Thread nD τ).loc b) := fun c b => entry1 m ρ c b
theorem VE1_eq (c : Dev nD) (b : Ref sig .tc) :
    VE1 m ρ c b = StableHlo.after hostOps1 (exit0 m ρ c) (Proc.devRef .tc b) := rfl

/-- At region 1's exit: its arrays at what the pipeline leaves after its last point, every other buffer as entered. -/
def exit1 (c : Dev nD) : Valuation τ sig (Elt F) :=
  Pipeline.withArrays spec1 c (entry1 m ρ c) fun w => (dat1 (VE1 m ρ) c).arrAt w cfg1.N
theorem exit1_arr (c : Dev nD) (w : Fin cfg1.W) :
    exit1 m ρ c (Proc.devRef .tc (Pipeline.arrRef spec1 w)) = (dat1 (VE1 m ρ) c).arrAt w cfg1.N := by
  unfold exit1; exact Pipeline.withArrays_arr spec1 launch1.win.arr_inj c _ _ w
theorem exit1_of_ne (c : Dev nD) (b : Ref sig .tc) (hb : ∀ w, Pipeline.arrRef spec1 w ≠ b) :
    exit1 m ρ c (Proc.devRef .tc b) = entry1 m ρ c (Proc.devRef .tc b) := by
  unfold exit1; exact Pipeline.withArrays_of_ne spec1 c _ _ b hb
/-- The same read at the TensorCore's references. -/
abbrev VX1 : (c : Dev nD) → (b : Ref sig .tc) → Buf (Elt F) ((c : Thread nD τ).loc b) := fun c b => exit1 m ρ c b
/-- The two facts that put region 1's arrays back among the unscoped buffers at its exit: each array holds what
    the pipeline leaves, every other buffer what it held at entry. -/
theorem hF1 (c : Dev nD) (w : Fin cfg1.W) : (dat1 (VE1 m ρ) c).arrAt w cfg1.N = VX1 m ρ c (Pipeline.arrRef spec1 w) :=
  (exit1_arr m ρ c w).symm
theorem hrest1 (c : Dev nD) : ∀ b, b ∉ Finset.univ.image (Pipeline.arrRef spec1) → VX1 m ρ c b = VE1 m ρ c b :=
  fun b hb => exit1_of_ne m ρ c b fun w e => hb (Finset.mem_image.mpr ⟨w, Finset.mem_univ _, e⟩)
/-- An INPUT array of region 1 leaves the region as it entered (no write-back touches it). -/
theorem exit1_in (c : Dev nD) (w : Fin cfg1.W) (hin : (cfg1.win w).isOut = false) :
    exit1 m ρ c (Proc.devRef .tc (Pipeline.arrRef spec1 w)) = entry1 m ρ c (Proc.devRef .tc (Pipeline.arrRef spec1 w)) :=
  (exit1_arr m ρ c w).trans (((dat1 (VE1 m ρ) c).arrAt_in w hin _).trans (A_eq1 (VE1 m ρ) c w))

/-- At region 2's entry: region 1's exit contents after stretch 2. -/
abbrev entry2 : Dev nD → Valuation τ sig (Elt F) := fun c => StableHlo.after hostOps2 (exit1 m ρ c)
abbrev VE2 : (c : Dev nD) → (b : Ref sig .tc) → Buf (Elt F) ((c : Thread nD τ).loc b) := fun c b => entry2 m ρ c b
theorem VE2_eq (c : Dev nD) (b : Ref sig .tc) :
    VE2 m ρ c b = StableHlo.after hostOps2 (exit1 m ρ c) (Proc.devRef .tc b) := rfl

/-- At region 2's exit: its arrays at what the pipeline leaves after its last point, every other buffer as entered. -/
def exit2 (c : Dev nD) : Valuation τ sig (Elt F) :=
  Pipeline.withArrays spec2 c (entry2 m ρ c) fun w => (dat2 (VE2 m ρ) c).arrAt w cfg2.N
theorem exit2_arr (c : Dev nD) (w : Fin cfg2.W) :
    exit2 m ρ c (Proc.devRef .tc (Pipeline.arrRef spec2 w)) = (dat2 (VE2 m ρ) c).arrAt w cfg2.N := by
  unfold exit2; exact Pipeline.withArrays_arr spec2 launch2.win.arr_inj c _ _ w
theorem exit2_of_ne (c : Dev nD) (b : Ref sig .tc) (hb : ∀ w, Pipeline.arrRef spec2 w ≠ b) :
    exit2 m ρ c (Proc.devRef .tc b) = entry2 m ρ c (Proc.devRef .tc b) := by
  unfold exit2; exact Pipeline.withArrays_of_ne spec2 c _ _ b hb
/-- The same read at the TensorCore's references. -/
abbrev VX2 : (c : Dev nD) → (b : Ref sig .tc) → Buf (Elt F) ((c : Thread nD τ).loc b) := fun c b => exit2 m ρ c b
/-- The two facts that put region 2's arrays back among the unscoped buffers at its exit: each array holds what
    the pipeline leaves, every other buffer what it held at entry. -/
theorem hF2 (c : Dev nD) (w : Fin cfg2.W) : (dat2 (VE2 m ρ) c).arrAt w cfg2.N = VX2 m ρ c (Pipeline.arrRef spec2 w) :=
  (exit2_arr m ρ c w).symm
theorem hrest2 (c : Dev nD) : ∀ b, b ∉ Finset.univ.image (Pipeline.arrRef spec2) → VX2 m ρ c b = VE2 m ρ c b :=
  fun b hb => exit2_of_ne m ρ c b fun w e => hb (Finset.mem_image.mpr ⟨w, Finset.mem_univ _, e⟩)
/-- An INPUT array of region 2 leaves the region as it entered (no write-back touches it). -/
theorem exit2_in (c : Dev nD) (w : Fin cfg2.W) (hin : (cfg2.win w).isOut = false) :
    exit2 m ρ c (Proc.devRef .tc (Pipeline.arrRef spec2 w)) = entry2 m ρ c (Proc.devRef .tc (Pipeline.arrRef spec2 w)) :=
  (exit2_arr m ρ c w).trans (((dat2 (VE2 m ρ) c).arrAt_in w hin _).trans (A_eq2 (VE2 m ρ) c w))

/-- At region 3's entry: region 2's exit contents after stretch 3. -/
abbrev entry3 : Dev nD → Valuation τ sig (Elt F) := fun c => StableHlo.after hostOps3 (exit2 m ρ c)
abbrev VE3 : (c : Dev nD) → (b : Ref sig .tc) → Buf (Elt F) ((c : Thread nD τ).loc b) := fun c b => entry3 m ρ c b
theorem VE3_eq (c : Dev nD) (b : Ref sig .tc) :
    VE3 m ρ c b = StableHlo.after hostOps3 (exit2 m ρ c) (Proc.devRef .tc b) := rfl

/-- At region 3's exit: its arrays at what the pipeline leaves after its last point, every other buffer as entered. -/
def exit3 (c : Dev nD) : Valuation τ sig (Elt F) :=
  Pipeline.withArrays spec3 c (entry3 m ρ c) fun w => (dat3 (VE3 m ρ) c).arrAt w cfg3.N
theorem exit3_arr (c : Dev nD) (w : Fin cfg3.W) :
    exit3 m ρ c (Proc.devRef .tc (Pipeline.arrRef spec3 w)) = (dat3 (VE3 m ρ) c).arrAt w cfg3.N := by
  unfold exit3; exact Pipeline.withArrays_arr spec3 launch3.win.arr_inj c _ _ w
theorem exit3_of_ne (c : Dev nD) (b : Ref sig .tc) (hb : ∀ w, Pipeline.arrRef spec3 w ≠ b) :
    exit3 m ρ c (Proc.devRef .tc b) = entry3 m ρ c (Proc.devRef .tc b) := by
  unfold exit3; exact Pipeline.withArrays_of_ne spec3 c _ _ b hb
/-- The same read at the TensorCore's references. -/
abbrev VX3 : (c : Dev nD) → (b : Ref sig .tc) → Buf (Elt F) ((c : Thread nD τ).loc b) := fun c b => exit3 m ρ c b
/-- The two facts that put region 3's arrays back among the unscoped buffers at its exit: each array holds what
    the pipeline leaves, every other buffer what it held at entry. -/
theorem hF3 (c : Dev nD) (w : Fin cfg3.W) : (dat3 (VE3 m ρ) c).arrAt w cfg3.N = VX3 m ρ c (Pipeline.arrRef spec3 w) :=
  (exit3_arr m ρ c w).symm
theorem hrest3 (c : Dev nD) : ∀ b, b ∉ Finset.univ.image (Pipeline.arrRef spec3) → VX3 m ρ c b = VE3 m ρ c b :=
  fun b hb => exit3_of_ne m ρ c b fun w e => hb (Finset.mem_image.mpr ⟨w, Finset.mem_univ _, e⟩)
/-- An INPUT array of region 3 leaves the region as it entered (no write-back touches it). -/
theorem exit3_in (c : Dev nD) (w : Fin cfg3.W) (hin : (cfg3.win w).isOut = false) :
    exit3 m ρ c (Proc.devRef .tc (Pipeline.arrRef spec3 w)) = entry3 m ρ c (Proc.devRef .tc (Pipeline.arrRef spec3 w)) :=
  (exit3_arr m ρ c w).trans (((dat3 (VE3 m ρ) c).arrAt_in w hin _).trans (A_eq3 (VE3 m ρ) c w))

/-! ## The arguments end as launched

No host operation writes an argument and no region writes one back (a region reads an argument through an input
window or does not stage it), so the fold at an argument's buffer walks back to the launch memory. -/

/-- Through stretch 0 and region 0: a buffer the stretch does not write and the region does not stage is untouched, -/
theorem exit0_pass (c : Dev nD) (r : Ref sig .tc) (hw : r ∉ wr0) (ha : ∀ w, Pipeline.arrRef spec0 w ≠ r) :
    exit0 m ρ c (Proc.devRef .tc r) = launchC m ρ c (Proc.devRef .tc r) :=
  (exit0_of_ne m ρ c r ha).trans (hostOps0_keeps _ r hw)
/-- and so is an input array of the region that the stretch does not write. -/
theorem exit0_passIn (c : Dev nD) (w : Fin cfg0.W) (hin : (cfg0.win w).isOut = false) (hw : Pipeline.arrRef spec0 w ∉ wr0) :
    exit0 m ρ c (Proc.devRef .tc (Pipeline.arrRef spec0 w)) = launchC m ρ c (Proc.devRef .tc (Pipeline.arrRef spec0 w)) :=
  (exit0_in m ρ c w hin).trans (hostOps0_keeps _ _ hw)

/-- Through stretch 1 and region 1: a buffer the stretch does not write and the region does not stage is untouched, -/
theorem exit1_pass (c : Dev nD) (r : Ref sig .tc) (hw : r ∉ wr1) (ha : ∀ w, Pipeline.arrRef spec1 w ≠ r) :
    exit1 m ρ c (Proc.devRef .tc r) = exit0 m ρ c (Proc.devRef .tc r) :=
  (exit1_of_ne m ρ c r ha).trans (hostOps1_keeps _ r hw)
/-- and so is an input array of the region that the stretch does not write. -/
theorem exit1_passIn (c : Dev nD) (w : Fin cfg1.W) (hin : (cfg1.win w).isOut = false) (hw : Pipeline.arrRef spec1 w ∉ wr1) :
    exit1 m ρ c (Proc.devRef .tc (Pipeline.arrRef spec1 w)) = exit0 m ρ c (Proc.devRef .tc (Pipeline.arrRef spec1 w)) :=
  (exit1_in m ρ c w hin).trans (hostOps1_keeps _ _ hw)

/-- Through stretch 2 and region 2: a buffer the stretch does not write and the region does not stage is untouched, -/
theorem exit2_pass (c : Dev nD) (r : Ref sig .tc) (hw : r ∉ wr2) (ha : ∀ w, Pipeline.arrRef spec2 w ≠ r) :
    exit2 m ρ c (Proc.devRef .tc r) = exit1 m ρ c (Proc.devRef .tc r) :=
  (exit2_of_ne m ρ c r ha).trans (hostOps2_keeps _ r hw)
/-- and so is an input array of the region that the stretch does not write. -/
theorem exit2_passIn (c : Dev nD) (w : Fin cfg2.W) (hin : (cfg2.win w).isOut = false) (hw : Pipeline.arrRef spec2 w ∉ wr2) :
    exit2 m ρ c (Proc.devRef .tc (Pipeline.arrRef spec2 w)) = exit1 m ρ c (Proc.devRef .tc (Pipeline.arrRef spec2 w)) :=
  (exit2_in m ρ c w hin).trans (hostOps2_keeps _ _ hw)

/-- Through stretch 3 and region 3: a buffer the stretch does not write and the region does not stage is untouched, -/
theorem exit3_pass (c : Dev nD) (r : Ref sig .tc) (hw : r ∉ wr3) (ha : ∀ w, Pipeline.arrRef spec3 w ≠ r) :
    exit3 m ρ c (Proc.devRef .tc r) = exit2 m ρ c (Proc.devRef .tc r) :=
  (exit3_of_ne m ρ c r ha).trans (hostOps3_keeps _ r hw)
/-- and so is an input array of the region that the stretch does not write. -/
theorem exit3_passIn (c : Dev nD) (w : Fin cfg3.W) (hin : (cfg3.win w).isOut = false) (hw : Pipeline.arrRef spec3 w ∉ wr3) :
    exit3 m ρ c (Proc.devRef .tc (Pipeline.arrRef spec3 w)) = exit2 m ρ c (Proc.devRef .tc (Pipeline.arrRef spec3 w)) :=
  (exit3_in m ρ c w hin).trans (hostOps3_keeps _ _ hw)

/-- Argument 0 ends as launched: no host operation writes it and region 0 reads it through input window 1. -/
theorem exit3_main_arg0 (c : Dev nD) : exit3 m ρ c (Proc.devRef .tc main_arg0) = m ((c : Thread nD τ).loc main_arg0) :=
  calc exit3 m ρ c (Proc.devRef .tc main_arg0)
    _ = exit2 m ρ c (Proc.devRef .tc main_arg0) := exit3_pass m ρ c main_arg0 (by decide) (by decide)
    _ = exit1 m ρ c (Proc.devRef .tc main_arg0) := exit2_pass m ρ c main_arg0 (by decide) (by decide)
    _ = exit0 m ρ c (Proc.devRef .tc main_arg0) := exit1_pass m ρ c main_arg0 (by decide) (by decide)
    _ = launchC m ρ c (Proc.devRef .tc main_arg0) := exit0_passIn m ρ c 1 rfl (by decide)
    _ = m ((c : Thread nD τ).loc main_arg0) := rfl
/-- Argument 1 ends as launched: no host operation writes it and no region stages it. -/
theorem exit3_main_arg1 (c : Dev nD) : exit3 m ρ c (Proc.devRef .tc main_arg1) = m ((c : Thread nD τ).loc main_arg1) :=
  calc exit3 m ρ c (Proc.devRef .tc main_arg1)
    _ = exit2 m ρ c (Proc.devRef .tc main_arg1) := exit3_pass m ρ c main_arg1 (by decide) (by decide)
    _ = exit1 m ρ c (Proc.devRef .tc main_arg1) := exit2_pass m ρ c main_arg1 (by decide) (by decide)
    _ = exit0 m ρ c (Proc.devRef .tc main_arg1) := exit1_pass m ρ c main_arg1 (by decide) (by decide)
    _ = launchC m ρ c (Proc.devRef .tc main_arg1) := exit0_pass m ρ c main_arg1 (by decide) (by decide)
    _ = m ((c : Thread nD τ).loc main_arg1) := rfl
/-- Argument 2 ends as launched: no host operation writes it and no region stages it. -/
theorem exit3_main_arg2 (c : Dev nD) : exit3 m ρ c (Proc.devRef .tc main_arg2) = m ((c : Thread nD τ).loc main_arg2) :=
  calc exit3 m ρ c (Proc.devRef .tc main_arg2)
    _ = exit2 m ρ c (Proc.devRef .tc main_arg2) := exit3_pass m ρ c main_arg2 (by decide) (by decide)
    _ = exit1 m ρ c (Proc.devRef .tc main_arg2) := exit2_pass m ρ c main_arg2 (by decide) (by decide)
    _ = exit0 m ρ c (Proc.devRef .tc main_arg2) := exit1_pass m ρ c main_arg2 (by decide) (by decide)
    _ = launchC m ρ c (Proc.devRef .tc main_arg2) := exit0_pass m ρ c main_arg2 (by decide) (by decide)
    _ = m ((c : Thread nD τ).loc main_arg2) := rfl
/-- Argument 3 ends as launched: no host operation writes it and region 0 reads it through input window 3. -/
theorem exit3_main_arg3 (c : Dev nD) : exit3 m ρ c (Proc.devRef .tc main_arg3) = m ((c : Thread nD τ).loc main_arg3) :=
  calc exit3 m ρ c (Proc.devRef .tc main_arg3)
    _ = exit2 m ρ c (Proc.devRef .tc main_arg3) := exit3_pass m ρ c main_arg3 (by decide) (by decide)
    _ = exit1 m ρ c (Proc.devRef .tc main_arg3) := exit2_pass m ρ c main_arg3 (by decide) (by decide)
    _ = exit0 m ρ c (Proc.devRef .tc main_arg3) := exit1_pass m ρ c main_arg3 (by decide) (by decide)
    _ = launchC m ρ c (Proc.devRef .tc main_arg3) := exit0_passIn m ρ c 3 rfl (by decide)
    _ = m ((c : Thread nD τ).loc main_arg3) := rfl
/-- Argument 4 ends as launched: no host operation writes it and no region stages it. -/
theorem exit3_main_arg4 (c : Dev nD) : exit3 m ρ c (Proc.devRef .tc main_arg4) = m ((c : Thread nD τ).loc main_arg4) :=
  calc exit3 m ρ c (Proc.devRef .tc main_arg4)
    _ = exit2 m ρ c (Proc.devRef .tc main_arg4) := exit3_pass m ρ c main_arg4 (by decide) (by decide)
    _ = exit1 m ρ c (Proc.devRef .tc main_arg4) := exit2_pass m ρ c main_arg4 (by decide) (by decide)
    _ = exit0 m ρ c (Proc.devRef .tc main_arg4) := exit1_pass m ρ c main_arg4 (by decide) (by decide)
    _ = launchC m ρ c (Proc.devRef .tc main_arg4) := exit0_pass m ρ c main_arg4 (by decide) (by decide)
    _ = m ((c : Thread nD τ).loc main_arg4) := rfl
/-- Argument 5 ends as launched: no host operation writes it and region 1 reads it through input window 3. -/
theorem exit3_main_arg5 (c : Dev nD) : exit3 m ρ c (Proc.devRef .tc main_arg5) = m ((c : Thread nD τ).loc main_arg5) :=
  calc exit3 m ρ c (Proc.devRef .tc main_arg5)
    _ = exit2 m ρ c (Proc.devRef .tc main_arg5) := exit3_pass m ρ c main_arg5 (by decide) (by decide)
    _ = exit1 m ρ c (Proc.devRef .tc main_arg5) := exit2_pass m ρ c main_arg5 (by decide) (by decide)
    _ = exit0 m ρ c (Proc.devRef .tc main_arg5) := exit1_passIn m ρ c 3 rfl (by decide)
    _ = launchC m ρ c (Proc.devRef .tc main_arg5) := exit0_pass m ρ c main_arg5 (by decide) (by decide)
    _ = m ((c : Thread nD τ).loc main_arg5) := rfl
/-- Argument 6 ends as launched: no host operation writes it and no region stages it. -/
theorem exit3_main_arg6 (c : Dev nD) : exit3 m ρ c (Proc.devRef .tc main_arg6) = m ((c : Thread nD τ).loc main_arg6) :=
  calc exit3 m ρ c (Proc.devRef .tc main_arg6)
    _ = exit2 m ρ c (Proc.devRef .tc main_arg6) := exit3_pass m ρ c main_arg6 (by decide) (by decide)
    _ = exit1 m ρ c (Proc.devRef .tc main_arg6) := exit2_pass m ρ c main_arg6 (by decide) (by decide)
    _ = exit0 m ρ c (Proc.devRef .tc main_arg6) := exit1_pass m ρ c main_arg6 (by decide) (by decide)
    _ = launchC m ρ c (Proc.devRef .tc main_arg6) := exit0_pass m ρ c main_arg6 (by decide) (by decide)
    _ = m ((c : Thread nD τ).loc main_arg6) := rfl
/-- Argument 7 ends as launched: no host operation writes it and region 2 reads it through input window 3. -/
theorem exit3_main_arg7 (c : Dev nD) : exit3 m ρ c (Proc.devRef .tc main_arg7) = m ((c : Thread nD τ).loc main_arg7) :=
  calc exit3 m ρ c (Proc.devRef .tc main_arg7)
    _ = exit2 m ρ c (Proc.devRef .tc main_arg7) := exit3_pass m ρ c main_arg7 (by decide) (by decide)
    _ = exit1 m ρ c (Proc.devRef .tc main_arg7) := exit2_passIn m ρ c 3 rfl (by decide)
    _ = exit0 m ρ c (Proc.devRef .tc main_arg7) := exit1_pass m ρ c main_arg7 (by decide) (by decide)
    _ = launchC m ρ c (Proc.devRef .tc main_arg7) := exit0_pass m ρ c main_arg7 (by decide) (by decide)
    _ = m ((c : Thread nD τ).loc main_arg7) := rfl
/-- Argument 8 ends as launched: no host operation writes it and no region stages it. -/
theorem exit3_main_arg8 (c : Dev nD) : exit3 m ρ c (Proc.devRef .tc main_arg8) = m ((c : Thread nD τ).loc main_arg8) :=
  calc exit3 m ρ c (Proc.devRef .tc main_arg8)
    _ = exit2 m ρ c (Proc.devRef .tc main_arg8) := exit3_pass m ρ c main_arg8 (by decide) (by decide)
    _ = exit1 m ρ c (Proc.devRef .tc main_arg8) := exit2_pass m ρ c main_arg8 (by decide) (by decide)
    _ = exit0 m ρ c (Proc.devRef .tc main_arg8) := exit1_pass m ρ c main_arg8 (by decide) (by decide)
    _ = launchC m ρ c (Proc.devRef .tc main_arg8) := exit0_pass m ρ c main_arg8 (by decide) (by decide)
    _ = m ((c : Thread nD τ).loc main_arg8) := rfl
/-- Argument 9 ends as launched: no host operation writes it and region 3 reads it through input window 2. -/
theorem exit3_main_arg9 (c : Dev nD) : exit3 m ρ c (Proc.devRef .tc main_arg9) = m ((c : Thread nD τ).loc main_arg9) :=
  calc exit3 m ρ c (Proc.devRef .tc main_arg9)
    _ = exit2 m ρ c (Proc.devRef .tc main_arg9) := exit3_passIn m ρ c 2 rfl (by decide)
    _ = exit1 m ρ c (Proc.devRef .tc main_arg9) := exit2_pass m ρ c main_arg9 (by decide) (by decide)
    _ = exit0 m ρ c (Proc.devRef .tc main_arg9) := exit1_pass m ρ c main_arg9 (by decide) (by decide)
    _ = launchC m ρ c (Proc.devRef .tc main_arg9) := exit0_pass m ρ c main_arg9 (by decide) (by decide)
    _ = m ((c : Thread nD τ).loc main_arg9) := rfl
/-- Argument 10 ends as launched: no host operation writes it and no region stages it. -/
theorem exit3_main_arg10 (c : Dev nD) : exit3 m ρ c (Proc.devRef .tc main_arg10) = m ((c : Thread nD τ).loc main_arg10) :=
  calc exit3 m ρ c (Proc.devRef .tc main_arg10)
    _ = exit2 m ρ c (Proc.devRef .tc main_arg10) := exit3_pass m ρ c main_arg10 (by decide) (by decide)
    _ = exit1 m ρ c (Proc.devRef .tc main_arg10) := exit2_pass m ρ c main_arg10 (by decide) (by decide)
    _ = exit0 m ρ c (Proc.devRef .tc main_arg10) := exit1_pass m ρ c main_arg10 (by decide) (by decide)
    _ = launchC m ρ c (Proc.devRef .tc main_arg10) := exit0_pass m ρ c main_arg10 (by decide) (by decide)
    _ = m ((c : Thread nD τ).loc main_arg10) := rfl

/-! # The run: @main as segments from the launch to the return -/

/-- No pipeline has a prefetched table: the admissible contents are the trivial ones. -/
abbrev adm : (p : Fin 4) → (pcfgs (F := F) p).Adm := fun p => (cfgs p).toPCfg_adm
/-- Every pipeline's proof data, each at its own region's entry contents (one case per pipeline: at each numeral the
    pinned configuration is the printed one). -/
def pdats : (p : Fin 4) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
  | ⟨2, _⟩ => fun c => dat2 (VE2 m ρ) c
  | ⟨3, _⟩ => fun c => dat3 (VE3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing owed. -/
abbrev R (c : Dev nD) : sProp 𝕄 := iprop((∃ r, prngReg c r) ∗ ∃ W, owes (c : Thread nD τ) (0 : CellTallies nD τ sig Unit) W)
/-- A stretch of host operations as a segment over all the unscoped references, from contents `X`: it ends with those
    references at `StableHlo.after ops (X c)`, which is the next boundary's contents by definition. -/
abbrev hseg (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X R

/-- No operation of stretch 0 allocates a buffer. -/
theorem hostOps0_fresh : (hostOps0 : List (HloOp τ sig (Elt F))).Forall fun op => op.fresh = ∅ := by
  simp only [List.Forall]; repeat' constructor
/-- No operation of stretch 1 allocates a buffer. -/
theorem hostOps1_fresh : (hostOps1 : List (HloOp τ sig (Elt F))).Forall fun op => op.fresh = ∅ := by
  simp only [List.Forall]; repeat' constructor
/-- No operation of stretch 2 allocates a buffer. -/
theorem hostOps2_fresh : (hostOps2 : List (HloOp τ sig (Elt F))).Forall fun op => op.fresh = ∅ := by
  simp only [List.Forall]; repeat' constructor
/-- No operation of stretch 3 allocates a buffer. -/
theorem hostOps3_fresh : (hostOps3 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at region 3's exit contents, the generator
    register at some state. -/
abbrev Tₙ (c : Dev nD) : sProp 𝕄 := iprop(StableHlo.held (c : Thread nD τ) (Pipeline.ucRefs τ sig) (exit3 m ρ c) ∗ ∃ r, prngReg c r)

/-! ## The regions as segments -/

-- the pinned configuration at a numeral is the printed configuration by unfolding its definition
set_option backward.isDefEq.respectTransparency.types false in
/-- REGION 0, graph-convolution layer 0: entered from every unscoped buffer at `entry0` (the first stretch's result) and left at
    `exit0`. Its six arrays are split out of the unscoped buffers and put back at their exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (entry0 m ρ c) ∗ R c)
  post c := iprop(StableHlo.held (c : Thread nD τ) (Pipeline.ucRefs τ sig) (exit0 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration at a numeral is the printed configuration by unfolding its definition
set_option backward.isDefEq.respectTransparency.types false in
/-- REGION 1, graph-convolution layer 1: entered from every unscoped buffer at `entry1` (stretch 1's result over region 0's exit) and left at
    `exit1`. Its six arrays are split out of the unscoped buffers and put back at their exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (entry1 m ρ c) ∗ R c)
  post c := iprop(StableHlo.held (c : Thread nD τ) (Pipeline.ucRefs τ sig) (exit1 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration at a numeral is the printed configuration by unfolding its definition
set_option backward.isDefEq.respectTransparency.types false in
/-- REGION 2, graph-convolution layer 2: entered from every unscoped buffer at `entry2` (stretch 2's result over region 1's exit) and left at
    `exit2`. Its six arrays are split out of the unscoped buffers and put back at their exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m ρ) c).loose
  hwaits := Pipeline.hwaits_of_owed_zero _ _ _ _ L lv 2 fun _ _ => rfl
  pre c := iprop(StableHlo.held (c : Thread nD τ) (Pipeline.ucRefs τ sig) (entry2 m ρ c) ∗ R c)
  post c := iprop(StableHlo.held (c : Thread nD τ) (Pipeline.ucRefs τ sig) (exit2 m ρ c) ∗ R c)
  X c := iprop(∃ r, prngReg c r)
  Y c := iprop(∃ r, prngReg c r)
  Z c := Pipeline.unscopedRest (Ix := Unit) (Name := ℕ) (U := UR sig nD τ) (Lvl := ℕ) spec2 c (VE2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (VE2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (VE2 m ρ c) (VX2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration at a numeral is the printed configuration by unfolding its definition
set_option backward.isDefEq.respectTransparency.types false in
/-- REGION 3, the pooling and classifier call: entered from every unscoped buffer at `entry3` and left at `exit3`, the
    contents the launch reads at the end. Its five arrays are split out of the unscoped buffers and put back at their
    exit contents; the generator register and the scoped rest enter the region's invariant through the class-A form
    (`hin3`: before the first point the two accumulators are still part of the scoped rest) and come back out of it
    the same way (`hout3`: after the last point the accumulators are forgotten into the scoped rest again); nothing is
    owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m ρ) c).loose
  hwaits := Pipeline.hwaits_of_owed_zero _ _ _ _ L lv 3 fun _ _ => rfl
  pre c := iprop(StableHlo.held (c : Thread nD τ) (Pipeline.ucRefs τ sig) (entry3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (VE3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (VE3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec3 c ⊢ (pdats m ρ 3 c).Φ 0 from hin3 (VE3 m ρ) c)
    unfold Pipeline.ΦA
    iintro ⟨Hp, -, Hr⟩
    isplitl [Hr]; · iexact Hr
    iexact Hp
  hout c := by
    refine BIBase.Entails.trans (show (pdats m ρ 3 c).Φ (Fin.last _) ⊢ Pipeline.ΦA spec3 c from hout3 (VE3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (VE3 m ρ c) (VX3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: each stretch of host operations from its boundary's contents, then its region. -/
abbrev segs : List (Pipeline.Seg (pcfgs (F := F)) adm (pdats m ρ) () defs₀ 𝒱₀ L lv) :=
  [ .host (hseg hostOps0 hostOps0_sub hostOps0_fresh (launchC m ρ)),
    .region (reg0 m ρ),
    .host (hseg hostOps1 hostOps1_sub hostOps1_fresh (exit0 m ρ)),
    .region (reg1 m ρ),
    .host (hseg hostOps2 hostOps2_sub hostOps2_fresh (exit1 m ρ)),
    .region (reg2 m ρ),
    .host (hseg hostOps3 hostOps3_sub hostOps3_fresh (exit2 m ρ)),
    .region (reg3 m ρ) ]
/-- @main is the run of the segments: it is the chain of its items, and the segments' run unfolds to the same chain. -/
theorem main_run (c : Dev nD) : main (F := F) c = Pipeline.Seg.run (segs m ρ) := (main_chain c).trans (by chain_rfl)

set_option backward.isDefEq.respectTransparency.types false in
/-- THE RUN with the result: from any memory with zero counters, every weakly fair execution of @main on the TensorCores
    terminates, nothing faulting, and every final state has the result array at what the pooling region's write-back
    leaves and the eleven argument arrays as launched. -/
theorem run_main : θ_run defs (onTc (τ := τ) (main (F := F))) ⟨m, fun _ => 0, ρ⟩ (fun r => ∀ c : Dev nD,
      r.2.mem ((c.tc : Thread nD τ).loc main_v95) = (dat3 (VE3 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (launchC m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (launchC m ρ c)
        from Pipeline.unscopedBufs_held c (launchC m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exit3 m ρ c b)
    (hfin := fun c s' => by
      iintro ⟨⟨Hh, -⟩, HSI⟩
      unfold StableHlo.held
      imodintro
      iapply (pointsTo_read_all (Pipeline.ucRefs τ sig) (fun b => (((c : Thread nD τ)).1, b)) (exit3 m ρ c) s')
      isplitl [Hh] <;> iassumption)
    (hQ := fun s h c =>
      ⟨(h c _ (mem_uc main_v95 (by decide))).trans (exit3_arr m ρ c 4),
       (h c _ (mem_uc main_arg0 (by decide))).trans (exit3_main_arg0 m ρ c),
       (h c _ (mem_uc main_arg1 (by decide))).trans (exit3_main_arg1 m ρ c),
       (h c _ (mem_uc main_arg2 (by decide))).trans (exit3_main_arg2 m ρ c),
       (h c _ (mem_uc main_arg3 (by decide))).trans (exit3_main_arg3 m ρ c),
       (h c _ (mem_uc main_arg4 (by decide))).trans (exit3_main_arg4 m ρ c),
       (h c _ (mem_uc main_arg5 (by decide))).trans (exit3_main_arg5 m ρ c),
       (h c _ (mem_uc main_arg6 (by decide))).trans (exit3_main_arg6 m ρ c),
       (h c _ (mem_uc main_arg7 (by decide))).trans (exit3_main_arg7 m ρ c),
       (h c _ (mem_uc main_arg8 (by decide))).trans (exit3_main_arg8 m ρ c),
       (h c _ (mem_uc main_arg9 (by decide))).trans (exit3_main_arg9 m ρ c),
       (h c _ (mem_uc main_arg10 (by decide))).trans (exit3_main_arg10 m ρ c)⟩)

/-- THE FRAME: the same run, the arguments only. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c => (hr c).2) (run_main m ρ)

end Cert.KernelIdeal.Hand

end
-- ==== Proof.Val.Spec.lean ====
/-
  What the kernel's two kinds of region compute, index by index, over the extended reals.

  One layer step: from the aggregated neighbour rows `agg`, the node rows `x`, the per-node self weight `s`,
  the weight matrix `W` and the bias row `b`,
      out[i, j] = (∑ k, (agg[i, k] + s[i, 0] · x[i, k]) · W[k, j]) + b[0, j]      (then max with 0 when `relu`).
  The pooled read-out: with `hot b g` the indicator that node label `b` is graph `g`,
      sum[g, k] = ∑ n, hot (label n) g · h[n, k],   cnt[g] = ∑ n, hot (label n) g,
      out[g, j] = (∑ k, (sum[g, k] / max cnt[g] 1) · Wfc[k, j]) + bfc[0, j].
-/
import Idealize.ShloMosaic.PureOps.Ideal
import Idealize.ShloMosaic.Lib.ValueIdx

noncomputable section

namespace Cert.Spec

open Idealize.ShloMosaic Idealize.ShloMosaic.ValueIdx

abbrev SN64 : Shape := ⟨2, ![50000, 64]⟩
abbrev SN1 : Shape := ⟨2, ![50000, 1]⟩
abbrev SDD : Shape := ⟨2, ![64, 64]⟩
abbrev S1D : Shape := ⟨2, ![1, 64]⟩
abbrev SDC : Shape := ⟨2, ![64, 10]⟩
abbrev S1C : Shape := ⟨2, ![1, 10]⟩
abbrev SGC : Shape := ⟨2, ![256, 10]⟩

/-- One layer step at node `i` and feature `j`, before the optional clamp at zero. -/
def combineAt (agg x : SN64.Idx → EReal) (s : SN1.Idx → EReal) (W : SDD.Idx → EReal) (b : S1D.Idx → EReal)
    (i : Fin 50000) (j : Fin 64) : EReal :=
  (∑ k : Fin 64, (agg (ix2 i k) + s (ix2 i (0 : Fin 1)) * x (ix2 i k)) * W (ix2 k j)) + b (ix2 (0 : Fin 1) j)

/-- One layer step as a whole array; `relu` clamps every entry at zero from below. -/
def combine (relu : Bool) (agg x : SN64.Idx → EReal) (s : SN1.Idx → EReal) (W : SDD.Idx → EReal) (b : S1D.Idx → EReal) :
    SN64.Idx → EReal :=
  fun y => if relu then max (combineAt agg x s W b (y 0) (y 1)) 0 else combineAt agg x s W b (y 0) (y 1)

/-- The indicator that the 32-bit label `b` names graph `g`. -/
def hot (b : BitVec 32) (g : Fin 256) : EReal := if b = BitVec.ofNat 32 g.val then 1 else 0

/-- The sum of the rows of `h` whose label is graph `g`, at feature `k`. -/
def poolSum (h : SN64.Idx → EReal) (bt : SN1.Idx → BitVec 32) (g : Fin 256) (k : Fin 64) : EReal :=
  ∑ n : Fin 50000, hot (bt (ix2 n (0 : Fin 1))) g * h (ix2 n k)

/-- The number of nodes whose label is graph `g`. -/
def poolCnt (bt : SN1.Idx → BitVec 32) (g : Fin 256) : EReal :=
  ∑ n : Fin 50000, hot (bt (ix2 n (0 : Fin 1))) g

/-- The pooled read-out at graph `g` and class `j`: the mean row (an empty graph divides by one) through the last
    linear map. -/
def poolAt (h : SN64.Idx → EReal) (bt : SN1.Idx → BitVec 32) (Wfc : SDC.Idx → EReal) (bfc : S1C.Idx → EReal)
    (g : Fin 256) (j : Fin 10) : EReal :=
  (∑ k : Fin 64, Ideal.div (poolSum h bt g k) (max (poolCnt bt g) 1) * Wfc (ix2 k j)) + bfc (ix2 (0 : Fin 1) j)

/-- The pooled read-out as a whole array. -/
def pool (h : SN64.Idx → EReal) (bt : SN1.Idx → BitVec 32) (Wfc : SDC.Idx → EReal) (bfc : S1C.Idx → EReal) :
    SGC.Idx → EReal :=
  fun y => poolAt h bt Wfc bfc (y 0) (y 1)

end Cert.Spec

end
-- ==== Proof.Val.KTerm.lean ====
/-
  The kernel program's host-side terms, over the extended reals.

  Between its regions the kernel program computes, from the edge list `ei` (row 0 the sources, row 1 the targets), the
  wrapped edge columns, the inverse square root of the degree `dinv`, the edge weight `norm = dinv[src] · dinv[dst]`, the
  self weight `dinv · dinv` as a column, and per layer the weighted neighbour sum `agg` of the node rows. Each definition
  below is the term the program's operations write, operation by operation, as a function of the argument arrays; one
  layer is then the region's combination of them (`Cert.Spec.combine`) and the whole result the three layers followed by
  the pooled read-out (`Cert.Spec.pool`).
-/
import proofs.«413695_j61357902791131_1_alg».proof.KernelIdeal
import proofs.«413695_j61357902791131_1_alg».proof.Proof.Val.Spec
import proofs.«413695_j61357902791131_1_alg».proof.Proof.Gen.KernelIdeal

noncomputable section

namespace Cert.KTerm

open Cert.KernelIdeal Cert.KernelIdeal.Gen Idealize.ShloMosaic

/-- Row 0 of the edge list as a vector: the edges' sources. -/
def srcRow (ei : IVec S2x800000 32) : IVec S800000 32 :=
  shapeCast S800000 (extractStridedSlice S1x800000 ![0, 0] ei slices_S2x800000_S1x800000_0_0) shapeCasts_S1x800000_S800000

/-- Row 1 of the edge list as a vector: the edges' targets. -/
def dstRow (ei : IVec S2x800000 32) : IVec S800000 32 :=
  shapeCast S800000 (extractStridedSlice S1x800000 ![1, 0] ei slices_S2x800000_S1x800000_1_0) shapeCasts_S1x800000_S800000

/-- A negative node number counts from the end: `v + 50000` where `v < 0`, else `v`. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped sources as a column of row numbers. -/
def srcIdx (ei : IVec S2x800000 32) : IVec S800000x1 32 :=
  broadcastInDim S800000x1 ![0] bcast_S800000_S800000x1_0 (wrap (srcRow ei))

/-- The wrapped targets as a column of row numbers. -/
def dstIdx (ei : IVec S2x800000 32) : IVec S800000x1 32 :=
  broadcastInDim S800000x1 ![0] bcast_S800000_S800000x1_0 (wrap (dstRow ei))

/-- The inverse square root of each node's degree, the degree being the number of edges into the node plus one. -/
def dinv (ei : IVec S2x800000 32) : FVec Ideal S50000 .f32 :=
  Host.rsqrt (F := Ideal) (φ := .f32)
    (addf (F := Ideal) (φ := .f32)
      (Host.scatterAdd (F := Ideal) (φ := .f32) scatter_S50000_S800000x1_S800000_n_0_0_1
        (broadcastInDim S50000 ![] bcast_S_S50000 (constant (F := Ideal) S_ .f32 0x00000000#32))
        (dstIdx ei)
        (broadcastInDim S800000 ![] bcast_S_S800000 (constant (F := Ideal) S_ .f32 0x3F800000#32)))
      (broadcastInDim S50000 ![] bcast_S_S50000 (constant (F := Ideal) S_ .f32 0x3F800000#32)))

/-- The weight of each edge: the product of `dinv` at its source and at its target. -/
def norm (ei : IVec S2x800000 32) : FVec Ideal S800000 .f32 :=
  mulf (F := Ideal) (φ := .f32)
    (Host.gather gather_S50000_S800000x1_S800000_n_0_n_n_0_1_1 (dinv ei) (srcIdx ei))
    (Host.gather gather_S50000_S800000x1_S800000_n_0_n_n_0_1_1 (dinv ei) (dstIdx ei))

/-- The weight of each node's own row, `dinv · dinv`, as a column. -/
def selfScale (ei : IVec S2x800000 32) : FVec Ideal S50000x1 .f32 :=
  shapeCast S50000x1 (mulf (F := Ideal) (φ := .f32) (dinv ei) (dinv ei)) shapeCasts_S50000_S50000x1

/-- The weighted neighbour sum: into each target's row, the sum over its incoming edges of the source's row of `x` times
    the edge's weight. -/
def agg (ei : IVec S2x800000 32) (x : FVec Ideal S50000x64 .f32) : FVec Ideal S50000x64 .f32 :=
  Host.scatterAdd (F := Ideal) (φ := .f32) scatter_S50000x64_S800000x1_S800000x64_1_0_0_1
    (broadcastInDim S50000x64 ![] bcast_S_S50000x64 (constant (F := Ideal) S_ .f32 0x00000000#32))
    (dstIdx ei)
    (mulf (F := Ideal) (φ := .f32)
      (Host.gather gather_S50000x64_S800000x1_S800000x64_1_0_n_n_0_1_164 x (srcIdx ei))
      (broadcastInDim S800000x64 ![0, 1] bcast_S800000x1_S800000x64_0_1
        (broadcastInDim S800000x1 ![0] bcast_S800000_S800000x1_0 (norm ei))))

/-- A layer's bias as a row. -/
def bias2 (b : FVec Ideal S64 .f32) : FVec Ideal S1x64 .f32 :=
  shapeCast S1x64 b shapeCasts_S64_S1x64

/-- One layer: the region's combination of the neighbour sum, the node rows, the self weight, the weight matrix and the
    bias row. -/
def layer (relu : Bool) (ei : IVec S2x800000 32) (x : FVec Ideal S50000x64 .f32) (W : FVec Ideal S64x64 .f32)
    (b : FVec Ideal S64 .f32) : FVec Ideal S50000x64 .f32 :=
  Cert.Spec.combine relu (agg ei x) x (selfScale ei) W (bias2 b)

/-- The node labels as a column. -/
def labels2 (bt : IVec S50000 32) : IVec S50000x1 32 :=
  shapeCast S50000x1 bt shapeCasts_S50000_S50000x1

/-- The read-out's bias as a row. -/
def biasfc2 (bfc : FVec Ideal S10 .f32) : FVec Ideal S1x10 .f32 :=
  shapeCast S1x10 bfc shapeCasts_S10_S1x10

/-- The whole result: three layers (the first two clamped at zero), then the pooled read-out. -/
def result (x : FVec Ideal S50000x64 .f32) (ei : IVec S2x800000 32) (bt : IVec S50000 32)
    (W1 : FVec Ideal S64x64 .f32) (b1 : FVec Ideal S64 .f32) (W2 : FVec Ideal S64x64 .f32) (b2 : FVec Ideal S64 .f32)
    (W3 : FVec Ideal S64x64 .f32) (b3 : FVec Ideal S64 .f32) (Wfc : FVec Ideal S64x10 .f32) (bfc : FVec Ideal S10 .f32) :
    FVec Ideal S256x10 .f32 :=
  Cert.Spec.pool (layer false ei (layer true ei (layer true ei x W1 b1) W2 b2) W3 b3) (labels2 bt) Wfc (biasfc2 bfc)

end Cert.KTerm

end
-- ==== Proof.Val.PreRead.lean ====
/-
  The precondition, read back: every entry of each of the nine float inputs is a real, and every entry of the integer
  label vector lies in [0, 256).

  The precondition is printed as a chain of eleven tests joined by `and`. Each test is a reduction by `and` over a whole
  array of a one-bit comparison, so the chain being 1 says every comparison is 1 at every index. A float test compares
  |v| with +∞: an extended real whose absolute value is below +∞ is neither infinity, hence a real. The two integer tests
  compare the label, signed, with the constants 0 and 256.
-/
import proofs.«413695_j61357902791131_1_alg».proof.Defs
import Idealize.ShloMosaic.Lib.ReduceAll
import Idealize.ShloMosaic.Lib.ValueIdx

noncomputable section

namespace Cert.PreRead

open Idealize.ShloMosaic Idealize.SL.Sem Idealize.ShloMosaic.ValueIdx
open Cert.Pre_finite_inputs (S_)

/-- The rank-0 shape has one index. -/
instance : Subsingleton S_.Idx := ⟨fun a b => funext fun d => d.elim0⟩

/-- An extended real whose absolute value is below +∞ is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | coe r => exact ⟨r, rfl⟩
  | top => exact absurd h (by simp [Ideal.cmp])

/-- A float array all of whose entries pass the test |v| < +∞ holds reals only. -/
theorem reals_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant S_ .f32 0x7F800000#32)))
        (constantI S_ 1 1#1) hr h0 ix0 = 1#1) :
    ∀ i, ∃ r : ℝ, x i = (r : EReal) := fun i =>
  real_of_abs_lt (x i) (Host.reduce_andi_all _ _ hr h0 ix0 e i)

/-- A word array all of whose entries pass the signed test v ≥ 0 holds non-negative integers only. -/
theorem nonneg_of_all {s : Shape} {axes : List (Fin s.rank)} (b : IVec s 32)
    (hb : S_.BroadcastsInDim s (![] : Fin 0 → Fin s.rank)) (hr : s.ReducesTo axes S_) (h0 : 0 < S_.numel)
    (e : Host.reduce IntOp.andi
        (cmpi .sge b (broadcastInDim s ![] hb (constantI S_ 32 0#32)))
        (constantI S_ 1 1#1) hr h0 ix0 = 1#1) :
    ∀ n, 0 ≤ (b n).toInt := fun n => by
  have h1 : IntOp.cmpi .sge (b n) 0#32 = 1#1 := Host.reduce_andi_all _ _ hr h0 ix0 e n
  have h2 := IntOp.cmpi_sge.1 h1
  have h3 : (0#32 : BitVec 32).toInt = 0 := by decide
  rwa [h3] at h2

/-- A word array all of whose entries pass the signed test v < 256 holds integers below 256 only. -/
theorem lt_of_all {s : Shape} {axes : List (Fin s.rank)} (b : IVec s 32)
    (hb : S_.BroadcastsInDim s (![] : Fin 0 → Fin s.rank)) (hr : s.ReducesTo axes S_) (h0 : 0 < S_.numel)
    (e : Host.reduce IntOp.andi
        (cmpi .slt b (broadcastInDim s ![] hb (constantI S_ 32 256#32)))
        (constantI S_ 1 1#1) hr h0 ix0 = 1#1) :
    ∀ n, (b n).toInt < 256 := fun n => by
  have h1 : IntOp.cmpi .slt (b n) 256#32 = 1#1 := Host.reduce_andi_all _ _ hr h0 ix0 e n
  have h2 := IntOp.cmpi_slt.1 h1
  have h3 : (256#32 : BitVec 32).toInt = 256 := by decide
  rwa [h3] at h2

/-- THE PRECONDITION READ BACK on device `c`: the nine float inputs hold reals, the labels lie in [0, 256). -/
theorem reads [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal)) ∧
    (∀ i, ∃ r : ℝ, m ((c.tc : Thread _ _).loc Cert.KernelIdeal.main_arg3) i = (r : EReal)) ∧
    (∀ i, ∃ r : ℝ, m ((c.tc : Thread _ _).loc Cert.KernelIdeal.main_arg4) i = (r : EReal)) ∧
    (∀ i, ∃ r : ℝ, m ((c.tc : Thread _ _).loc Cert.KernelIdeal.main_arg5) i = (r : EReal)) ∧
    (∀ i, ∃ r : ℝ, m ((c.tc : Thread _ _).loc Cert.KernelIdeal.main_arg6) i = (r : EReal)) ∧
    (∀ i, ∃ r : ℝ, m ((c.tc : Thread _ _).loc Cert.KernelIdeal.main_arg7) i = (r : EReal)) ∧
    (∀ i, ∃ r : ℝ, m ((c.tc : Thread _ _).loc Cert.KernelIdeal.main_arg8) i = (r : EReal)) ∧
    (∀ i, ∃ r : ℝ, m ((c.tc : Thread _ _).loc Cert.KernelIdeal.main_arg9) i = (r : EReal)) ∧
    (∀ i, ∃ r : ℝ, m ((c.tc : Thread _ _).loc Cert.KernelIdeal.main_arg10) i = (r : EReal)) ∧
    (∀ n, 0 ≤ (m ((c.tc : Thread _ _).loc Cert.KernelIdeal.main_arg2) n).toInt
      ∧ (m ((c.tc : Thread _ _).loc Cert.KernelIdeal.main_arg2) n).toInt < 256) := by
  have e := congrFun (h c) ValueIdx.ix0
  dsimp only [Cert.Pre_finite_inputs.fn, Cert.Pre_finite_inputs.fn_part1, Cert.Pre_finite_inputs.fn_part2,
    Cert.Pre_finite_inputs.fn_part3] at e
  -- the chain of `and`s, outermost first: the last test joined is the first split off
  obtain ⟨e, hlt⟩ := IntOp.andi_eq_one.1 e
  obtain ⟨e, hge⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h3⟩ := IntOp.andi_eq_one.1 e
  exact ⟨reals_of_all _ _ _ _ h0, reals_of_all _ _ _ _ h3, reals_of_all _ _ _ _ h4, reals_of_all _ _ _ _ h5,
    reals_of_all _ _ _ _ h6, reals_of_all _ _ _ _ h7, reals_of_all _ _ _ _ h8, reals_of_all _ _ _ _ h9,
    reals_of_all _ _ _ _ h10, fun n => ⟨nonneg_of_all _ _ _ _ hge n, lt_of_all _ _ _ _ hlt n⟩⟩

end Cert.PreRead

end
-- ==== Proof.Val.HostRead.lean ====
/-
  What the host operations between the regions leave in the buffers the regions read.

  Each stretch of host operations is a list of pure array operations, every one writing a buffer of its own from buffers
  written earlier; the contents of a buffer after the stretch are therefore a term over the contents the stretch found.
  The terms are stated for any float family: the inverse square root of the degree, the edge weight, the self weight as a
  column, the weighted neighbour sum from the edge rows and the edge weights, the bias rows. At the extended reals they are
  the kernel program's host-side terms.
-/
import proofs.«413695_j61357902791131_1_alg».proof.Proof.Gen.KernelIdeal.Launch
import proofs.«413695_j61357902791131_1_alg».proof.Proof.Val.KTerm
import Idealize.ShloMosaic.Lib.StableHlo.Run
import Idealize.ShloMosaic.Lib.Pipeline.Regions

set_option maxRecDepth 16384

noncomputable section

namespace Cert.KernelIdeal.Val

open Cert.KernelIdeal Cert.KernelIdeal.Gen Idealize.ShloMosaic Idealize.ShloMosaic.TcCoe
open Cert.KTerm (srcRow dstRow wrap srcIdx dstIdx labels2)

/-! ## The terms, for any float family -/

section Terms

variable {F : FTy → Type} [FloatOps F]

/-- The inverse square root of each node's degree: the number of edges into the node plus one. -/
def dinvOf (ei : IVec S2x800000 32) : FVec F S50000 .f32 :=
  Host.rsqrt (F := F) (φ := .f32)
    (addf (F := F) (φ := .f32)
      (Host.scatterAdd (F := F) (φ := .f32) scatter_S50000_S800000x1_S800000_n_0_0_1
        (broadcastInDim S50000 ![] bcast_S_S50000 (constant (F := F) S_ .f32 0x00000000#32))
        (dstIdx ei)
        (broadcastInDim S800000 ![] bcast_S_S800000 (constant (F := F) S_ .f32 0x3F800000#32)))
      (broadcastInDim S50000 ![] bcast_S_S50000 (constant (F := F) S_ .f32 0x3F800000#32)))

/-- The weight of each edge: the product of `dinvOf` at its source and at its target. -/
def normOf (ei : IVec S2x800000 32) : FVec F S800000 .f32 :=
  mulf (F := F) (φ := .f32)
    (Host.gather gather_S50000_S800000x1_S800000_n_0_n_n_0_1_1 (dinvOf (F := F) ei) (srcIdx ei))
    (Host.gather gather_S50000_S800000x1_S800000_n_0_n_n_0_1_1 (dinvOf (F := F) ei) (dstIdx ei))

/-- The weight of each node's own row as a column. -/
def selfScaleOf (ei : IVec S2x800000 32) : FVec F S50000x1 .f32 :=
  shapeCast S50000x1 (mulf (F := F) (φ := .f32) (dinvOf (F := F) ei) (dinvOf (F := F) ei)) shapeCasts_S50000_S50000x1

/-- The weighted neighbour sum from the edges' target row `dst`, source row `src` and weights `nrm`: into each target's
    row, the sum over its incoming edges of the source's row of `x` times the edge's weight. -/
def aggOf (dst src : IVec S800000 32) (nrm : FVec F S800000 .f32) (x : FVec F S50000x64 .f32) : FVec F S50000x64 .f32 :=
  Host.scatterAdd (F := F) (φ := .f32) scatter_S50000x64_S800000x1_S800000x64_1_0_0_1
    (broadcastInDim S50000x64 ![] bcast_S_S50000x64 (constant (F := F) S_ .f32 0x00000000#32))
    (broadcastInDim S800000x1 ![0] bcast_S800000_S800000x1_0 (wrap dst))
    (mulf (F := F) (φ := .f32)
      (Host.gather gather_S50000x64_S800000x1_S800000x64_1_0_n_n_0_1_164 x
        (broadcastInDim S800000x1 ![0] bcast_S800000_S800000x1_0 (wrap src)))
      (broadcastInDim S800000x64 ![0, 1] bcast_S800000x1_S800000x64_0_1
        (broadcastInDim S800000x1 ![0] bcast_S800000_S800000x1_0 nrm)))

/-- A layer's bias as a row. -/
def bias2Of (b : FVec F S64 .f32) : FVec F S1x64 .f32 := shapeCast S1x64 b shapeCasts_S64_S1x64

/-- The read-out's bias as a row. -/
def biasfc2Of (bfc : FVec F S10 .f32) : FVec F S1x10 .f32 := shapeCast S1x10 bfc shapeCasts_S10_S1x10

end Terms

/-! ## At the extended reals these are the kernel program's host-side terms -/

theorem dinvOf_ideal (ei : IVec S2x800000 32) : dinvOf (F := Ideal) ei = Cert.KTerm.dinv ei := rfl
theorem normOf_ideal (ei : IVec S2x800000 32) : normOf (F := Ideal) ei = Cert.KTerm.norm ei := rfl
theorem selfScaleOf_ideal (ei : IVec S2x800000 32) : selfScaleOf (F := Ideal) ei = Cert.KTerm.selfScale ei := rfl
theorem aggOf_ideal (ei : IVec S2x800000 32) (x : FVec Ideal S50000x64 .f32) :
    aggOf (F := Ideal) (dstRow ei) (srcRow ei) (Cert.KTerm.norm ei) x = Cert.KTerm.agg ei x := rfl
theorem bias2Of_ideal (b : FVec Ideal S64 .f32) : bias2Of (F := Ideal) b = Cert.KTerm.bias2 b := rfl
theorem biasfc2Of_ideal (bfc : FVec Ideal S10 .f32) : biasfc2Of (F := Ideal) bfc = Cert.KTerm.biasfc2 bfc := rfl

/-! ## The stretches' results, for any float family

Each equation unfolds the stretch operation by operation: the buffer named is written once, by an operation whose
operands were written earlier in the stretch or not at all. -/

section Reads

variable {F : FTy → Type} [FloatOps F] (X : Valuation τ sig (Elt F))

/-- Stretch 0 leaves the edges' source row in `main_v1`, -/
theorem g0_v1 : StableHlo.after (hostOps0 (F := F)) X (Proc.devRef .tc main_v1) = srcRow (X (Proc.devRef .tc main_arg1)) := by
  chain_rfl
/-- the edges' target row in `main_v3`, -/
theorem g0_v3 : StableHlo.after (hostOps0 (F := F)) X (Proc.devRef .tc main_v3) = dstRow (X (Proc.devRef .tc main_arg1)) := by
  chain_rfl
/-- the edge weights in `main_v30`, -/
theorem g0_v30 : StableHlo.after (hostOps0 (F := F)) X (Proc.devRef .tc main_v30) = normOf (F := F) (X (Proc.devRef .tc main_arg1)) := by
  chain_rfl
/-- the self weights as a column in `main_v32`, -/
theorem g0_v32 : StableHlo.after (hostOps0 (F := F)) X (Proc.devRef .tc main_v32) = selfScaleOf (F := F) (X (Proc.devRef .tc main_arg1)) := by
  chain_rfl
/-- the first weighted neighbour sum, of the input rows, in `main_v50`, -/
theorem g0_v50 : StableHlo.after (hostOps0 (F := F)) X (Proc.devRef .tc main_v50)
    = aggOf (F := F) (dstRow (X (Proc.devRef .tc main_arg1))) (srcRow (X (Proc.devRef .tc main_arg1)))
        (normOf (F := F) (X (Proc.devRef .tc main_arg1))) (X (Proc.devRef .tc main_arg0)) := by
  chain_rfl
/-- and the first bias as a row in `main_v51`. -/
theorem g0_v51 : StableHlo.after (hostOps0 (F := F)) X (Proc.devRef .tc main_v51) = bias2Of (F := F) (X (Proc.devRef .tc main_arg4)) := by
  chain_rfl

/-- Stretch 1 leaves in `main_v70` the weighted neighbour sum of the rows it finds in `main_v52`, from the edge rows and
    weights it finds in `main_v3`, `main_v1` and `main_v30`, -/
theorem g1_v70 : StableHlo.after (hostOps1 (F := F)) X (Proc.devRef .tc main_v70)
    = aggOf (F := F) (X (Proc.devRef .tc main_v3)) (X (Proc.devRef .tc main_v1)) (X (Proc.devRef .tc main_v30))
        (X (Proc.devRef .tc main_v52)) := by
  chain_rfl
/-- and the second bias as a row in `main_v71`. -/
theorem g1_v71 : StableHlo.after (hostOps1 (F := F)) X (Proc.devRef .tc main_v71) = bias2Of (F := F) (X (Proc.devRef .tc main_arg6)) := by
  chain_rfl

/-- Stretch 2 leaves in `main_v90` the weighted neighbour sum of the rows it finds in `main_v72`, -/
theorem g2_v90 : StableHlo.after (hostOps2 (F := F)) X (Proc.devRef .tc main_v90)
    = aggOf (F := F) (X (Proc.devRef .tc main_v3)) (X (Proc.devRef .tc main_v1)) (X (Proc.devRef .tc main_v30))
        (X (Proc.devRef .tc main_v72)) := by
  chain_rfl
/-- and the third bias as a row in `main_v91`. -/
theorem g2_v91 : StableHlo.after (hostOps2 (F := F)) X (Proc.devRef .tc main_v91) = bias2Of (F := F) (X (Proc.devRef .tc main_arg8)) := by
  chain_rfl

/-- Stretch 3 leaves the node labels as a column in `main_v93` -/
theorem g3_v93 : StableHlo.after (hostOps3 (F := F)) X (Proc.devRef .tc main_v93) = labels2 (X (Proc.devRef .tc main_arg2)) := by
  chain_rfl
/-- and the read-out's bias as a row in `main_v94`. -/
theorem g3_v94 : StableHlo.after (hostOps3 (F := F)) X (Proc.devRef .tc main_v94) = biasfc2Of (F := F) (X (Proc.devRef .tc main_arg10)) := by
  chain_rfl

end Reads

/-! ## The same at the extended reals, in the kernel program's terms -/

section ReadsIdeal

variable (X : Valuation τ sig (Elt Ideal))

theorem read0_v1 : StableHlo.after (hostOps0 (F := Ideal)) X (Proc.devRef .tc main_v1) = srcRow (X (Proc.devRef .tc main_arg1)) :=
  g0_v1 X
theorem read0_v3 : StableHlo.after (hostOps0 (F := Ideal)) X (Proc.devRef .tc main_v3) = dstRow (X (Proc.devRef .tc main_arg1)) :=
  g0_v3 X
theorem read0_v30 : StableHlo.after (hostOps0 (F := Ideal)) X (Proc.devRef .tc main_v30) = Cert.KTerm.norm (X (Proc.devRef .tc main_arg1)) :=
  (g0_v30 X).trans (normOf_ideal _)
theorem read0_v32 : StableHlo.after (hostOps0 (F := Ideal)) X (Proc.devRef .tc main_v32) = Cert.KTerm.selfScale (X (Proc.devRef .tc main_arg1)) :=
  (g0_v32 X).trans (selfScaleOf_ideal _)
theorem read0_v50 : StableHlo.after (hostOps0 (F := Ideal)) X (Proc.devRef .tc main_v50)
    = Cert.KTerm.agg (X (Proc.devRef .tc main_arg1)) (X (Proc.devRef .tc main_arg0)) :=
  (g0_v50 X).trans ((congrArg (fun n => aggOf (F := Ideal) (dstRow (X (Proc.devRef .tc main_arg1))) (srcRow (X (Proc.devRef .tc main_arg1))) n
    (X (Proc.devRef .tc main_arg0))) (normOf_ideal _)).trans (aggOf_ideal _ _))
theorem read0_v51 : StableHlo.after (hostOps0 (F := Ideal)) X (Proc.devRef .tc main_v51) = Cert.KTerm.bias2 (X (Proc.devRef .tc main_arg4)) :=
  (g0_v51 X).trans (bias2Of_ideal _)
theorem read1_v71 : StableHlo.after (hostOps1 (F := Ideal)) X (Proc.devRef .tc main_v71) = Cert.KTerm.bias2 (X (Proc.devRef .tc main_arg6)) :=
  (g1_v71 X).trans (bias2Of_ideal _)
theorem read2_v91 : StableHlo.after (hostOps2 (F := Ideal)) X (Proc.devRef .tc main_v91) = Cert.KTerm.bias2 (X (Proc.devRef .tc main_arg8)) :=
  (g2_v91 X).trans (bias2Of_ideal _)
theorem read3_v93 : StableHlo.after (hostOps3 (F := Ideal)) X (Proc.devRef .tc main_v93) = labels2 (X (Proc.devRef .tc main_arg2)) :=
  g3_v93 X
theorem read3_v94 : StableHlo.after (hostOps3 (F := Ideal)) X (Proc.devRef .tc main_v94) = Cert.KTerm.biasfc2 (X (Proc.devRef .tc main_arg10)) :=
  (g3_v94 X).trans (biasfc2Of_ideal _)

end ReadsIdeal

end Cert.KernelIdeal.Val

end
-- ==== Proof.Val.LayerPay.lean ====
/-
  One layer step of the graph convolution, read entry by entry on a block of 5000 rows.

  The body of each of the three layer regions loads a block `a` of aggregated neighbour rows, the matching block `x` of
  node rows, the column `s` of per-row self weights, the whole weight matrix `W` and the bias row `b`, and stores
      (a + s · x) W + b        (clamped at zero from below in the first two layers).
  Over the extended reals the narrowing of the matrix product's operands is the identity and the product into a zero
  accumulator is the plain sum over the contracted axis, so at row `p` and feature `q` the stored entry is
      (∑ k, (a[p, k] + s[p, 0] · x[p, k]) · W[k, q]) + b[0, q].
-/
import proofs.«413695_j61357902791131_1_alg».proof.Proof.Gen.KernelIdeal.Skeleton
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

/-- One layer step on a block, at row `p` and feature `q`, before any clamp. -/
def stepAt (a x : S5000x64.Idx → EReal) (s : S5000x1.Idx → EReal) (W : S64x64.Idx → EReal) (b : S1x64.Idx → EReal)
    (p : Fin 5000) (q : Fin 64) : EReal :=
  (∑ k : Fin 64, (a (ix2 p k) + s (ix2 p (0 : Fin 1)) * x (ix2 p k)) * W (ix2 k q)) + b (ix2 (0 : Fin 1) q)

/-- A column of 5000 entries spread over 64 features reads, at `(p, q)`, the column's entry of row `p`. -/
theorem spreadColumn_apply (v : S5000x1.Idx → EReal) (p : Fin 5000) (q : Fin 64) :
    broadcastTo S5000x64 v broadcasts_S5000x1_S5000x64 (ix2 p q) = v (ix2 p (0 : Fin 1)) := by
  refine broadcastTo_apply v broadcasts_S5000x1_S5000x64 (ix2 p q) (ix2 p (0 : Fin 1)) fun ax => ?_
  match ax with
  | ⟨0, _⟩ =>
    show p.val = if (5000 : ℕ) = 1 then 0 else p.val
    exact (if_neg (by decide)).symm
  | ⟨1, _⟩ => rfl

/-- The contraction's left operand index at output `(p, q)` and contracted coordinate: row `p` … -/
theorem lhs_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contracted coordinate as its column; -/
theorem lhs_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- the right operand index has the contracted coordinate as its row … -/
theorem rhs_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … and the output's feature as its column. -/
theorem rhs_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block product into a zero accumulator, at `(p, q)`: the sum over the 64 contracted features. -/
theorem product_apply (L : FVec Ideal S5000x64 .bf16) (R : FVec Ideal S64x64 .bf16) (p : Fin 5000) (q : Fin 64) :
    FloatOps.matmul dot_S5000x64_S64x64_S5000x64_1_0_0_1_n_n none L R (constant S5000x64 .f32 0x00000000#32) (ix2 p q)
      = ∑ k : Fin 64, L (ix2 p k) * R (ix2 k q) := by
  rw [Ideal.matmul_constant_zero_apply,
    ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q)
      ((ValueIdx.contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 p q)
      ((ValueIdx.contrEquiv1 dot_S5000x64_S64x64_S5000x64_1_0_0_1_n_n 64 rfl rfl).symm k) = ix2 k q :=
    funext fun a => Fin.ext (by
      match a with
      | ⟨0, _⟩ => exact (rhs_row _ _).trans hk
      | ⟨1, _⟩ => exact rhs_col _ _)
  rw [el, er]

/-- The body's stored term with the identity reshapes removed: the product of the narrowed `a + s · x` with the narrowed
    weight into a zero accumulator, plus the bias row spread over the rows. -/
def stepVec (a x : FVec Ideal S5000x64 .f32) (s : FVec Ideal S5000x1 .f32) (W : FVec Ideal S64x64 .f32) (b : FVec Ideal S1x64 .f32) :
    FVec Ideal S5000x64 .f32 :=
  addf
    (matmul dot_S5000x64_S64x64_S5000x64_1_0_0_1_n_n none
      (truncf .bf16 (addf a (mulf (broadcastTo S5000x64 s broadcasts_S5000x1_S5000x64) x)) bitsLt_bf16_f32)
      (truncf .bf16 W bitsLt_bf16_f32) (constant S5000x64 .f32 0x00000000#32))
    (broadcastTo S5000x64 b broadcasts_S1x64_S5000x64)

/-- That term at row `p` and feature `q` is the layer step there: narrowing is the identity, the product into the zero
    accumulator is the sum over the contracted feature, the spread column reads its row and the spread bias its feature. -/
theorem stepVec_apply (a x : FVec Ideal S5000x64 .f32) (s : FVec Ideal S5000x1 .f32) (W : FVec Ideal S64x64 .f32)
    (b : FVec Ideal S1x64 .f32) (p : Fin 5000) (q : Fin 64) :
    stepVec a x s W b (ix2 p q) = stepAt a x s W b p q := by
  unfold stepVec stepAt
  rw [addf_apply]
  refine congrArg₂ (· + ·) ?_ (broadcastTo_1b_ab_apply b broadcasts_S1x64_S5000x64 p q)
  refine (product_apply _ _ p q).trans (Finset.sum_congr rfl fun k _ => ?_)
  rw [truncf_apply, truncf_apply, addf_apply, mulf_apply, spreadColumn_apply]

/-- The first layer's payload is the clamped step: its reshapes are to the same shapes. The arguments come in the order the
    body loads them: aggregate, self weight, node rows, weight, bias. -/
theorem k0_pay1_eq (a : Vec Ideal S5000x64 .f32) (s : Vec Ideal S5000x1 .f32) (x : Vec Ideal S5000x64 .f32)
    (W : Vec Ideal S64x64 .f32) (b : Vec Ideal S1x64 .f32) :
    k0_pay1 (F := Ideal) a s x W b = maximumf (stepVec a x s W b) (broadcast S5000x64 (Scalar.ofBits (F := Ideal) .f32 0x00000000#32)) := by
  unfold k0_pay1 stepVec
  simp only [shapeCast_self]

/-- The second layer's payload likewise. -/
theorem k1_pay1_eq (a : Vec Ideal S5000x64 .f32) (s : Vec Ideal S5000x1 .f32) (x : Vec Ideal S5000x64 .f32)
    (W : Vec Ideal S64x64 .f32) (b : Vec Ideal S1x64 .f32) :
    k1_pay1 (F := Ideal) a s x W b = maximumf (stepVec a x s W b) (broadcast S5000x64 (Scalar.ofBits (F := Ideal) .f32 0x00000000#32)) := by
  unfold k1_pay1 stepVec
  simp only [shapeCast_self]

/-- The third layer's payload is the step itself: it has no clamp. -/
theorem k2_pay1_eq (a : Vec Ideal S5000x64 .f32) (s : Vec Ideal S5000x1 .f32) (x : Vec Ideal S5000x64 .f32)
    (W : Vec Ideal S64x64 .f32) (b : Vec Ideal S1x64 .f32) :
    k2_pay1 (F := Ideal) a s x W b = stepVec a x s W b := by
  unfold k2_pay1 stepVec
  simp only [shapeCast_self]

/-- A clamped step at an index: the maximum of the step and zero (the clamp's constant is the zero word). -/
theorem clamped_apply (v : FVec Ideal S5000x64 .f32) (i : S5000x64.Idx) :
    maximumf v (broadcast S5000x64 (Scalar.ofBits (F := Ideal) .f32 0x00000000#32)) i = max (v i) 0 := by
  rw [maximumf_apply, broadcast_apply]
  exact congrArg (max (v i)) Ideal.ofBits_zero_f32

/-- The first layer's stored entry at row `p`, feature `q`. -/
theorem k0_pay1_apply (a : Vec Ideal S5000x64 .f32) (s : Vec Ideal S5000x1 .f32) (x : Vec Ideal S5000x64 .f32)
    (W : Vec Ideal S64x64 .f32) (b : Vec Ideal S1x64 .f32) (p : Fin 5000) (q : Fin 64) :
    k0_pay1 (F := Ideal) a s x W b (ix2 p q) = max (stepAt a x s W b p q) 0 := by
  rw [k0_pay1_eq, clamped_apply, stepVec_apply]

/-- The second layer's stored entry at row `p`, feature `q`. -/
theorem k1_pay1_apply (a : Vec Ideal S5000x64 .f32) (s : Vec Ideal S5000x1 .f32) (x : Vec Ideal S5000x64 .f32)
    (W : Vec Ideal S64x64 .f32) (b : Vec Ideal S1x64 .f32) (p : Fin 5000) (q : Fin 64) :
    k1_pay1 (F := Ideal) a s x W b (ix2 p q) = max (stepAt a x s W b p q) 0 := by
  rw [k1_pay1_eq, clamped_apply, stepVec_apply]

/-- The third layer's stored entry at row `p`, feature `q`. -/
theorem k2_pay1_apply (a : Vec Ideal S5000x64 .f32) (s : Vec Ideal S5000x1 .f32) (x : Vec Ideal S5000x64 .f32)
    (W : Vec Ideal S64x64 .f32) (b : Vec Ideal S1x64 .f32) (p : Fin 5000) (q : Fin 64) :
    k2_pay1 (F := Ideal) a s x W b (ix2 p q) = stepAt a x s W b p q := by
  rw [k2_pay1_eq, stepVec_apply]

end Cert.KernelIdeal.Val

end
-- ==== Proof.Val.LayerFinal.lean ====
/-
  The three layer regions as whole arrays, over the extended reals.

  Each region runs ten points; point `t` loads rows `5000 t … 5000 t + 4999` of the aggregated neighbour rows, of the node
  rows and of the self weights, with the whole weight matrix and bias row, and writes back rows `5000 t … 5000 t + 4999` of
  the result. Entry `(p, q)` of what it writes back is the layer step of the five loaded blocks at row `p`, which reads
  only row `p` of the three row blocks, that is row `5000 t + p` of the three arrays: it is the layer step of the five
  arrays at row `5000 t + p`. So every point writes back its block of ONE array — the layer step of the arrays the
  region found — and since row `r` lies in the block of point `r / 5000`, the ten blocks cover the array, which therefore
  ends holding that step at every index.
-/
import proofs.«413695_j61357902791131_1_alg».proof.Proof.KI.Layer0
import proofs.«413695_j61357902791131_1_alg».proof.Proof.KI.Layer1
import proofs.«413695_j61357902791131_1_alg».proof.Proof.KI.Layer2
import proofs.«413695_j61357902791131_1_alg».proof.Proof.Val.LayerPay
import proofs.«413695_j61357902791131_1_alg».proof.Proof.Val.Spec
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when a region is entered
variable (V : (c : Dev nD) → (b : Ref sig .tc) → Buf (Elt Ideal) ((c : Thread nD τ).loc b))

/-- The offsets of a whole-buffer access are zero on both axes. -/
theorem hz : (![0, 0] : Fin 2 → Nat) = fun _ => 0 := funext fun a => by fin_cases a <;> rfl

/-- The step of five blocks at row `p` is the step of five arrays at row `i` when, on the entries the step reads, row `p`
    of each row block is row `i` of its array and the weight and bias blocks are the weight and bias. -/
theorem stepAt_eq_combineAt (A0 A1 : Cert.Spec.SN64.Idx → EReal) (A2 : Cert.Spec.SN1.Idx → EReal) (A3 : Cert.Spec.SDD.Idx → EReal)
    (A4 : Cert.Spec.S1D.Idx → EReal) (x0 x1 : S5000x64.Idx → EReal) (x2 : S5000x1.Idx → EReal) (x3 : S64x64.Idx → EReal)
    (x4 : S1x64.Idx → EReal) (i : Fin 50000) (p : Fin 5000) (q : Fin 64)
    (h0 : ∀ k : Fin 64, x0 (ix2 p k) = A0 (ix2 i k)) (h1 : ∀ k : Fin 64, x1 (ix2 p k) = A1 (ix2 i k))
    (h2 : x2 (ix2 p (0 : Fin 1)) = A2 (ix2 i (0 : Fin 1))) (h3 : ∀ k : Fin 64, x3 (ix2 k q) = A3 (ix2 k q))
    (h4 : x4 (ix2 (0 : Fin 1) q) = A4 (ix2 (0 : Fin 1) q)) :
    stepAt x0 x1 x2 x3 x4 p q = Cert.Spec.combineAt A0 A1 A2 A3 A4 i q := by
  unfold stepAt Cert.Spec.combineAt
  rw [h2, h4]
  refine congrArg (· + _) (Finset.sum_congr rfl fun k _ => ?_)
  rw [h0, h1, h3]

/-! ## Region 0: the first layer -/

section Region0

/-- The printed index maps of region 0, decided over its ten points: the row windows (0, 1, 2 and the output 5) sit at block
    row `t`, column 0; the weight and the bias (3, 4) at block (0, 0) throughout. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the aggregate's block at point `t` is row `5000 t + p` of the aggregate. -/
theorem rows0_0 (c : Dev nD) (t : Fin cfg0.N) (p : Fin 5000) (k : Fin 64) (i : Fin 50000) (hi : i.val = 5000 * t.val + p.val) :
    (iblk0 V c 0 t : Vec Ideal S5000x64 .f32) (ix2 p k) = (V c (Pipeline.arrRef spec0 0) : S50000x64.Idx → EReal) (ix2 i k) := by
  obtain ⟨e0, e1, -⟩ := idx0 t
  show (V c (Pipeline.arrRef spec0 0) : S50000x64.Idx → EReal) (((cfg0.win 0).blk t).view.emb (ix2 p k)) = _
  refine congrArg _ (funext fun a => Fin.ext ?_)
  match a with
  | ⟨0, _⟩ => show win0_0.index t (0 : Fin 2) * 5000 + 1 * p.val = i.val; omega
  | ⟨1, _⟩ => show win0_0.index t (1 : Fin 2) * 64 + 1 * k.val = k.val; omega

/-- Row `p` of the node rows' block at point `t` is row `5000 t + p` of the node rows. -/
theorem rows0_1 (c : Dev nD) (t : Fin cfg0.N) (p : Fin 5000) (k : Fin 64) (i : Fin 50000) (hi : i.val = 5000 * t.val + p.val) :
    (iblk0 V c 1 t : Vec Ideal S5000x64 .f32) (ix2 p k) = (V c (Pipeline.arrRef spec0 1) : S50000x64.Idx → EReal) (ix2 i k) := by
  obtain ⟨-, -, e0, e1, -⟩ := idx0 t
  show (V c (Pipeline.arrRef spec0 1) : S50000x64.Idx → EReal) (((cfg0.win 1).blk t).view.emb (ix2 p k)) = _
  refine congrArg _ (funext fun a => Fin.ext ?_)
  match a with
  | ⟨0, _⟩ => show win0_1.index t (0 : Fin 2) * 5000 + 1 * p.val = i.val; omega
  | ⟨1, _⟩ => show win0_1.index t (1 : Fin 2) * 64 + 1 * k.val = k.val; omega

/-- Entry `p` of the self weights' block at point `t` is entry `5000 t + p` of the self weights. -/
theorem col0_2 (c : Dev nD) (t : Fin cfg0.N) (p : Fin 5000) (i : Fin 50000) (hi : i.val = 5000 * t.val + p.val) :
    (iblk0 V c 2 t : Vec Ideal S5000x1 .f32) (ix2 p (0 : Fin 1)) = (V c (Pipeline.arrRef spec0 2) : S50000x1.Idx → EReal) (ix2 i (0 : Fin 1)) := by
  obtain ⟨-, -, -, -, e0, e1, -⟩ := idx0 t
  show (V c (Pipeline.arrRef spec0 2) : S50000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = i.val; omega
  | ⟨1, _⟩ => show win0_2.index t (1 : Fin 2) * 1 + 1 * (0 : Fin 1).val = (0 : Fin 1).val; omega

/-- The weight's block is the weight at every point. -/
theorem whole0_3 (c : Dev nD) (t : Fin cfg0.N) (k q : Fin 64) :
    (iblk0 V c 3 t : Vec Ideal S64x64 .f32) (ix2 k q) = (V c (Pipeline.arrRef spec0 3) : S64x64.Idx → EReal) (ix2 k q) := by
  obtain ⟨-, -, -, -, -, -, e0, e1, -⟩ := idx0 t
  show (V c (Pipeline.arrRef spec0 3) : S64x64.Idx → EReal) (((cfg0.win 3).blk t).view.emb (ix2 k q)) = _
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The bias row's block is the bias row at every point. -/
theorem whole0_4 (c : Dev nD) (t : Fin cfg0.N) (q : Fin 64) :
    (iblk0 V c 4 t : Vec Ideal S1x64 .f32) (ix2 (0 : Fin 1) q) = (V c (Pipeline.arrRef spec0 4) : S1x64.Idx → EReal) (ix2 (0 : Fin 1) q) := by
  obtain ⟨-, -, -, -, -, -, -, -, e0, e1, -⟩ := idx0 t
  show (V c (Pipeline.arrRef spec0 4) : S1x64.Idx → EReal) (((cfg0.win 4).blk t).view.emb (ix2 (0 : Fin 1) q)) = _
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 64 + 1 * q.val = q.val; omega

/-- Entry `(p, q)` of the output's block at point `t` sits at `(5000 t + p, q)` in the output array. -/
theorem spot0 (t : Fin cfg0.N) (p : Fin 5000) (q : Fin 64) (i : Fin 50000) (hi : i.val = 5000 * t.val + p.val) :
    (((cfg0.win 5).blk t).view.emb (ix2 p q) : S50000x64.Idx) = ix2 i q := by
  obtain ⟨-, -, -, -, -, -, -, -, -, -, e0, e1⟩ := idx0 t
  refine funext fun a => Fin.ext ?_
  match a with
  | ⟨0, _⟩ => show win0_5.index t (0 : Fin 2) * 5000 + 1 * p.val = i.val; omega
  | ⟨1, _⟩ => show win0_5.index t (1 : Fin 2) * 64 + 1 * q.val = q.val; omega

/-- What the region leaves: the layer step of the five arrays it found, clamped at zero. -/
abbrev whole0 (c : Dev nD) : S50000x64.Idx → EReal :=
  Cert.Spec.combine true (V c (Pipeline.arrRef spec0 0)) (V c (Pipeline.arrRef spec0 1)) (V c (Pipeline.arrRef spec0 2))
    (V c (Pipeline.arrRef spec0 3)) (V c (Pipeline.arrRef spec0 4))

/-- What point `t` writes back is block `t` of that array: the stored entry `(p, q)` is the step of the five blocks at row
    `p`, each block's row `p` is the array's row `5000 t + p`, and that is where the output's block puts the entry. -/
theorem flushed0_eq (c : Dev nD) (t : Fin cfg0.N) :
    (dat0 (F := Ideal) V c).flushed 5 t = ((cfg0.win 5).blk t).view.read (Elt Ideal) (whole0 V c) := by
  show (cfg0.win 5).cut (grid0.coords t) ((dat0 (F := Ideal) V c).after 5 t) = _
  rw [after0_5]
  unfold out0_5
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 (n0 := 5000) (n1 := 64) j⟩
  have hN : cfg0.N = 10 := N_0
  have ht : t.val < 10 := hN ▸ t.isLt
  have hp : p.val < 5000 := p.isLt
  have hi : 5000 * t.val + p.val < 50000 := by omega
  refine (k0_pay1_apply (iblk0 V c 0 t) (iblk0 V c 2 t) (iblk0 V c 1 t) (iblk0 V c 3 t) (iblk0 V c 4 t) p q).trans ?_
  refine Eq.trans ?_ (congrArg (whole0 V c) (spot0 t p q ⟨5000 * t.val + p.val, hi⟩ rfl)).symm
  show max (stepAt _ _ _ _ _ p q) 0 = max (Cert.Spec.combineAt _ _ _ _ _ ⟨5000 * t.val + p.val, hi⟩ q) 0
  refine congrArg (max · 0) (stepAt_eq_combineAt _ _ _ _ _ _ _ _ _ _ ⟨5000 * t.val + p.val, hi⟩ p q
    (fun k => rows0_0 V c t p k _ rfl) (fun k => rows0_1 V c t p k _ rfl) (col0_2 V c t p _ rfl)
    (fun k => whole0_3 V c t k q) (whole0_4 V c t q))

/-- An index of the output array lies in point `t`'s block iff each coordinate lies in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v52).slice (win0_5.rect t)).set ↔ _
  rw [View.set_slice_whole, Rect.mem_set_unit]
  exact Iff.rfl

/-- Every row `r` of the output array is written back by point `r / 5000`. -/
theorem cover0 (i : S50000x64.Idx) : ∃ t : Fin cfg0.N, (cfg0.win 5).flush t = true ∧ i ∈ ((cfg0.win 5).blk t).view.set := by
  have h0 : (i 0).val < 50000 := (i 0).isLt
  have h1 : (i 1).val < 64 := (i 1).isLt
  have hN : cfg0.N = 10 := N_0
  refine ⟨⟨(i 0).val / 5000, by rw [hN]; omega⟩, flush0_5 _, ?_⟩
  rw [mem_blk0]
  obtain ⟨-, -, -, -, -, -, -, -, -, -, e0, e1⟩ := idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]
    show (i 0).val / 5000 * 5000 ≤ (i 0).val ∧ (i 0).val < (i 0).val / 5000 * 5000 + 5000
    omega
  | ⟨1, _⟩ =>
    show win0_5.index _ (1 : Fin 2) * 64 ≤ (i 1).val ∧ (i 1).val < win0_5.index _ (1 : Fin 2) * 64 + 64
    rw [e1]
    omega

/-- The output array of region 0 after the region: the first layer's step of the five arrays the region found, index by
    index — every point writes back its block of that one array, and the ten blocks cover the 50000 rows. -/
theorem layer0_final (c : Dev nD) :
    (Cert.KernelIdeal.Hand.dat0 (F := Ideal) V c).arrAt 5 cfg0.N
      = Cert.Spec.combine true (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 (whole0 V c) (fun t _ => flushed0_eq V c t) cover0

end Region0

/-! ## Region 1: the second layer -/

section Region1

/-- The printed index maps of region 1, decided over its ten points: the row windows (0, 1, 2 and the output 5) sit at block
    row `t`, column 0; the weight and the bias (3, 4) at block (0, 0) throughout. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the aggregate's block at point `t` is row `5000 t + p` of the aggregate. -/
theorem rows1_0 (c : Dev nD) (t : Fin cfg1.N) (p : Fin 5000) (k : Fin 64) (i : Fin 50000) (hi : i.val = 5000 * t.val + p.val) :
    (iblk1 V c 0 t : Vec Ideal S5000x64 .f32) (ix2 p k) = (V c (Pipeline.arrRef spec1 0) : S50000x64.Idx → EReal) (ix2 i k) := by
  obtain ⟨e0, e1, -⟩ := idx1 t
  show (V c (Pipeline.arrRef spec1 0) : S50000x64.Idx → EReal) (((cfg1.win 0).blk t).view.emb (ix2 p k)) = _
  refine congrArg _ (funext fun a => Fin.ext ?_)
  match a with
  | ⟨0, _⟩ => show win1_0.index t (0 : Fin 2) * 5000 + 1 * p.val = i.val; omega
  | ⟨1, _⟩ => show win1_0.index t (1 : Fin 2) * 64 + 1 * k.val = k.val; omega

/-- Row `p` of the node rows' block at point `t` is row `5000 t + p` of the node rows. -/
theorem rows1_1 (c : Dev nD) (t : Fin cfg1.N) (p : Fin 5000) (k : Fin 64) (i : Fin 50000) (hi : i.val = 5000 * t.val + p.val) :
    (iblk1 V c 1 t : Vec Ideal S5000x64 .f32) (ix2 p k) = (V c (Pipeline.arrRef spec1 1) : S50000x64.Idx → EReal) (ix2 i k) := by
  obtain ⟨-, -, e0, e1, -⟩ := idx1 t
  show (V c (Pipeline.arrRef spec1 1) : S50000x64.Idx → EReal) (((cfg1.win 1).blk t).view.emb (ix2 p k)) = _
  refine congrArg _ (funext fun a => Fin.ext ?_)
  match a with
  | ⟨0, _⟩ => show win1_1.index t (0 : Fin 2) * 5000 + 1 * p.val = i.val; omega
  | ⟨1, _⟩ => show win1_1.index t (1 : Fin 2) * 64 + 1 * k.val = k.val; omega

/-- Entry `p` of the self weights' block at point `t` is entry `5000 t + p` of the self weights. -/
theorem col1_2 (c : Dev nD) (t : Fin cfg1.N) (p : Fin 5000) (i : Fin 50000) (hi : i.val = 5000 * t.val + p.val) :
    (iblk1 V c 2 t : Vec Ideal S5000x1 .f32) (ix2 p (0 : Fin 1)) = (V c (Pipeline.arrRef spec1 2) : S50000x1.Idx → EReal) (ix2 i (0 : Fin 1)) := by
  obtain ⟨-, -, -, -, e0, e1, -⟩ := idx1 t
  show (V c (Pipeline.arrRef spec1 2) : S50000x1.Idx → EReal) (((cfg1.win 2).blk t).view.emb (ix2 p (0 : Fin 1))) = _
  refine congrArg _ (funext fun a => Fin.ext ?_)
  match a with
  | ⟨0, _⟩ => show win1_2.index t (0 : Fin 2) * 5000 + 1 * p.val = i.val; omega
  | ⟨1, _⟩ => show win1_2.index t (1 : Fin 2) * 1 + 1 * (0 : Fin 1).val = (0 : Fin 1).val; omega

/-- The weight's block is the weight at every point. -/
theorem whole1_3 (c : Dev nD) (t : Fin cfg1.N) (k q : Fin 64) :
    (iblk1 V c 3 t : Vec Ideal S64x64 .f32) (ix2 k q) = (V c (Pipeline.arrRef spec1 3) : S64x64.Idx → EReal) (ix2 k q) := by
  obtain ⟨-, -, -, -, -, -, e0, e1, -⟩ := idx1 t
  show (V c (Pipeline.arrRef spec1 3) : S64x64.Idx → EReal) (((cfg1.win 3).blk t).view.emb (ix2 k q)) = _
  refine congrArg _ (funext fun a => Fin.ext ?_)
  match a with
  | ⟨0, _⟩ => show win1_3.index t (0 : Fin 2) * 64 + 1 * k.val = k.val; omega
  | ⟨1, _⟩ => show win1_3.index t (1 : Fin 2) * 64 + 1 * q.val = q.val; omega

/-- The bias row's block is the bias row at every point. -/
theorem whole1_4 (c : Dev nD) (t : Fin cfg1.N) (q : Fin 64) :
    (iblk1 V c 4 t : Vec Ideal S1x64 .f32) (ix2 (0 : Fin 1) q) = (V c (Pipeline.arrRef spec1 4) : S1x64.Idx → EReal) (ix2 (0 : Fin 1) q) := by
  obtain ⟨-, -, -, -, -, -, -, -, e0, e1, -⟩ := idx1 t
  show (V c (Pipeline.arrRef spec1 4) : S1x64.Idx → EReal) (((cfg1.win 4).blk t).view.emb (ix2 (0 : Fin 1) q)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 64 + 1 * q.val = q.val; omega

/-- Entry `(p, q)` of the output's block at point `t` sits at `(5000 t + p, q)` in the output array. -/
theorem spot1 (t : Fin cfg1.N) (p : Fin 5000) (q : Fin 64) (i : Fin 50000) (hi : i.val = 5000 * t.val + p.val) :
    (((cfg1.win 5).blk t).view.emb (ix2 p q) : S50000x64.Idx) = ix2 i q := by
  obtain ⟨-, -, -, -, -, -, -, -, -, -, e0, e1⟩ := idx1 t
  refine funext fun a => Fin.ext ?_
  match a with
  | ⟨0, _⟩ => show win1_5.index t (0 : Fin 2) * 5000 + 1 * p.val = i.val; omega
  | ⟨1, _⟩ => show win1_5.index t (1 : Fin 2) * 64 + 1 * q.val = q.val; omega

/-- What the region leaves: the layer step of the five arrays it found, clamped at zero. -/
abbrev whole1 (c : Dev nD) : S50000x64.Idx → EReal :=
  Cert.Spec.combine true (V c (Pipeline.arrRef spec1 0)) (V c (Pipeline.arrRef spec1 1)) (V c (Pipeline.arrRef spec1 2))
    (V c (Pipeline.arrRef spec1 3)) (V c (Pipeline.arrRef spec1 4))

/-- What point `t` writes back is block `t` of that array: the stored entry `(p, q)` is the step of the five blocks at row
    `p`, each block's row `p` is the array's row `5000 t + p`, and that is where the output's block puts the entry. -/
theorem flushed1_eq (c : Dev nD) (t : Fin cfg1.N) :
    (dat1 (F := Ideal) V c).flushed 5 t = ((cfg1.win 5).blk t).view.read (Elt Ideal) (whole1 V c) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 (n0 := 5000) (n1 := 64) j⟩
  have hN : cfg1.N = 10 := N_1
  have ht : t.val < 10 := hN ▸ t.isLt
  have hp : p.val < 5000 := p.isLt
  have hi : 5000 * t.val + p.val < 50000 := by omega
  refine (k1_pay1_apply (iblk1 V c 0 t) (iblk1 V c 2 t) (iblk1 V c 1 t) (iblk1 V c 3 t) (iblk1 V c 4 t) p q).trans ?_
  refine Eq.trans ?_ (congrArg (whole1 V c) (spot1 t p q ⟨5000 * t.val + p.val, hi⟩ rfl)).symm
  show max (stepAt _ _ _ _ _ p q) 0 = max (Cert.Spec.combineAt _ _ _ _ _ ⟨5000 * t.val + p.val, hi⟩ q) 0
  refine congrArg (max · 0) (stepAt_eq_combineAt _ _ _ _ _ _ _ _ _ _ ⟨5000 * t.val + p.val, hi⟩ p q
    (fun k => rows1_0 V c t p k _ rfl) (fun k => rows1_1 V c t p k _ rfl) (col1_2 V c t p _ rfl)
    (fun k => whole1_3 V c t k q) (whole1_4 V c t q))

/-- An index of the output array lies in point `t`'s block iff each coordinate lies in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v72).slice (win1_5.rect t)).set ↔ _
  rw [View.set_slice_whole, Rect.mem_set_unit]
  exact Iff.rfl

/-- Every row `r` of the output array is written back by point `r / 5000`. -/
theorem cover1 (i : S50000x64.Idx) : ∃ t : Fin cfg1.N, (cfg1.win 5).flush t = true ∧ i ∈ ((cfg1.win 5).blk t).view.set := by
  have h0 : (i 0).val < 50000 := (i 0).isLt
  have h1 : (i 1).val < 64 := (i 1).isLt
  have hN : cfg1.N = 10 := N_1
  refine ⟨⟨(i 0).val / 5000, by rw [hN]; omega⟩, flush1_5 _, ?_⟩
  rw [mem_blk1]
  obtain ⟨-, -, -, -, -, -, -, -, -, -, e0, e1⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]
    show (i 0).val / 5000 * 5000 ≤ (i 0).val ∧ (i 0).val < (i 0).val / 5000 * 5000 + 5000
    omega
  | ⟨1, _⟩ =>
    show win1_5.index _ (1 : Fin 2) * 64 ≤ (i 1).val ∧ (i 1).val < win1_5.index _ (1 : Fin 2) * 64 + 64
    rw [e1]
    omega

/-- The output array of region 1 after the region: the second layer's step of the five arrays the region found, index by
    index — every point writes back its block of that one array, and the ten blocks cover the 50000 rows. -/
theorem layer1_final (c : Dev nD) :
    (Cert.KernelIdeal.Hand.dat1 (F := Ideal) V c).arrAt 5 cfg1.N
      = Cert.Spec.combine true (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 (whole1 V c) (fun t _ => flushed1_eq V c t) cover1

end Region1

/-! ## Region 2: the third layer -/

section Region2

/-- The printed index maps of region 2, decided over its ten points: the row windows (0, 1, 2 and the output 5) sit at block
    row `t`, column 0; the weight and the bias (3, 4) at block (0, 0) throughout. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregate's block at point `t` is row `5000 t + p` of the aggregate. -/
theorem rows2_0 (c : Dev nD) (t : Fin cfg2.N) (p : Fin 5000) (k : Fin 64) (i : Fin 50000) (hi : i.val = 5000 * t.val + p.val) :
    (iblk2 V c 0 t : Vec Ideal S5000x64 .f32) (ix2 p k) = (V c (Pipeline.arrRef spec2 0) : S50000x64.Idx → EReal) (ix2 i k) := by
  obtain ⟨e0, e1, -⟩ := idx2 t
  show (V c (Pipeline.arrRef spec2 0) : S50000x64.Idx → EReal) (((cfg2.win 0).blk t).view.emb (ix2 p k)) = _
  refine congrArg _ (funext fun a => Fin.ext ?_)
  match a with
  | ⟨0, _⟩ => show win2_0.index t (0 : Fin 2) * 5000 + 1 * p.val = i.val; omega
  | ⟨1, _⟩ => show win2_0.index t (1 : Fin 2) * 64 + 1 * k.val = k.val; omega

/-- Row `p` of the node rows' block at point `t` is row `5000 t + p` of the node rows. -/
theorem rows2_1 (c : Dev nD) (t : Fin cfg2.N) (p : Fin 5000) (k : Fin 64) (i : Fin 50000) (hi : i.val = 5000 * t.val + p.val) :
    (iblk2 V c 1 t : Vec Ideal S5000x64 .f32) (ix2 p k) = (V c (Pipeline.arrRef spec2 1) : S50000x64.Idx → EReal) (ix2 i k) := by
  obtain ⟨-, -, e0, e1, -⟩ := idx2 t
  show (V c (Pipeline.arrRef spec2 1) : S50000x64.Idx → EReal) (((cfg2.win 1).blk t).view.emb (ix2 p k)) = _
  refine congrArg _ (funext fun a => Fin.ext ?_)
  match a with
  | ⟨0, _⟩ => show win2_1.index t (0 : Fin 2) * 5000 + 1 * p.val = i.val; omega
  | ⟨1, _⟩ => show win2_1.index t (1 : Fin 2) * 64 + 1 * k.val = k.val; omega

/-- Entry `p` of the self weights' block at point `t` is entry `5000 t + p` of the self weights. -/
theorem col2_2 (c : Dev nD) (t : Fin cfg2.N) (p : Fin 5000) (i : Fin 50000) (hi : i.val = 5000 * t.val + p.val) :
    (iblk2 V c 2 t : Vec Ideal S5000x1 .f32) (ix2 p (0 : Fin 1)) = (V c (Pipeline.arrRef spec2 2) : S50000x1.Idx → EReal) (ix2 i (0 : Fin 1)) := by
  obtain ⟨-, -, -, -, e0, e1, -⟩ := idx2 t
  show (V c (Pipeline.arrRef spec2 2) : S50000x1.Idx → EReal) (((cfg2.win 2).blk t).view.emb (ix2 p (0 : Fin 1))) = _
  refine congrArg _ (funext fun a => Fin.ext ?_)
  match a with
  | ⟨0, _⟩ => show win2_2.index t (0 : Fin 2) * 5000 + 1 * p.val = i.val; omega
  | ⟨1, _⟩ => show win2_2.index t (1 : Fin 2) * 1 + 1 * (0 : Fin 1).val = (0 : Fin 1).val; omega

/-- The weight's block is the weight at every point. -/
theorem whole2_3 (c : Dev nD) (t : Fin cfg2.N) (k q : Fin 64) :
    (iblk2 V c 3 t : Vec Ideal S64x64 .f32) (ix2 k q) = (V c (Pipeline.arrRef spec2 3) : S64x64.Idx → EReal) (ix2 k q) := by
  obtain ⟨-, -, -, -, -, -, e0, e1, -⟩ := idx2 t
  show (V c (Pipeline.arrRef spec2 3) : S64x64.Idx → EReal) (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- The bias row's block is the bias row at every point. -/
theorem whole2_4 (c : Dev nD) (t : Fin cfg2.N) (q : Fin 64) :
    (iblk2 V c 4 t : Vec Ideal S1x64 .f32) (ix2 (0 : Fin 1) q) = (V c (Pipeline.arrRef spec2 4) : S1x64.Idx → EReal) (ix2 (0 : Fin 1) q) := by
  obtain ⟨-, -, -, -, -, -, -, -, e0, e1, -⟩ := idx2 t
  show (V c (Pipeline.arrRef spec2 4) : S1x64.Idx → EReal) (((cfg2.win 4).blk t).view.emb (ix2 (0 : Fin 1) q)) = _
  refine congrArg _ (funext fun a => Fin.ext ?_)
  match a with
  | ⟨0, _⟩ => show win2_4.index t (0 : Fin 2) * 1 + 1 * (0 : Fin 1).val = (0 : Fin 1).val; omega
  | ⟨1, _⟩ => show win2_4.index t (1 : Fin 2) * 64 + 1 * q.val = q.val; omega

/-- Entry `(p, q)` of the output's block at point `t` sits at `(5000 t + p, q)` in the output array. -/
theorem spot2 (t : Fin cfg2.N) (p : Fin 5000) (q : Fin 64) (i : Fin 50000) (hi : i.val = 5000 * t.val + p.val) :
    (((cfg2.win 5).blk t).view.emb (ix2 p q) : S50000x64.Idx) = ix2 i q := by
  obtain ⟨-, -, -, -, -, -, -, -, -, -, e0, e1⟩ := idx2 t
  refine funext fun a => Fin.ext ?_
  match a with
  | ⟨0, _⟩ => show win2_5.index t (0 : Fin 2) * 5000 + 1 * p.val = i.val; omega
  | ⟨1, _⟩ => show win2_5.index t (1 : Fin 2) * 64 + 1 * q.val = q.val; omega

/-- What the region leaves: the layer step of the five arrays it found. -/
abbrev whole2 (c : Dev nD) : S50000x64.Idx → EReal :=
  Cert.Spec.combine false (V c (Pipeline.arrRef spec2 0)) (V c (Pipeline.arrRef spec2 1)) (V c (Pipeline.arrRef spec2 2))
    (V c (Pipeline.arrRef spec2 3)) (V c (Pipeline.arrRef spec2 4))

/-- What point `t` writes back is block `t` of that array: the stored entry `(p, q)` is the step of the five blocks at row
    `p`, each block's row `p` is the array's row `5000 t + p`, and that is where the output's block puts the entry. -/
theorem flushed2_eq (c : Dev nD) (t : Fin cfg2.N) :
    (dat2 (F := Ideal) V c).flushed 5 t = ((cfg2.win 5).blk t).view.read (Elt Ideal) (whole2 V c) := by
  show (cfg2.win 5).cut (grid2.coords t) ((dat2 (F := Ideal) V c).after 5 t) = _
  rw [after2_5]
  unfold out2_5
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 (n0 := 5000) (n1 := 64) j⟩
  have hN : cfg2.N = 10 := N_2
  have ht : t.val < 10 := hN ▸ t.isLt
  have hp : p.val < 5000 := p.isLt
  have hi : 5000 * t.val + p.val < 50000 := by omega
  refine (k2_pay1_apply (iblk2 V c 0 t) (iblk2 V c 2 t) (iblk2 V c 1 t) (iblk2 V c 3 t) (iblk2 V c 4 t) p q).trans ?_
  refine Eq.trans ?_ (congrArg (whole2 V c) (spot2 t p q ⟨5000 * t.val + p.val, hi⟩ rfl)).symm
  show (stepAt _ _ _ _ _ p q) = (Cert.Spec.combineAt _ _ _ _ _ ⟨5000 * t.val + p.val, hi⟩ q)
  refine (stepAt_eq_combineAt _ _ _ _ _ _ _ _ _ _ ⟨5000 * t.val + p.val, hi⟩ p q
    (fun k => rows2_0 V c t p k _ rfl) (fun k => rows2_1 V c t p k _ rfl) (col2_2 V c t p _ rfl)
    (fun k => whole2_3 V c t k q) (whole2_4 V c t q))

/-- An index of the output array lies in point `t`'s block iff each coordinate lies in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v92).slice (win2_5.rect t)).set ↔ _
  rw [View.set_slice_whole, Rect.mem_set_unit]
  exact Iff.rfl

/-- Every row `r` of the output array is written back by point `r / 5000`. -/
theorem cover2 (i : S50000x64.Idx) : ∃ t : Fin cfg2.N, (cfg2.win 5).flush t = true ∧ i ∈ ((cfg2.win 5).blk t).view.set := by
  have h0 : (i 0).val < 50000 := (i 0).isLt
  have h1 : (i 1).val < 64 := (i 1).isLt
  have hN : cfg2.N = 10 := N_2
  refine ⟨⟨(i 0).val / 5000, by rw [hN]; omega⟩, flush2_5 _, ?_⟩
  rw [mem_blk2]
  obtain ⟨-, -, -, -, -, -, -, -, -, -, e0, e1⟩ := idx2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]
    show (i 0).val / 5000 * 5000 ≤ (i 0).val ∧ (i 0).val < (i 0).val / 5000 * 5000 + 5000
    omega
  | ⟨1, _⟩ =>
    show win2_5.index _ (1 : Fin 2) * 64 ≤ (i 1).val ∧ (i 1).val < win2_5.index _ (1 : Fin 2) * 64 + 64
    rw [e1]
    omega

/-- The output array of region 2 after the region: the third layer's step of the five arrays the region found, index by
    index — every point writes back its block of that one array, and the ten blocks cover the 50000 rows. -/
theorem layer2_final (c : Dev nD) :
    (Cert.KernelIdeal.Hand.dat2 (F := Ideal) V c).arrAt 5 cfg2.N
      = Cert.Spec.combine false (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 (whole2 V c) (fun t _ => flushed2_eq V c t) cover2

end Region2

end Cert.KernelIdeal.Val

end
-- ==== Proof.Val.PoolPay.lean ====
/-
  The pooling and classifier region's stored values, read entry by entry over the extended reals.

  On a block of 5000 nodes with label column `bt` and feature rows `h`, the body forms the one-hot block
  `hot[r, g] = 1` if node `r` has label `g`, else `0` (a comparison of the label column with the row of graph
  numbers, read as a number), and contracts it over the node axis: with the feature block for the sums, with a
  column of ones for the counts. Narrowing an operand is the identity here and a product into a zero accumulator is
  the plain sum over the contracted axis, so
      sums'[g, k] = sums[g, k] + ∑ r, hot[r, g] · h[r, k],      counts'[g] = counts[g] + ∑ r, hot[r, g],
  and the last point stores
      out[g, j] = (∑ k, (sums[g, k] / max counts[g] 1) · Wfc[k, j]) + bfc[0, j].
-/
import proofs.«413695_j61357902791131_1_alg».proof.Proof.Gen.KernelIdeal.Skeleton
import proofs.«413695_j61357902791131_1_alg».proof.Proof.Val.Spec
import Idealize.ShloMosaic.Lib.ValueLayout
import Idealize.ShloMosaic.Lib.IdealHost
import Idealize.ShloMosaic.PureOps.Ideal.Laws

noncomputable section

namespace Cert.KernelIdeal.Val

open Cert.KernelIdeal Cert.KernelIdeal.Gen
open Idealize.ShloMosaic Idealize.ShloMosaic.ValueIdx

/-! ## The one-hot block -/

/-- The label column spread over the 256 graphs reads, at node `r` and graph `g`, the node's label. -/
theorem labelSpread_apply (v : S5000x1.Idx → BitVec 32) (r : Fin 5000) (g : Fin 256) :
    broadcastTo S5000x256 v broadcasts_S5000x1_S5000x256 (ix2 r g) = v (ix2 r (0 : Fin 1)) := by
  refine broadcastTo_apply v broadcasts_S5000x1_S5000x256 (ix2 r g) (ix2 r (0 : Fin 1)) fun ax => ?_
  match ax with
  | ⟨0, _⟩ => exact (if_neg (show ¬((5000 : ℕ) = 1) by decide)).symm
  | ⟨1, _⟩ => rfl

/-- The row of graph numbers spread over the 5000 nodes reads, at node `r` and graph `g`, the number `g`. -/
theorem graphSpread_apply (r : Fin 5000) (g : Fin 256) :
    broadcastTo S5000x256 (iota .tc S1x256 32 [1] iota_S1x256_d1_w32) broadcasts_S1x256_S5000x256 (ix2 r g) = BitVec.ofNat 32 g.val := by
  refine (broadcastTo_apply _ broadcasts_S1x256_S5000x256 (ix2 r g) (ix2 (0 : Fin 1) g) fun ax => ?_).trans ?_
  · match ax with
    | ⟨0, _⟩ => rfl
    | ⟨1, _⟩ => exact (if_neg (show ¬((256 : ℕ) = 1) by decide)).symm
  · rw [iota_single_apply]

/-- The comparison bit of two words, widened to a word and read as a number, is one where they agree and zero elsewhere. -/
theorem bit_toReal (a b : BitVec 32) :
    ((((IntOp.cmpi .eq a b).setWidth 32).toInt : ℝ) : EReal) = if a = b then 1 else 0 := by
  unfold IntOp.cmpi
  by_cases h : a = b
  · subst h; rw [if_pos rfl]; simp
  · rw [if_neg h]
    have : (a == b) = false := by simpa using h
    simp [this]

/-- The one-hot block at node `r` and graph `g`: the indicator that the node's label is `g`. -/
theorem onehot_apply (bt : Vec Ideal S5000x1 .i32) (r : Fin 5000) (g : Fin 256) :
    k3_pay3 (F := Ideal) bt (ix2 r g) = Cert.Spec.hot (bt (ix2 r (0 : Fin 1))) g := by
  unfold k3_pay3
  show ((((IntOp.cmpi .eq (broadcastTo S5000x256 (shapeCast S5000x1 bt shapeCasts_S5000x1_S5000x1) broadcasts_S5000x1_S5000x256 (ix2 r g))
      (broadcastTo S5000x256 (iota .tc S1x256 32 [1] iota_S1x256_d1_w32) broadcasts_S1x256_S5000x256 (ix2 r g))).setWidth 32).toInt : ℝ) : EReal) = _
  rw [labelSpread_apply, graphSpread_apply, shapeCast_self, bit_toReal]
  rfl

/-! ## The pooling product: the one-hot block, transposed, times the feature block

Both operands are contracted over their node axis, so the product at graph `g` and feature `k` sums, over the block's
nodes `r`, the one-hot entry `(r, g)` times the feature entry `(r, k)`. -/

theorem sumL_node (i : S256x64.Idx) (c : dot_S5000x256_S5000x64_S256x64_0_0_1_1_n_n.contr.Idx) :
    (dot_S5000x256_S5000x64_S256x64_0_0_1_1_n_n.lhsIdx i c 0).val = (c ⟨0, by decide⟩).val :=
  dot_S5000x256_S5000x64_S256x64_0_0_1_1_n_n.lhsIdx_val_of_single rfl i c
theorem sumL_graph (i : S256x64.Idx) (c : dot_S5000x256_S5000x64_S256x64_0_0_1_1_n_n.contr.Idx) :
    (dot_S5000x256_S5000x64_S256x64_0_0_1_1_n_n.lhsIdx i c 1).val = (i 0).val := by
  unfold DotDims.lhsIdx
  rw [dif_neg (show ¬(1 : Fin S5000x256.rank) ∈ dot_S5000x256_S5000x64_S256x64_0_0_1_1_n_n.lhsBatch by decide),
    dif_pos (show (1 : Fin S5000x256.rank) ∈ dot_S5000x256_S5000x64_S256x64_0_0_1_1_n_n.lhsNonContracting by decide)]
  rfl
theorem sumR_node (i : S256x64.Idx) (c : dot_S5000x256_S5000x64_S256x64_0_0_1_1_n_n.contr.Idx) :
    (dot_S5000x256_S5000x64_S256x64_0_0_1_1_n_n.rhsIdx i c 0).val = (c ⟨0, by decide⟩).val :=
  dot_S5000x256_S5000x64_S256x64_0_0_1_1_n_n.rhsIdx_val_of_single rfl i c
theorem sumR_feat (i : S256x64.Idx) (c : dot_S5000x256_S5000x64_S256x64_0_0_1_1_n_n.contr.Idx) :
    (dot_S5000x256_S5000x64_S256x64_0_0_1_1_n_n.rhsIdx i c 1).val = (i 1).val := by
  unfold DotDims.rhsIdx
  rw [dif_neg (show ¬(1 : Fin S5000x64.rank) ∈ dot_S5000x256_S5000x64_S256x64_0_0_1_1_n_n.rhsBatch by decide),
    dif_pos (show (1 : Fin S5000x64.rank) ∈ dot_S5000x256_S5000x64_S256x64_0_0_1_1_n_n.rhsNonContracting by decide)]
  rfl

/-- The pooling product into a zero accumulator, at graph `g` and feature `k`: the sum over the block's 5000 nodes. -/
theorem sumProduct_apply (L : FVec Ideal S5000x256 .bf16) (R : FVec Ideal S5000x64 .bf16) (g : Fin 256) (k : Fin 64) :
    matmul dot_S5000x256_S5000x64_S256x64_0_0_1_1_n_n none L R (constant S256x64 .f32 0x00000000#32) (ix2 g k)
      = ∑ r : Fin 5000, L (ix2 r g) * R (ix2 r k) := by
  show FloatOps.matmul dot_S5000x256_S5000x64_S256x64_0_0_1_1_n_n none L R (constant S256x64 .f32 0x00000000#32) (ix2 g k) = _
  rw [Ideal.matmul_constant_zero_apply,
    ← Equiv.sum_comp (ValueIdx.contrEquiv1 dot_S5000x256_S5000x64_S256x64_0_0_1_1_n_n 5000 rfl rfl).symm]
  refine Finset.sum_congr rfl fun r _ => ?_
  have hr := ValueIdx.contrEquiv1_symm_val dot_S5000x256_S5000x64_S256x64_0_0_1_1_n_n 5000 rfl rfl r
  have el : dot_S5000x256_S5000x64_S256x64_0_0_1_1_n_n.lhsIdx (ix2 g k)
      ((ValueIdx.contrEquiv1 dot_S5000x256_S5000x64_S256x64_0_0_1_1_n_n 5000 rfl rfl).symm r) = ix2 r g :=
    funext fun a => Fin.ext (by
      match a with
      | ⟨0, _⟩ => exact (sumL_node _ _).trans hr
      | ⟨1, _⟩ => exact sumL_graph _ _)
  have er : dot_S5000x256_S5000x64_S256x64_0_0_1_1_n_n.rhsIdx (ix2 g k)
      ((ValueIdx.contrEquiv1 dot_S5000x256_S5000x64_S256x64_0_0_1_1_n_n 5000 rfl rfl).symm r) = ix2 r k :=
    funext fun a => Fin.ext (by
      match a with
      | ⟨0, _⟩ => exact (sumR_node _ _).trans hr
      | ⟨1, _⟩ => exact sumR_feat _ _)
  rw [el, er]

theorem cntL_node (i : S256x1.Idx) (c : dot_S5000x256_S5000x1_S256x1_0_0_1_1_n_n.contr.Idx) :
    (dot_S5000x256_S5000x1_S256x1_0_0_1_1_n_n.lhsIdx i c 0).val = (c ⟨0, by decide⟩).val :=
  dot_S5000x256_S5000x1_S256x1_0_0_1_1_n_n.lhsIdx_val_of_single rfl i c
theorem cntL_graph (i : S256x1.Idx) (c : dot_S5000x256_S5000x1_S256x1_0_0_1_1_n_n.contr.Idx) :
    (dot_S5000x256_S5000x1_S256x1_0_0_1_1_n_n.lhsIdx i c 1).val = (i 0).val := by
  unfold DotDims.lhsIdx
  rw [dif_neg (show ¬(1 : Fin S5000x256.rank) ∈ dot_S5000x256_S5000x1_S256x1_0_0_1_1_n_n.lhsBatch by decide),
    dif_pos (show (1 : Fin S5000x256.rank) ∈ dot_S5000x256_S5000x1_S256x1_0_0_1_1_n_n.lhsNonContracting by decide)]
  rfl
theorem cntR_node (i : S256x1.Idx) (c : dot_S5000x256_S5000x1_S256x1_0_0_1_1_n_n.contr.Idx) :
    (dot_S5000x256_S5000x1_S256x1_0_0_1_1_n_n.rhsIdx i c 0).val = (c ⟨0, by decide⟩).val :=
  dot_S5000x256_S5000x1_S256x1_0_0_1_1_n_n.rhsIdx_val_of_single rfl i c
theorem cntR_col (i : S256x1.Idx) (c : dot_S5000x256_S5000x1_S256x1_0_0_1_1_n_n.contr.Idx) :
    (dot_S5000x256_S5000x1_S256x1_0_0_1_1_n_n.rhsIdx i c 1).val = (i 1).val := by
  unfold DotDims.rhsIdx
  rw [dif_neg (show ¬(1 : Fin S5000x1.rank) ∈ dot_S5000x256_S5000x1_S256x1_0_0_1_1_n_n.rhsBatch by decide),
    dif_pos (show (1 : Fin S5000x1.rank) ∈ dot_S5000x256_S5000x1_S256x1_0_0_1_1_n_n.rhsNonContracting by decide)]
  rfl

/-- The counting product (the one-hot block, transposed, times a column) into a zero accumulator, at graph `g`. -/
theorem cntProduct_apply (L : FVec Ideal S5000x256 .bf16) (R : FVec Ideal S5000x1 .bf16) (g : Fin 256) :
    matmul dot_S5000x256_S5000x1_S256x1_0_0_1_1_n_n none L R (constant S256x1 .f32 0x00000000#32) (ix2 g (0 : Fin 1))
      = ∑ r : Fin 5000, L (ix2 r g) * R (ix2 r (0 : Fin 1)) := by
  show FloatOps.matmul dot_S5000x256_S5000x1_S256x1_0_0_1_1_n_n none L R (constant S256x1 .f32 0x00000000#32) (ix2 g (0 : Fin 1)) = _
  rw [Ideal.matmul_constant_zero_apply,
    ← Equiv.sum_comp (ValueIdx.contrEquiv1 dot_S5000x256_S5000x1_S256x1_0_0_1_1_n_n 5000 rfl rfl).symm]
  refine Finset.sum_congr rfl fun r _ => ?_
  have hr := ValueIdx.contrEquiv1_symm_val dot_S5000x256_S5000x1_S256x1_0_0_1_1_n_n 5000 rfl rfl r
  have el : dot_S5000x256_S5000x1_S256x1_0_0_1_1_n_n.lhsIdx (ix2 g (0 : Fin 1))
      ((ValueIdx.contrEquiv1 dot_S5000x256_S5000x1_S256x1_0_0_1_1_n_n 5000 rfl rfl).symm r) = ix2 r g :=
    funext fun a => Fin.ext (by
      match a with
      | ⟨0, _⟩ => exact (cntL_node _ _).trans hr
      | ⟨1, _⟩ => exact cntL_graph _ _)
  have er : dot_S5000x256_S5000x1_S256x1_0_0_1_1_n_n.rhsIdx (ix2 g (0 : Fin 1))
      ((ValueIdx.contrEquiv1 dot_S5000x256_S5000x1_S256x1_0_0_1_1_n_n 5000 rfl rfl).symm r) = ix2 r (0 : Fin 1) :=
    funext fun a => Fin.ext (by
      match a with
      | ⟨0, _⟩ => exact (cntR_node _ _).trans hr
      | ⟨1, _⟩ => exact cntR_col _ _)
  rw [el, er]

/-! ## The classifier product -/

theorem fcL_graph (i : S256x10.Idx) (c : dot_S256x64_S64x10_S256x10_1_0_0_1_n_n.contr.Idx) :
    (dot_S256x64_S64x10_S256x10_1_0_0_1_n_n.lhsIdx i c 0).val = (i 0).val := by
  unfold DotDims.lhsIdx
  rw [dif_neg (show ¬(0 : Fin S256x64.rank) ∈ dot_S256x64_S64x10_S256x10_1_0_0_1_n_n.lhsBatch by decide),
    dif_pos (show (0 : Fin S256x64.rank) ∈ dot_S256x64_S64x10_S256x10_1_0_0_1_n_n.lhsNonContracting by decide)]
  rfl
theorem fcL_feat (i : S256x10.Idx) (c : dot_S256x64_S64x10_S256x10_1_0_0_1_n_n.contr.Idx) :
    (dot_S256x64_S64x10_S256x10_1_0_0_1_n_n.lhsIdx i c 1).val = (c ⟨0, by decide⟩).val :=
  dot_S256x64_S64x10_S256x10_1_0_0_1_n_n.lhsIdx_val_of_single rfl i c
theorem fcR_feat (i : S256x10.Idx) (c : dot_S256x64_S64x10_S256x10_1_0_0_1_n_n.contr.Idx) :
    (dot_S256x64_S64x10_S256x10_1_0_0_1_n_n.rhsIdx i c 0).val = (c ⟨0, by decide⟩).val :=
  dot_S256x64_S64x10_S256x10_1_0_0_1_n_n.rhsIdx_val_of_single rfl i c
theorem fcR_class (i : S256x10.Idx) (c : dot_S256x64_S64x10_S256x10_1_0_0_1_n_n.contr.Idx) :
    (dot_S256x64_S64x10_S256x10_1_0_0_1_n_n.rhsIdx i c 1).val = (i 1).val := by
  unfold DotDims.rhsIdx
  rw [dif_neg (show ¬(1 : Fin S64x10.rank) ∈ dot_S256x64_S64x10_S256x10_1_0_0_1_n_n.rhsBatch by decide),
    dif_pos (show (1 : Fin S64x10.rank) ∈ dot_S256x64_S64x10_S256x10_1_0_0_1_n_n.rhsNonContracting by decide)]
  rfl

/-- The classifier product into a zero accumulator, at graph `g` and class `j`: the sum over the 64 features. -/
theorem fcProduct_apply (L : FVec Ideal S256x64 .bf16) (R : FVec Ideal S64x10 .bf16) (g : Fin 256) (j : Fin 10) :
    matmul dot_S256x64_S64x10_S256x10_1_0_0_1_n_n none L R (constant S256x10 .f32 0x00000000#32) (ix2 g j)
      = ∑ k : Fin 64, L (ix2 g k) * R (ix2 k j) := by
  show FloatOps.matmul dot_S256x64_S64x10_S256x10_1_0_0_1_n_n none L R (constant S256x10 .f32 0x00000000#32) (ix2 g j) = _
  rw [Ideal.matmul_constant_zero_apply,
    ← Equiv.sum_comp (ValueIdx.contrEquiv1 dot_S256x64_S64x10_S256x10_1_0_0_1_n_n 64 rfl rfl).symm]
  refine Finset.sum_congr rfl fun k _ => ?_
  have hk := ValueIdx.contrEquiv1_symm_val dot_S256x64_S64x10_S256x10_1_0_0_1_n_n 64 rfl rfl k
  have el : dot_S256x64_S64x10_S256x10_1_0_0_1_n_n.lhsIdx (ix2 g j)
      ((ValueIdx.contrEquiv1 dot_S256x64_S64x10_S256x10_1_0_0_1_n_n 64 rfl rfl).symm k) = ix2 g k :=
    funext fun a => Fin.ext (by
      match a with
      | ⟨0, _⟩ => exact fcL_graph _ _
      | ⟨1, _⟩ => exact (fcL_feat _ _).trans hk)
  have er : dot_S256x64_S64x10_S256x10_1_0_0_1_n_n.rhsIdx (ix2 g j)
      ((ValueIdx.contrEquiv1 dot_S256x64_S64x10_S256x10_1_0_0_1_n_n 64 rfl rfl).symm k) = ix2 k j :=
    funext fun a => Fin.ext (by
      match a with
      | ⟨0, _⟩ => exact (fcR_feat _ _).trans hk
      | ⟨1, _⟩ => exact fcR_class _ _)
  rw [el, er]

/-- The clamped count column spread over the 64 features reads, at graph `g` and feature `k`, the column's entry of `g`. -/
theorem cntSpread_apply (v : S256x1.Idx → EReal) (g : Fin 256) (k : Fin 64) :
    broadcastTo S256x64 v broadcasts_S256x1_S256x64 (ix2 g k) = v (ix2 g (0 : Fin 1)) := by
  refine broadcastTo_apply v broadcasts_S256x1_S256x64 (ix2 g k) (ix2 g (0 : Fin 1)) fun ax => ?_
  match ax with
  | ⟨0, _⟩ => exact (if_neg (show ¬((256 : ℕ) = 1) by decide)).symm
  | ⟨1, _⟩ => rfl

/-- The classifier's bias row spread over the 256 graphs reads, at graph `g` and class `j`, the row's entry of `j`. -/
theorem biasSpread_apply (v : S1x10.Idx → EReal) (g : Fin 256) (j : Fin 10) :
    broadcastTo S256x10 v broadcasts_S1x10_S256x10 (ix2 g j) = v (ix2 (0 : Fin 1) j) := by
  refine broadcastTo_apply v broadcasts_S1x10_S256x10 (ix2 g j) (ix2 (0 : Fin 1) j) fun ax => ?_
  match ax with
  | ⟨0, _⟩ => rfl
  | ⟨1, _⟩ => exact (if_neg (show ¬((10 : ℕ) = 1) by decide)).symm

/-! ## The four stored payloads at an index -/

/-- The zeroed sums. -/
theorem sumZero_apply (y : S256x64.Idx) : k3_pay1 (F := Ideal) y = 0 := by
  unfold k3_pay1
  show shapeCast S256x64 (broadcast S256x64 (Ideal.ofBits .f32 0x00000000#32)) shapeCasts_S256x64_S256x64 y = 0
  rw [shapeCast_self, broadcast_apply, Ideal.ofBits_zero_f32]

/-- The zeroed counts. -/
theorem cntZero_apply (y : S256x1.Idx) : k3_pay2 (F := Ideal) y = 0 := by
  unfold k3_pay2
  show shapeCast S256x1 (broadcast S256x1 (Ideal.ofBits .f32 0x00000000#32)) shapeCasts_S256x1_S256x1 y = 0
  rw [shapeCast_self, broadcast_apply, Ideal.ofBits_zero_f32]

/-- The updated sums at graph `g` and feature `k`: the old entry plus the block's rows of label `g`, summed. -/
theorem sumPay_apply (bt : Vec Ideal S5000x1 .i32) (h : Vec Ideal S5000x64 .f32) (s : Vec Ideal S256x64 .f32) (g : Fin 256) (k : Fin 64) :
    k3_pay4 (F := Ideal) bt h s (ix2 g k)
      = s (ix2 g k) + ∑ r : Fin 5000, Cert.Spec.hot (bt (ix2 r (0 : Fin 1))) g * h (ix2 r k) := by
  unfold k3_pay4
  show shapeCast S256x64 (addf s (matmul dot_S5000x256_S5000x64_S256x64_0_0_1_1_n_n none (k3_pay3 bt)
      (truncf .bf16 (shapeCast S5000x64 h shapeCasts_S5000x64_S5000x64) bitsLt_bf16_f32) (constant S256x64 .f32 0x00000000#32)))
      shapeCasts_S256x64_S256x64 (ix2 g k) = _
  rw [shapeCast_self, addf_apply, sumProduct_apply]
  refine congrArg (s (ix2 g k) + ·) (Finset.sum_congr rfl fun r _ => ?_)
  rw [onehot_apply, truncf_apply, shapeCast_self]

/-- The updated counts at graph `g`: the old entry plus the number of the block's nodes of label `g`. -/
theorem cntPay_apply (bt : Vec Ideal S5000x1 .i32) (cn : Vec Ideal S256x1 .f32) (g : Fin 256) :
    k3_pay5 (F := Ideal) bt cn (ix2 g (0 : Fin 1))
      = cn (ix2 g (0 : Fin 1)) + ∑ r : Fin 5000, Cert.Spec.hot (bt (ix2 r (0 : Fin 1))) g := by
  unfold k3_pay5
  show shapeCast S256x1 (addf cn (matmul dot_S5000x256_S5000x1_S256x1_0_0_1_1_n_n none (k3_pay3 bt)
      (broadcast S5000x1 (Ideal.ofBits .bf16 0x3F80#16)) (constant S256x1 .f32 0x00000000#32)))
      shapeCasts_S256x1_S256x1 (ix2 g (0 : Fin 1)) = _
  rw [shapeCast_self, addf_apply, cntProduct_apply]
  refine congrArg (cn (ix2 g (0 : Fin 1)) + ·) (Finset.sum_congr rfl fun r _ => ?_)
  rw [onehot_apply, broadcast_apply, Ideal.ofBits_one_bf16, mul_one]

/-- The stored result at graph `g` and class `j`: the mean row (sums over counts clamped below by one) through the classifier. -/
theorem outPay_apply (s : Vec Ideal S256x64 .f32) (cn : Vec Ideal S256x1 .f32) (wfc : Vec Ideal S64x10 .f32) (bfc : Vec Ideal S1x10 .f32)
    (g : Fin 256) (j : Fin 10) :
    k3_pay6 (F := Ideal) s cn wfc bfc (ix2 g j)
      = (∑ k : Fin 64, Ideal.div (s (ix2 g k)) (max (cn (ix2 g (0 : Fin 1))) 1) * wfc (ix2 k j)) + bfc (ix2 (0 : Fin 1) j) := by
  unfold k3_pay6
  show addf (matmul dot_S256x64_S64x10_S256x10_1_0_0_1_n_n none
      (truncf .bf16 (divf s (broadcastTo S256x64 (maximumf cn (broadcast S256x1 (Ideal.ofBits .f32 0x3F800000#32))) broadcasts_S256x1_S256x64)) bitsLt_bf16_f32)
      (truncf .bf16 wfc bitsLt_bf16_f32) (constant S256x10 .f32 0x00000000#32))
      (broadcastTo S256x10 (shapeCast S1x10 bfc shapeCasts_S1x10_S1x10) broadcasts_S1x10_S256x10) (ix2 g j) = _
  rw [addf_apply, fcProduct_apply, biasSpread_apply, shapeCast_self]
  refine congrArg (· + bfc (ix2 (0 : Fin 1) j)) (Finset.sum_congr rfl fun k _ => ?_)
  rw [truncf_apply, truncf_apply, divf_apply, cntSpread_apply, maximumf_apply, broadcast_apply, Ideal.ofBits_one_f32]

end Cert.KernelIdeal.Val
end
-- ==== Proof.Val.PoolAcc.lean ====
/-
  The pooling region's two accumulators after each grid point, over the extended reals.

  The region runs over ten blocks of 5000 nodes. Point `t` reads rows `5000 t … 5000 t + 4999` of the node features
  `H` and of the label column `B`, and adds to the running per-graph sums and counts its block's share:
      sums[g, k] += ∑ r, hot (B[5000 t + r]) g · H[5000 t + r, k],      counts[g] += ∑ r, hot (B[5000 t + r]) g,
  the first point starting from zero. By induction on the point the accumulators after point `n` are the shares of
  blocks `0 … n` summed; the ten blocks are all the 50000 nodes (a node is `5000 t + r` for exactly one pair), so after
  the last point they are the pooled sums and the node counts of the specification.
-/
import proofs.«413695_j61357902791131_1_alg».proof.Proof.KI.Pool
import proofs.«413695_j61357902791131_1_alg».proof.Proof.Val.Spec
import proofs.«413695_j61357902791131_1_alg».proof.Proof.Val.PoolPay
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## One point's update of the accumulators, entry by entry

Each of the body's stores is through its buffer's whole rectangle and each load reads a whole buffer, so what a point
leaves in an accumulator is the stored payload of the loaded blocks themselves. -/

section AnyInstance
variable {F : FTy → Type} [FloatOps F]

theorem sumInit_eq : Hand.sumInit (F := F) = k3_pay1 := by
  unfold Hand.sumInit; exact View.canon_unit_zero hz2 _ _
theorem cntInit_eq : Hand.cntInit (F := F) = k3_pay2 := by
  unfold Hand.cntInit; exact View.canon_unit_zero hz2 _ _
theorem sumStep_eq (bt : Vec F S5000x1 .i32) (h : Vec F S5000x64 .f32) (s : Vec F S256x64 .f32) :
    Hand.sumStep bt h s = k3_pay4 bt h s := by
  unfold Hand.sumStep
  rw [View.canon_unit_zero hz2]
  simp only [View.ld_unit_zero (S := S5000x1) hz2, View.ld_unit_zero (S := S5000x64) hz2, View.ld_unit_zero (S := S256x64) hz2]
theorem cntStep_eq (bt : Vec F S5000x1 .i32) (cn : Vec F S256x1 .f32) : Hand.cntStep bt cn = k3_pay5 bt cn := by
  unfold Hand.cntStep
  rw [View.canon_unit_zero hz2]
  simp only [View.ld_unit_zero (S := S5000x1) hz2, View.ld_unit_zero (S := S256x1) hz2]
theorem outFinal_eq (s : Vec F S256x64 .f32) (cn : Vec F S256x1 .f32) (wfc : Vec F S64x10 .f32) (bfc : Vec F S1x10 .f32) :
    Hand.outFinal s cn wfc bfc = k3_pay6 s cn wfc bfc := by
  unfold Hand.outFinal
  rw [View.canon_unit_zero hz2]
  simp only [View.ld_unit_zero (S := S256x64) hz2, View.ld_unit_zero (S := S256x1) hz2, View.ld_unit_zero (S := S64x10) hz2,
    View.ld_unit_zero (S := S1x10) hz2]

end AnyInstance

theorem sumInit_apply (y : S256x64.Idx) : Hand.sumInit (F := Ideal) y = 0 :=
  (congrFun sumInit_eq y).trans (sumZero_apply y)
theorem cntInit_apply (y : S256x1.Idx) : Hand.cntInit (F := Ideal) y = 0 :=
  (congrFun cntInit_eq y).trans (cntZero_apply y)
theorem sumStep_apply (bt : Vec Ideal S5000x1 .i32) (h : Vec Ideal S5000x64 .f32) (s : Vec Ideal S256x64 .f32) (g : Fin 256) (k : Fin 64) :
    Hand.sumStep bt h s (ix2 g k) = s (ix2 g k) + ∑ r : Fin 5000, Cert.Spec.hot (bt (ix2 r (0 : Fin 1))) g * h (ix2 r k) :=
  (congrFun (sumStep_eq bt h s) (ix2 g k)).trans (sumPay_apply bt h s g k)
theorem cntStep_apply (bt : Vec Ideal S5000x1 .i32) (cn : Vec Ideal S256x1 .f32) (g : Fin 256) :
    Hand.cntStep bt cn (ix2 g (0 : Fin 1)) = cn (ix2 g (0 : Fin 1)) + ∑ r : Fin 5000, Cert.Spec.hot (bt (ix2 r (0 : Fin 1))) g :=
  (congrFun (cntStep_eq bt cn) (ix2 g (0 : Fin 1))).trans (cntPay_apply bt cn g)
theorem outFinal_apply (s : Vec Ideal S256x64 .f32) (cn : Vec Ideal S256x1 .f32) (wfc : Vec Ideal S64x10 .f32) (bfc : Vec Ideal S1x10 .f32)
    (g : Fin 256) (j : Fin 10) :
    Hand.outFinal s cn wfc bfc (ix2 g j)
      = (∑ k : Fin 64, Ideal.div (s (ix2 g k)) (max (cn (ix2 g (0 : Fin 1))) 1) * wfc (ix2 k j)) + bfc (ix2 (0 : Fin 1) j) :=
  (congrFun (outFinal_eq s cn wfc bfc) (ix2 g j)).trans (outPay_apply s cn wfc bfc g j)

/-! ## The blocks of the node arrays

Point `t` reads rows `5000 t` to `5000 t + 4999` of the feature array and of the label column; the classifier's
weights and bias are one block, the whole array, at every point. -/

variable (V : (c : Dev nD) → (b : Ref sig .tc) → Buf (Elt Ideal) ((c : Thread nD τ).loc b))

/-- The node features as the region finds them. -/
abbrev featArr (c : Dev nD) : Vec Ideal S50000x64 .f32 := V c (Pipeline.arrRef spec3 0)
/-- The node labels as the region finds them. -/
abbrev labArr (c : Dev nD) : Vec Ideal S50000x1 .i32 := V c (Pipeline.arrRef spec3 1)
/-- The classifier's weights as the region finds them. -/
abbrev wfcArr (c : Dev nD) : Vec Ideal S64x10 .f32 := V c (Pipeline.arrRef spec3 2)
/-- The classifier's bias row as the region finds it. -/
abbrev bfcArr (c : Dev nD) : Vec Ideal S1x10 .f32 := V c (Pipeline.arrRef spec3 3)
/-- The feature block of point `t`. -/
abbrev featBlk (c : Dev nD) (t : Fin cfg3.N) : Vec Ideal S5000x64 .f32 := Hand.iblk3 V c 0 t
/-- The label block of point `t`. -/
abbrev labBlk (c : Dev nD) (t : Fin cfg3.N) : Vec Ideal S5000x1 .i32 := Hand.iblk3 V c 1 t
/-- The weights' block at point `t`. -/
abbrev wfcBlk (c : Dev nD) (t : Fin cfg3.N) : Vec Ideal S64x10 .f32 := Hand.iblk3 V c 2 t
/-- The bias row's block at point `t`. -/
abbrev bfcBlk (c : Dev nD) (t : Fin cfg3.N) : Vec Ideal S1x10 .f32 := Hand.iblk3 V c 3 t

/-- The printed index maps over the grid: the node windows' block index is the point, the others' is zero. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

theorem featBlk_apply (c : Dev nD) (t : Fin cfg3.N) (r : Fin 5000) (k : Fin 64) (n : Fin 50000) (hn : n.val = 5000 * t.val + r.val) :
    featBlk V c t (ix2 r k) = featArr V c (ix2 n k) := by
  show V c (Pipeline.arrRef spec3 0) (((cfg3.win 0).blk t).view.emb (ix2 r k)) = V c (Pipeline.arrRef spec3 0) (ix2 n k)
  refine congrArg _ (funext fun a => Fin.ext ?_)
  obtain ⟨e0, e1, -⟩ := idx3 t
  match a with
  | ⟨0, _⟩ => show win3_0.index t (0 : Fin 2) * 5000 + 1 * r.val = n.val; omega
  | ⟨1, _⟩ => show win3_0.index t (1 : Fin 2) * 64 + 1 * k.val = k.val; omega

theorem labBlk_apply (c : Dev nD) (t : Fin cfg3.N) (r : Fin 5000) (n : Fin 50000) (hn : n.val = 5000 * t.val + r.val) :
    labBlk V c t (ix2 r (0 : Fin 1)) = labArr V c (ix2 n (0 : Fin 1)) := by
  show V c (Pipeline.arrRef spec3 1) (((cfg3.win 1).blk t).view.emb (ix2 r (0 : Fin 1))) = V c (Pipeline.arrRef spec3 1) (ix2 n (0 : Fin 1))
  refine congrArg _ (funext fun a => Fin.ext ?_)
  obtain ⟨-, -, e0, e1, -⟩ := idx3 t
  match a with
  | ⟨0, _⟩ => show win3_1.index t (0 : Fin 2) * 5000 + 1 * r.val = n.val; omega
  | ⟨1, _⟩ => show win3_1.index t (1 : Fin 2) * 1 + 1 * 0 = 0; omega

theorem wfcBlk_eq (c : Dev nD) (t : Fin cfg3.N) : wfcBlk V c t = wfcArr V c := by
  funext y
  show V c (Pipeline.arrRef spec3 2) (((cfg3.win 2).blk t).view.emb y) = V c (Pipeline.arrRef spec3 2) y
  refine congrArg _ (funext fun a => Fin.ext ?_)
  obtain ⟨-, -, -, -, e0, e1, -⟩ := idx3 t
  match a with
  | ⟨0, _⟩ => show win3_2.index t (0 : Fin 2) * 64 + 1 * (y 0).val = (y 0).val; omega
  | ⟨1, _⟩ => show win3_2.index t (1 : Fin 2) * 10 + 1 * (y 1).val = (y 1).val; omega

theorem bfcBlk_eq (c : Dev nD) (t : Fin cfg3.N) : bfcBlk V c t = bfcArr V c := by
  funext y
  show V c (Pipeline.arrRef spec3 3) (((cfg3.win 3).blk t).view.emb y) = V c (Pipeline.arrRef spec3 3) y
  refine congrArg _ (funext fun a => Fin.ext ?_)
  obtain ⟨-, -, -, -, -, -, e0, e1⟩ := idx3 t
  match a with
  | ⟨0, _⟩ => show win3_3.index t (0 : Fin 2) * 1 + 1 * (y 0).val = (y 0).val; omega
  | ⟨1, _⟩ => show win3_3.index t (1 : Fin 2) * 10 + 1 * (y 1).val = (y 1).val; omega

/-! ## The accumulators after each point

After point `n` the sums hold, per graph and feature, the sum over the nodes of blocks `0` to `n` of the rows of that
graph; the counts the number of those nodes. By induction on the point; after the last point the ten blocks are all
the 50000 nodes. -/

/-- Node `r` of block `t`. -/
abbrev node (t : Fin 10) (r : Fin 5000) : Fin 50000 := ⟨5000 * t.val + r.val, by have := t.isLt; have := r.isLt; omega⟩

/-- A sum over the 50000 nodes is the sum, over the ten blocks, of the sums over each block's 5000 nodes. -/
theorem sum_nodes {M : Type} [AddCommMonoid M] (f : Fin 50000 → M) :
    ∑ n : Fin 50000, f n = ∑ t : Fin 10, ∑ r : Fin 5000, f (node t r) := by
  rw [← Equiv.sum_comp (finProdFinEquiv (m := 10) (n := 5000)) f, Fintype.sum_prod_type]
  refine Finset.sum_congr rfl fun t _ => Finset.sum_congr rfl fun r _ => congrArg f (Fin.ext ?_)
  show r.val + 5000 * t.val = 5000 * t.val + r.val
  omega

/-- Block `t`'s share of the pooled sum of graph `g` at feature `k` (nothing past the tenth block). -/
def sumBlk (c : Dev nD) (g : Fin 256) (k : Fin 64) (t : ℕ) : EReal :=
  if h : t < 10 then ∑ r : Fin 5000, Cert.Spec.hot (labArr V c (ix2 (node ⟨t, h⟩ r) (0 : Fin 1))) g * featArr V c (ix2 (node ⟨t, h⟩ r) k) else 0
/-- Block `t`'s share of the node count of graph `g`. -/
def cntBlk (c : Dev nD) (g : Fin 256) (t : ℕ) : EReal :=
  if h : t < 10 then ∑ r : Fin 5000, Cert.Spec.hot (labArr V c (ix2 (node ⟨t, h⟩ r) (0 : Fin 1))) g else 0

theorem lt_ten {n : ℕ} (hn : n < cfg3.N) : n < 10 := by rw [show cfg3.N = 10 from N_3] at hn; exact hn

/-- One point's update of the sums adds its block's share. -/
theorem step_sum (c : Dev nD) (n : ℕ) (hn : n < cfg3.N) (s : Vec Ideal S256x64 .f32) (g : Fin 256) (k : Fin 64) :
    Hand.sumStep (labBlk V c ⟨n, hn⟩) (featBlk V c ⟨n, hn⟩) s (ix2 g k) = s (ix2 g k) + sumBlk V c g k n := by
  refine (sumStep_apply (labBlk V c ⟨n, hn⟩) (featBlk V c ⟨n, hn⟩) s g k).trans ?_
  unfold sumBlk
  rw [dif_pos (lt_ten hn)]
  refine congrArg (s (ix2 g k) + ·) (Finset.sum_congr rfl fun r _ => ?_)
  rw [labBlk_apply V c ⟨n, hn⟩ r (node ⟨n, lt_ten hn⟩ r) rfl, featBlk_apply V c ⟨n, hn⟩ r k (node ⟨n, lt_ten hn⟩ r) rfl]

/-- One point's update of the counts adds its block's share. -/
theorem step_cnt (c : Dev nD) (n : ℕ) (hn : n < cfg3.N) (cn : Vec Ideal S256x1 .f32) (g : Fin 256) :
    Hand.cntStep (labBlk V c ⟨n, hn⟩) cn (ix2 g (0 : Fin 1)) = cn (ix2 g (0 : Fin 1)) + cntBlk V c g n := by
  refine (cntStep_apply (labBlk V c ⟨n, hn⟩) cn g).trans ?_
  unfold cntBlk
  rw [dif_pos (lt_ten hn)]
  refine congrArg (cn (ix2 g (0 : Fin 1)) + ·) (Finset.sum_congr rfl fun r _ => ?_)
  rw [labBlk_apply V c ⟨n, hn⟩ r (node ⟨n, lt_ten hn⟩ r) rfl]

/-- The accumulators at the first point: one update of the zeroed ones. -/
theorem acc3_zero (c : Dev nD) (hn : 0 < cfg3.N) :
    Hand.acc3 V c 0 hn = (Hand.sumStep (labBlk V c ⟨0, hn⟩) (featBlk V c ⟨0, hn⟩) Hand.sumInit,
      Hand.cntStep (labBlk V c ⟨0, hn⟩) Hand.cntInit) := rfl
/-- The accumulators at a later point: one update of what the point before left. -/
theorem acc3_succ (c : Dev nD) (n : ℕ) (hn : n + 1 < cfg3.N) :
    Hand.acc3 V c (n + 1) hn = (Hand.sumStep (labBlk V c ⟨n + 1, hn⟩) (featBlk V c ⟨n + 1, hn⟩) (Hand.acc3 V c n (Nat.lt_of_succ_lt hn)).1,
      Hand.cntStep (labBlk V c ⟨n + 1, hn⟩) (Hand.acc3 V c n (Nat.lt_of_succ_lt hn)).2) := rfl

/-- The sums after point `n`: the shares of blocks `0` to `n`, summed. -/
theorem acc_sum_eq (c : Dev nD) (g : Fin 256) (k : Fin 64) : ∀ (n : ℕ) (hn : n < cfg3.N),
    (Hand.acc3 V c n hn).1 (ix2 g k) = ∑ t ∈ Finset.range (n + 1), sumBlk V c g k t := by
  intro n
  induction n with
  | zero =>
    intro hn
    rw [acc3_zero V c hn]
    dsimp only
    rw [step_sum V c 0 hn Hand.sumInit g k, sumInit_apply, zero_add]
    exact (Finset.sum_range_one _).symm
  | succ n ih =>
    intro hn
    rw [acc3_succ V c n hn]
    dsimp only
    rw [step_sum V c (n + 1) hn (Hand.acc3 V c n (Nat.lt_of_succ_lt hn)).1 g k, ih (Nat.lt_of_succ_lt hn)]
    exact (Finset.sum_range_succ _ (n + 1)).symm

/-- The counts after point `n`: the shares of blocks `0` to `n`, summed. -/
theorem acc_cnt_eq (c : Dev nD) (g : Fin 256) : ∀ (n : ℕ) (hn : n < cfg3.N),
    (Hand.acc3 V c n hn).2 (ix2 g (0 : Fin 1)) = ∑ t ∈ Finset.range (n + 1), cntBlk V c g t := by
  intro n
  induction n with
  | zero =>
    intro hn
    rw [acc3_zero V c hn]
    dsimp only
    rw [step_cnt V c 0 hn Hand.cntInit g, cntInit_apply, zero_add]
    exact (Finset.sum_range_one _).symm
  | succ n ih =>
    intro hn
    rw [acc3_succ V c n hn]
    dsimp only
    rw [step_cnt V c (n + 1) hn (Hand.acc3 V c n (Nat.lt_of_succ_lt hn)).2 g, ih (Nat.lt_of_succ_lt hn)]
    exact (Finset.sum_range_succ _ (n + 1)).symm

/-- After the last point the sums are the pooled sums over all the nodes. -/
theorem acc_last_sum (c : Dev nD) (g : Fin 256) (k : Fin 64) :
    (Hand.acc3 V c 9 Hand.nine_lt).1 (ix2 g k) = Cert.Spec.poolSum (featArr V c) (labArr V c) g k := by
  refine (acc_sum_eq V c g k 9 Hand.nine_lt).trans ?_
  unfold Cert.Spec.poolSum
  refine Eq.trans ?_ (sum_nodes fun n => Cert.Spec.hot (labArr V c (ix2 n (0 : Fin 1))) g * featArr V c (ix2 n k)).symm
  show ∑ t ∈ Finset.range 10, sumBlk V c g k t = _
  rw [Finset.sum_range]
  refine Finset.sum_congr rfl fun t _ => ?_
  unfold sumBlk
  rw [dif_pos t.isLt]

/-- After the last point the counts are the node counts over all the nodes. -/
theorem acc_last_cnt (c : Dev nD) (g : Fin 256) :
    (Hand.acc3 V c 9 Hand.nine_lt).2 (ix2 g (0 : Fin 1)) = Cert.Spec.poolCnt (labArr V c) g := by
  refine (acc_cnt_eq V c g 9 Hand.nine_lt).trans ?_
  unfold Cert.Spec.poolCnt
  refine Eq.trans ?_ (sum_nodes fun n => Cert.Spec.hot (labArr V c (ix2 n (0 : Fin 1))) g).symm
  show ∑ t ∈ Finset.range 10, cntBlk V c g t = _
  rw [Finset.sum_range]
  refine Finset.sum_congr rfl fun t _ => ?_
  unfold cntBlk
  rw [dif_pos t.isLt]

end Cert.KernelIdeal.Val

end
-- ==== Proof.Val.PoolFinal.lean ====
/-
  The pooling region's result array after the run, over the extended reals.

  The result window's block never moves: it is the whole 256 x 10 array at every point, stored by the body at the
  last point only and written back once, after it. What is written is the classifier applied to the mean rows, the
  accumulators after the last point being the pooled sums and the node counts over all the nodes; so the array ends
  holding the specification's pooled read-out of the four arrays the region finds.
-/
import proofs.«413695_j61357902791131_1_alg».proof.Proof.Val.PoolAcc
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The pooled read-out of the arrays the region finds. -/
abbrev poolOf (c : Dev nD) : Buf (Elt Ideal) ((c : Thread nD τ).loc main_v95) :=
  Cert.Spec.pool (V c (Pipeline.arrRef spec3 0)) (V c (Pipeline.arrRef spec3 1)) (V c (Pipeline.arrRef spec3 2)) (V c (Pipeline.arrRef spec3 3))

/-- What the last point stores is the pooled read-out. -/
theorem stored_last (c : Dev nD) (t : Fin cfg3.N) :
    Hand.outFinal (Hand.acc3 V c 9 Hand.nine_lt).1 (Hand.acc3 V c 9 Hand.nine_lt).2 (wfcBlk V c t) (bfcBlk V c t) = poolOf V c := by
  funext y
  obtain ⟨g, j, rfl⟩ : ∃ (g : Fin 256) (j : Fin 10), y = ix2 g j := ⟨y 0, y 1, eq_ix2 y⟩
  refine (outFinal_apply (Hand.acc3 V c 9 Hand.nine_lt).1 (Hand.acc3 V c 9 Hand.nine_lt).2 (wfcBlk V c t) (bfcBlk V c t) g j).trans ?_
  rw [wfcBlk_eq V c t, bfcBlk_eq V c t, acc_last_cnt V c g]
  show _ = Cert.Spec.poolAt (featArr V c) (labArr V c) (wfcArr V c) (bfcArr V c) g j
  unfold Cert.Spec.poolAt
  refine congrArg (· + bfcArr V c (ix2 (0 : Fin 1) j)) (Finset.sum_congr rfl fun k _ => ?_)
  rw [acc_last_sum V c g k]

/-- The one write-back, at the last point, writes the pooled read-out: the result's one block is the whole array. -/
theorem flushed_eq (c : Dev nD) (t : Fin cfg3.N) (hf : (cfg3.win 4).flush t = true) :
    (Hand.dat3 V c).flushed 4 t = ((cfg3.win 4).blk t).view.read (Elt Ideal) (poolOf V c) := by
  have hN : cfg3.N = 10 := N_3
  have h9 : t.val = 9 := by have := (flush3_4 t).mp hf; have := t.isLt; omega
  obtain rfl : t = t3_9 := Fin.ext h9
  show (cfg3.win 4).cut (grid3.coords t3_9) ((Hand.dat3 V c).after 4 t3_9) = _
  rw [Hand.after3_4_last V c t3_9 rfl, stored_last V c t3_9]
  have hz' : (fun a => win3_4.index t3_9 a * main_v95.ty.shape.size a) = fun _ => 0 := funext fun a => by fin_cases a <;> decide
  exact (Memref.read_access_unit_zero (Elt Ideal) main_v95 hz' (fun a => by rw [congrFun hz' a]; simp) (poolOf V c)).symm

/-- The result array after the run is the pooled read-out of the arrays the region finds. -/
theorem pool_final (c : Dev nD) :
    (Hand.dat3 (F := Ideal) V c).arrAt 4 cfg3.N
      = Cert.Spec.pool (V c (Pipeline.arrRef spec3 0)) (V c (Pipeline.arrRef spec3 1)) (V c (Pipeline.arrRef spec3 2)) (V c (Pipeline.arrRef spec3 3)) :=
  (Hand.dat3 V c).arrAt_eq_of_cover 4 (poolOf V c) (flushed_eq V c) fun i =>
    ⟨t3_9, (flush3_4 t3_9).mpr rfl, by
      show i ∈ ((View.whole main_v95).slice (win3_4.rect t3_9)).set
      rw [View.set_slice_whole, Rect.mem_set_unit]
      intro a
      have h0 : (i 0 : Nat) < 256 := (i 0).isLt
      have h1 : (i 1 : Nat) < 10 := (i 1).isLt
      match a with
      | ⟨0, _⟩ => show win3_4.index t3_9 0 * win3_4.size 0 ≤ (i 0 : Nat) ∧ (i 0 : Nat) < win3_4.index t3_9 0 * win3_4.size 0 + win3_4.xsize (grid3.coords t3_9) 0
                  rw [show win3_4.index t3_9 0 * win3_4.size 0 = 0 from by decide +kernel, show win3_4.xsize (grid3.coords t3_9) 0 = 256 from by decide +kernel]; omega
      | ⟨1, _⟩ => show win3_4.index t3_9 1 * win3_4.size 1 ≤ (i 1 : Nat) ∧ (i 1 : Nat) < win3_4.index t3_9 1 * win3_4.size 1 + win3_4.xsize (grid3.coords t3_9) 1
                  rw [show win3_4.index t3_9 1 * win3_4.size 1 = 0 from by decide +kernel, show win3_4.xsize (grid3.coords t3_9) 1 = 10 from by decide +kernel]; omega⟩

end Cert.KernelIdeal.Val

end
-- ==== Proof.Val.KernelValue.lean ====
/-
  The kernel program's value: the result array as a term over the launched argument arrays.

  The program alternates four stretches of host operations with its four regions. A region's input arrays hold, when the
  region is entered, what the stretch before it wrote there — the weighted neighbour sum of the rows so far, the bias as a
  row, the labels as a column — or what an earlier stretch or region left and nothing since has touched: the self weights,
  the edge rows and edge weights, the previous layer's rows, the argument arrays. Reading each input array back through
  the stretches and regions to the launch contents, region 0 finds the first layer's five operands over the arguments and
  leaves the first layer's rows; region 1 finds the second layer's operands over those rows and leaves the second layer's
  rows; region 2 likewise the third; and region 3 finds the third layer's rows, the labels, the read-out's weight and its
  bias row, so that what its write-back leaves is the pooled read-out of the three layers.
-/
import proofs.«413695_j61357902791131_1_alg».proof.Proof.KI.Run
import proofs.«413695_j61357902791131_1_alg».proof.Proof.Val.KTerm
import proofs.«413695_j61357902791131_1_alg».proof.Proof.Val.HostRead
import proofs.«413695_j61357902791131_1_alg».proof.Proof.Val.LayerFinal
import proofs.«413695_j61357902791131_1_alg».proof.Proof.Val.PoolFinal

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Cert.KTerm (srcRow dstRow labels2)

attribute [local irreducible] StableHlo.after

variable (m : (ℓ : Loc nD τ sig) → Buf (Elt Ideal) ℓ) (ρ : Dev nD → PrngReg) (c : Dev nD)

/-! ## The argument arrays as launched -/

/-- The node rows. -/
abbrev aX : FVec Ideal S50000x64 .f32 := m ((c.tc : Thread nD τ).loc main_arg0)
/-- The edge list. -/
abbrev aEi : IVec S2x800000 32 := m ((c.tc : Thread nD τ).loc main_arg1)
/-- The node labels. -/
abbrev aBt : IVec S50000 32 := m ((c.tc : Thread nD τ).loc main_arg2)
/-- The three layers' weights and biases. -/
abbrev aW1 : FVec Ideal S64x64 .f32 := m ((c.tc : Thread nD τ).loc main_arg3)
abbrev aB1 : FVec Ideal S64 .f32 := m ((c.tc : Thread nD τ).loc main_arg4)
abbrev aW2 : FVec Ideal S64x64 .f32 := m ((c.tc : Thread nD τ).loc main_arg5)
abbrev aB2 : FVec Ideal S64 .f32 := m ((c.tc : Thread nD τ).loc main_arg6)
abbrev aW3 : FVec Ideal S64x64 .f32 := m ((c.tc : Thread nD τ).loc main_arg7)
abbrev aB3 : FVec Ideal S64 .f32 := m ((c.tc : Thread nD τ).loc main_arg8)
/-- The read-out's weight and bias. -/
abbrev aWfc : FVec Ideal S64x10 .f32 := m ((c.tc : Thread nD τ).loc main_arg9)
abbrev aBfc : FVec Ideal S10 .f32 := m ((c.tc : Thread nD τ).loc main_arg10)

/-- The node rows after the first layer, after the second and after the third. -/
abbrev hid1 : FVec Ideal S50000x64 .f32 := Cert.KTerm.layer true (aEi m c) (aX m c) (aW1 m c) (aB1 m c)
abbrev hid2 : FVec Ideal S50000x64 .f32 := Cert.KTerm.layer true (aEi m c) (hid1 m c) (aW2 m c) (aB2 m c)
abbrev hid3 : FVec Ideal S50000x64 .f32 := Cert.KTerm.layer false (aEi m c) (hid2 m c) (aW3 m c) (aB3 m c)

/-! ## Region 0 enters at the first stretch's results over the launch contents -/

theorem VE0_0 : VE0 m ρ c (Pipeline.arrRef spec0 0) = Cert.KTerm.agg (aEi m c) (aX m c) := read0_v50 (launchC m ρ c)
theorem VE0_1 : VE0 m ρ c (Pipeline.arrRef spec0 1) = aX m c := hostOps0_keeps (launchC m ρ c) main_arg0 (by decide)
theorem VE0_2 : VE0 m ρ c (Pipeline.arrRef spec0 2) = Cert.KTerm.selfScale (aEi m c) := read0_v32 (launchC m ρ c)
theorem VE0_3 : VE0 m ρ c (Pipeline.arrRef spec0 3) = aW1 m c := hostOps0_keeps (launchC m ρ c) main_arg3 (by decide)
theorem VE0_4 : VE0 m ρ c (Pipeline.arrRef spec0 4) = Cert.KTerm.bias2 (aB1 m c) := read0_v51 (launchC m ρ c)

/-- Region 0 leaves the first layer's rows in its output array, -/
theorem exit0_v52 : exit0 m ρ c (Proc.devRef .tc main_v52) = hid1 m c := by
  refine (exit0_arr m ρ c 5).trans ((layer0_final (VE0 m ρ) c).trans ?_)
  rw [VE0_0, VE0_1, VE0_2, VE0_3, VE0_4]
  rfl
/-- the edge rows, the edge weights and the self weights where the first stretch put them, -/
theorem exit0_v1 : exit0 m ρ c (Proc.devRef .tc main_v1) = srcRow (aEi m c) :=
  (exit0_of_ne m ρ c main_v1 (by decide)).trans (read0_v1 (launchC m ρ c))
theorem exit0_v3 : exit0 m ρ c (Proc.devRef .tc main_v3) = dstRow (aEi m c) :=
  (exit0_of_ne m ρ c main_v3 (by decide)).trans (read0_v3 (launchC m ρ c))
theorem exit0_v30 : exit0 m ρ c (Proc.devRef .tc main_v30) = Cert.KTerm.norm (aEi m c) :=
  (exit0_of_ne m ρ c main_v30 (by decide)).trans (read0_v30 (launchC m ρ c))
theorem exit0_v32 : exit0 m ρ c (Proc.devRef .tc main_v32) = Cert.KTerm.selfScale (aEi m c) :=
  (exit0_in m ρ c 2 rfl).trans (VE0_2 m ρ c)

/-! ## Region 1 enters at the second stretch's results over region 0's exit -/

theorem VE1_0 : VE1 m ρ c (Pipeline.arrRef spec1 0) = Cert.KTerm.agg (aEi m c) (hid1 m c) := by
  refine (g1_v70 (F := Ideal) (exit0 m ρ c)).trans ?_
  rw [exit0_v3, exit0_v1, exit0_v30, exit0_v52]
  exact aggOf_ideal _ _
theorem VE1_1 : VE1 m ρ c (Pipeline.arrRef spec1 1) = hid1 m c :=
  (hostOps1_keeps (exit0 m ρ c) main_v52 (by decide)).trans (exit0_v52 m ρ c)
theorem VE1_2 : VE1 m ρ c (Pipeline.arrRef spec1 2) = Cert.KTerm.selfScale (aEi m c) :=
  (hostOps1_keeps (exit0 m ρ c) main_v32 (by decide)).trans (exit0_v32 m ρ c)
theorem VE1_3 : VE1 m ρ c (Pipeline.arrRef spec1 3) = aW2 m c :=
  (hostOps1_keeps (exit0 m ρ c) main_arg5 (by decide)).trans (exit0_pass m ρ c main_arg5 (by decide) (by decide))
theorem VE1_4 : VE1 m ρ c (Pipeline.arrRef spec1 4) = Cert.KTerm.bias2 (aB2 m c) :=
  (read1_v71 (exit0 m ρ c)).trans (congrArg Cert.KTerm.bias2 (exit0_pass m ρ c main_arg6 (by decide) (by decide)))

/-- Region 1 leaves the second layer's rows in its output array, -/
theorem exit1_v72 : exit1 m ρ c (Proc.devRef .tc main_v72) = hid2 m c := by
  refine (exit1_arr m ρ c 5).trans ((layer1_final (VE1 m ρ) c).trans ?_)
  rw [VE1_0, VE1_1, VE1_2, VE1_3, VE1_4]
  rfl
/-- and the edge rows, the edge weights and the self weights as region 0 left them. -/
theorem exit1_v1 : exit1 m ρ c (Proc.devRef .tc main_v1) = srcRow (aEi m c) :=
  (exit1_pass m ρ c main_v1 (by decide) (by decide)).trans (exit0_v1 m ρ c)
theorem exit1_v3 : exit1 m ρ c (Proc.devRef .tc main_v3) = dstRow (aEi m c) :=
  (exit1_pass m ρ c main_v3 (by decide) (by decide)).trans (exit0_v3 m ρ c)
theorem exit1_v30 : exit1 m ρ c (Proc.devRef .tc main_v30) = Cert.KTerm.norm (aEi m c) :=
  (exit1_pass m ρ c main_v30 (by decide) (by decide)).trans (exit0_v30 m ρ c)
theorem exit1_v32 : exit1 m ρ c (Proc.devRef .tc main_v32) = Cert.KTerm.selfScale (aEi m c) :=
  (exit1_passIn m ρ c 2 rfl (by decide)).trans (exit0_v32 m ρ c)

/-! ## Region 2 enters at the third stretch's results over region 1's exit -/

theorem VE2_0 : VE2 m ρ c (Pipeline.arrRef spec2 0) = Cert.KTerm.agg (aEi m c) (hid2 m c) := by
  refine (g2_v90 (F := Ideal) (exit1 m ρ c)).trans ?_
  rw [exit1_v3, exit1_v1, exit1_v30, exit1_v72]
  exact aggOf_ideal _ _
theorem VE2_1 : VE2 m ρ c (Pipeline.arrRef spec2 1) = hid2 m c :=
  (hostOps2_keeps (exit1 m ρ c) main_v72 (by decide)).trans (exit1_v72 m ρ c)
theorem VE2_2 : VE2 m ρ c (Pipeline.arrRef spec2 2) = Cert.KTerm.selfScale (aEi m c) :=
  (hostOps2_keeps (exit1 m ρ c) main_v32 (by decide)).trans (exit1_v32 m ρ c)
theorem VE2_3 : VE2 m ρ c (Pipeline.arrRef spec2 3) = aW3 m c :=
  (hostOps2_keeps (exit1 m ρ c) main_arg7 (by decide)).trans
    ((exit1_pass m ρ c main_arg7 (by decide) (by decide)).trans (exit0_pass m ρ c main_arg7 (by decide) (by decide)))
theorem VE2_4 : VE2 m ρ c (Pipeline.arrRef spec2 4) = Cert.KTerm.bias2 (aB3 m c) :=
  (read2_v91 (exit1 m ρ c)).trans (congrArg Cert.KTerm.bias2
    ((exit1_pass m ρ c main_arg8 (by decide) (by decide)).trans (exit0_pass m ρ c main_arg8 (by decide) (by decide))))

/-- Region 2 leaves the third layer's rows in its output array. -/
theorem exit2_v92 : exit2 m ρ c (Proc.devRef .tc main_v92) = hid3 m c := by
  refine (exit2_arr m ρ c 5).trans ((layer2_final (VE2 m ρ) c).trans ?_)
  rw [VE2_0, VE2_1, VE2_2, VE2_3, VE2_4]
  rfl

/-! ## Region 3 enters at the fourth stretch's results over region 2's exit -/

theorem VE3_0 : VE3 m ρ c (Pipeline.arrRef spec3 0) = hid3 m c :=
  (hostOps3_keeps (exit2 m ρ c) main_v92 (by decide)).trans (exit2_v92 m ρ c)
theorem VE3_1 : VE3 m ρ c (Pipeline.arrRef spec3 1) = labels2 (aBt m c) :=
  (read3_v93 (exit2 m ρ c)).trans (congrArg labels2
    ((exit2_pass m ρ c main_arg2 (by decide) (by decide)).trans
      ((exit1_pass m ρ c main_arg2 (by decide) (by decide)).trans (exit0_pass m ρ c main_arg2 (by decide) (by decide)))))
theorem VE3_2 : VE3 m ρ c (Pipeline.arrRef spec3 2) = aWfc m c :=
  (hostOps3_keeps (exit2 m ρ c) main_arg9 (by decide)).trans
    ((exit2_pass m ρ c main_arg9 (by decide) (by decide)).trans
      ((exit1_pass m ρ c main_arg9 (by decide) (by decide)).trans (exit0_pass m ρ c main_arg9 (by decide) (by decide))))
theorem VE3_3 : VE3 m ρ c (Pipeline.arrRef spec3 3) = Cert.KTerm.biasfc2 (aBfc m c) :=
  (read3_v94 (exit2 m ρ c)).trans (congrArg Cert.KTerm.biasfc2
    ((exit2_pass m ρ c main_arg10 (by decide) (by decide)).trans
      ((exit1_pass m ρ c main_arg10 (by decide) (by decide)).trans (exit0_pass m ρ c main_arg10 (by decide) (by decide)))))

/-- The pooled read-out of the arrays region 3 finds is the kernel program's whole term over the launched arguments. -/
theorem pool_entry3 :
    Cert.Spec.pool (VE3 m ρ c (Pipeline.arrRef spec3 0)) (VE3 m ρ c (Pipeline.arrRef spec3 1)) (VE3 m ρ c (Pipeline.arrRef spec3 2))
        (VE3 m ρ c (Pipeline.arrRef spec3 3))
      = Cert.KTerm.result (aX m c) (aEi m c) (aBt m c) (aW1 m c) (aB1 m c) (aW2 m c) (aB2 m c) (aW3 m c) (aB3 m c) (aWfc m c) (aBfc m c) := by
  rw [VE3_0, VE3_1, VE3_2, VE3_3]
  rfl

/-- THE KERNEL PROGRAM'S VALUE: what region 3's write-back leaves in the result array is the pooled read-out of the three
    layers over the argument arrays as launched. -/
theorem result_eq :
    (Cert.KernelIdeal.Hand.dat3 (F := Ideal) (Cert.KernelIdeal.Hand.VE3 m ρ) c).arrAt 4 cfg3.N
      = Cert.KTerm.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  (pool_final (VE3 m ρ) c).trans (pool_entry3 m ρ c)

end Cert.KernelIdeal.Val

end
-- ==== Proof.Val.RLayer.lean ====
/-
  The reference program's one layer, as a term over the extended reals.

  From the edge list `ei` (row 0 the sources, row 1 the targets) the reference computes the wrapped edge columns, the
  inverse square root of the degree `dinv`, the edge weight `norm = dinv[src] · dinv[dst]`, and per layer: the linear
  map `h = x · W`, the sum into each target's row of the source's row of `h` times the edge's weight, plus `h` times
  `dinv · dinv`, plus the bias row (then the maximum with 0 in the clamped layers). Each definition below is the term
  the program's operations write, operation by operation, as a function of the argument arrays.
-/
import proofs.«413695_j61357902791131_1_alg».proof.ReferenceIdeal
import proofs.«413695_j61357902791131_1_alg».proof.Proof.Gen.ReferenceIdeal
import Idealize.ShloMosaic.PureOps.Ideal

noncomputable section

namespace Cert.RTerm

open Cert.ReferenceIdeal Cert.ReferenceIdeal.Gen Idealize.ShloMosaic

/-- Row 0 of the edge list as a vector: the edges' sources. -/
def srcRow (ei : IVec S2x800000 32) : IVec S800000 32 :=
  shapeCast S800000 (extractStridedSlice S1x800000 ![0, 0] ei slices_S2x800000_S1x800000_0_0) shapeCasts_S1x800000_S800000

/-- Row 1 of the edge list as a vector: the edges' targets. -/
def dstRow (ei : IVec S2x800000 32) : IVec S800000 32 :=
  shapeCast S800000 (extractStridedSlice S1x800000 ![1, 0] ei slices_S2x800000_S1x800000_1_0) shapeCasts_S1x800000_S800000

/-- A negative node number counts from the end: `v + 50000` where `v < 0`, else `v`. -/
def wrap (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped sources as a column of row numbers. -/
def srcIdx (ei : IVec S2x800000 32) : IVec S800000x1 32 :=
  broadcastInDim S800000x1 ![0] bcast_S800000_S800000x1_0 (wrap (srcRow ei))

/-- The wrapped targets as a column of row numbers. -/
def dstIdx (ei : IVec S2x800000 32) : IVec S800000x1 32 :=
  broadcastInDim S800000x1 ![0] bcast_S800000_S800000x1_0 (wrap (dstRow ei))

/-- The inverse square root of each node's degree, the degree being the number of edges into the node plus one. -/
def dinv (ei : IVec S2x800000 32) : FVec Ideal S50000 .f32 :=
  Host.rsqrt (F := Ideal) (φ := .f32)
    (addf (F := Ideal) (φ := .f32)
      (Host.scatterAdd (F := Ideal) (φ := .f32) scatter_S50000_S800000x1_S800000_n_0_0_1
        (broadcastInDim S50000 ![] bcast_S_S50000 (constant (F := Ideal) S_ .f32 0x00000000#32))
        (dstIdx ei)
        (broadcastInDim S800000 ![] bcast_S_S800000 (constant (F := Ideal) S_ .f32 0x3F800000#32)))
      (broadcastInDim S50000 ![] bcast_S_S50000 (constant (F := Ideal) S_ .f32 0x3F800000#32)))

/-- The weight of each edge: the product of `dinv` at its source and at its target. -/
def norm (ei : IVec S2x800000 32) : FVec Ideal S800000 .f32 :=
  mulf (F := Ideal) (φ := .f32)
    (Host.gather gather_S50000_S800000x1_S800000_n_0_n_n_0_1_1 (dinv ei) (srcIdx ei))
    (Host.gather gather_S50000_S800000x1_S800000_n_0_n_n_0_1_1 (dinv ei) (dstIdx ei))

/-- The layer's linear map: the node rows through the weight matrix. -/
def lin (x : FVec Ideal S50000x64 .f32) (W : FVec Ideal S64x64 .f32) : FVec Ideal S50000x64 .f32 :=
  Host.dotGeneral (F := Ideal) dot_S50000x64_S64x64_S50000x64_1_0_0_1_n_n none x W

/-- One layer before the clamp: the weighted neighbour sum of the mapped rows, plus the mapped rows times the self
    weight, plus the bias row. -/
def pre (ei : IVec S2x800000 32) (x : FVec Ideal S50000x64 .f32) (W : FVec Ideal S64x64 .f32)
    (b : FVec Ideal S64 .f32) : FVec Ideal S50000x64 .f32 :=
  addf (F := Ideal) (φ := .f32)
    (addf (F := Ideal) (φ := .f32)
      (Host.scatterAdd (F := Ideal) (φ := .f32) scatter_S50000x64_S800000x1_S800000x64_1_0_0_1
        (broadcastInDim S50000x64 ![] bcast_S_S50000x64 (constant (F := Ideal) S_ .f32 0x00000000#32))
        (dstIdx ei)
        (mulf (F := Ideal) (φ := .f32)
          (Host.gather gather_S50000x64_S800000x1_S800000x64_1_0_n_n_0_1_164 (lin x W) (srcIdx ei))
          (broadcastInDim S800000x64 ![0, 1] bcast_S800000x1_S800000x64_0_1
            (broadcastInDim S800000x1 ![0] bcast_S800000_S800000x1_0 (norm ei)))))
      (mulf (F := Ideal) (φ := .f32) (lin x W)
        (broadcastInDim S50000x64 ![0, 1] bcast_S50000x1_S50000x64_0_1
          (broadcastInDim S50000x1 ![0] bcast_S50000_S50000x1_0
            (mulf (F := Ideal) (φ := .f32) (dinv ei) (dinv ei))))))
    (broadcastInDim S50000x64 ![0, 1] bcast_S1x64_S50000x64_0_1 (broadcastInDim S1x64 ![1] bcast_S64_S1x64_1 b))

/-- One layer; `relu` takes the maximum with the all-zero array. -/
def rlayer (relu : Bool) (ei : IVec S2x800000 32) (x : FVec Ideal S50000x64 .f32) (W : FVec Ideal S64x64 .f32)
    (b : FVec Ideal S64 .f32) : FVec Ideal S50000x64 .f32 :=
  match relu with
  | true => maximumf (F := Ideal) (φ := .f32) (pre ei x W b)
      (broadcastInDim S50000x64 ![] bcast_S_S50000x64 (constant (F := Ideal) S_ .f32 0x00000000#32))
  | false => pre ei x W b

end Cert.RTerm

end
-- ==== Proof.Val.RPool.lean ====
/-
  The reference program's pooling and read-out stage, over the extended reals.

  After its third layer the reference program wraps the node labels (a negative label counts from the end: `v + 256`
  where `v < 0`), makes them a column, adds each node's row into the row of its graph (starting from zeros), counts the
  nodes of each graph the same way (adding ones into a zero vector), divides each graph's row sum by its count clamped
  below at one, contracts with the read-out matrix and adds the read-out bias. The definition below is the term the
  program's operations write, operation by operation, as a function of the third layer's output and the argument arrays.
-/
import proofs.«413695_j61357902791131_1_alg».proof.ReferenceIdeal
import proofs.«413695_j61357902791131_1_alg».proof.Proof.Gen.ReferenceIdeal
import Idealize.ShloMosaic.PureOps.Ideal

noncomputable section

namespace Cert.RTerm

open Cert.ReferenceIdeal Cert.ReferenceIdeal.Gen Idealize.ShloMosaic

/-- A negative graph number counts from the end: `v + 256` where `v < 0`, else `v`. -/
def wrapLabels (bt : IVec S50000 32) : IVec S50000 32 :=
  select (cmpi .slt bt (broadcastInDim S50000 ![] bcast_S_S50000 (constantI S_ 32 0#32)))
    (addi bt (broadcastInDim S50000 ![] bcast_S_S50000 (constantI S_ 32 256#32))) bt

/-- The wrapped labels as a column of row numbers. -/
def labelIdx (bt : IVec S50000 32) : IVec S50000x1 32 :=
  broadcastInDim S50000x1 ![0] bcast_S50000_S50000x1_0 (wrapLabels bt)

/-- Each graph's row sum: into each graph's row, the sum of the rows of `h` whose node carries that graph's label. -/
def sums (h : FVec Ideal S50000x64 .f32) (bt : IVec S50000 32) : FVec Ideal S256x64 .f32 :=
  Host.scatterAdd (F := Ideal) (φ := .f32) scatter_S256x64_S50000x1_S50000x64_1_0_0_1
    (broadcastInDim S256x64 ![] bcast_S_S256x64 (constant (F := Ideal) S_ .f32 0x00000000#32))
    (labelIdx bt) h

/-- Each graph's node count. -/
def cnts (bt : IVec S50000 32) : FVec Ideal S256 .f32 :=
  Host.scatterAdd (F := Ideal) (φ := .f32) scatter_S256_S50000x1_S50000_n_0_0_1
    (broadcastInDim S256 ![] bcast_S_S256 (constant (F := Ideal) S_ .f32 0x00000000#32))
    (labelIdx bt)
    (broadcastInDim S50000 ![] bcast_S_S50000 (constant (F := Ideal) S_ .f32 0x3F800000#32))

/-- Each graph's count clamped below at one, spread over the row's features. -/
def denom (bt : IVec S50000 32) : FVec Ideal S256x64 .f32 :=
  broadcastInDim S256x64 ![0, 1] bcast_S256x1_S256x64_0_1
    (broadcastInDim S256x1 ![0] bcast_S256_S256x1_0
      (maximumf (F := Ideal) (φ := .f32) (cnts bt)
        (broadcastInDim S256 ![] bcast_S_S256 (constant (F := Ideal) S_ .f32 0x3F800000#32))))

/-- The pooled read-out: each graph's mean row (an empty graph divides by one) through the last linear map. -/
def rpool (h : FVec Ideal S50000x64 .f32) (bt : IVec S50000 32) (Wfc : FVec Ideal S64x10 .f32)
    (bfc : FVec Ideal S10 .f32) : FVec Ideal S256x10 .f32 :=
  addf (F := Ideal) (φ := .f32)
    (Host.dotGeneral (F := Ideal) dot_S256x64_S64x10_S256x10_1_0_0_1_n_n none
      (Host.divf (F := Ideal) (φ := .f32) (sums h bt) (denom bt)) Wfc)
    (broadcastInDim S256x10 ![0, 1] bcast_S1x10_S256x10_0_1 (broadcastInDim S1x10 ![1] bcast_S10_S1x10_1 bfc))

end Cert.RTerm

end
-- ==== Proof.Val.RefResult.lean ====
/-
  The reference program's result as one term of its arguments.

  The reference computes three layers one after the other, each from the previous layer's rows, the edge list, a weight
  matrix and a bias (the first two layers clamped below at zero), then pools the third layer's rows by graph label and
  reads the pooled rows out through the last linear map.
-/
import proofs.«413695_j61357902791131_1_alg».proof.Proof.Val.RLayer
import proofs.«413695_j61357902791131_1_alg».proof.Proof.Val.RPool

noncomputable section

namespace Cert.RTerm

open Cert.ReferenceIdeal Cert.ReferenceIdeal.Gen Idealize.ShloMosaic

/-- The whole result: three layers (the first two clamped at zero), then the pooled read-out. -/
def result (x : FVec Ideal S50000x64 .f32) (ei : IVec S2x800000 32) (bt : IVec S50000 32)
    (W1 : FVec Ideal S64x64 .f32) (b1 : FVec Ideal S64 .f32) (W2 : FVec Ideal S64x64 .f32) (b2 : FVec Ideal S64 .f32)
    (W3 : FVec Ideal S64x64 .f32) (b3 : FVec Ideal S64 .f32) (Wfc : FVec Ideal S64x10 .f32) (bfc : FVec Ideal S10 .f32) :
    FVec Ideal S256x10 .f32 :=
  rpool (rlayer false ei (rlayer true ei (rlayer true ei x W1 b1) W2 b2) W3 b3) bt Wfc bfc

end Cert.RTerm

end
-- ==== Proof.Val.RefRows.lean ====
/-
  One layer of the reference over the two index rows.

  The layer term reads the edge list only through its two rows, the sources and the targets. Here the same term is
  written over the two rows as given vectors: the wrapped rows as columns, the inverse square root of the degree from
  the targets, the edge weight from both, and the layer's combination of them. The layer over the edge list is this
  term at the edge list's two rows.
-/
import proofs.«413695_j61357902791131_1_alg».proof.Proof.Val.RLayer

noncomputable section

namespace Cert.RTerm

open Cert.ReferenceIdeal Cert.ReferenceIdeal.Gen Idealize.ShloMosaic

/-- A row of node numbers, wrapped, as a column of row numbers. -/
def colOf (v : IVec S800000 32) : IVec S800000x1 32 :=
  broadcastInDim S800000x1 ![0] bcast_S800000_S800000x1_0 (wrap v)

/-- The inverse square root of each node's degree, the degree being the number of edges into the node plus one. -/
def dinvRows (dst : IVec S800000 32) : FVec Ideal S50000 .f32 :=
  Host.rsqrt (F := Ideal) (φ := .f32)
    (addf (F := Ideal) (φ := .f32)
      (Host.scatterAdd (F := Ideal) (φ := .f32) scatter_S50000_S800000x1_S800000_n_0_0_1
        (broadcastInDim S50000 ![] bcast_S_S50000 (constant (F := Ideal) S_ .f32 0x00000000#32))
        (colOf dst)
        (broadcastInDim S800000 ![] bcast_S_S800000 (constant (F := Ideal) S_ .f32 0x3F800000#32)))
      (broadcastInDim S50000 ![] bcast_S_S50000 (constant (F := Ideal) S_ .f32 0x3F800000#32)))

/-- The weight of each edge: the product of the inverse square root of the degree at its source and at its target. -/
def normRows (src dst : IVec S800000 32) : FVec Ideal S800000 .f32 :=
  mulf (F := Ideal) (φ := .f32)
    (Host.gather gather_S50000_S800000x1_S800000_n_0_n_n_0_1_1 (dinvRows dst) (colOf src))
    (Host.gather gather_S50000_S800000x1_S800000_n_0_n_n_0_1_1 (dinvRows dst) (colOf dst))

/-- One layer before the clamp, over the two rows. -/
def preRows (src dst : IVec S800000 32) (x : FVec Ideal S50000x64 .f32) (W : FVec Ideal S64x64 .f32)
    (b : FVec Ideal S64 .f32) : FVec Ideal S50000x64 .f32 :=
  addf (F := Ideal) (φ := .f32)
    (addf (F := Ideal) (φ := .f32)
      (Host.scatterAdd (F := Ideal) (φ := .f32) scatter_S50000x64_S800000x1_S800000x64_1_0_0_1
        (broadcastInDim S50000x64 ![] bcast_S_S50000x64 (constant (F := Ideal) S_ .f32 0x00000000#32))
        (colOf dst)
        (mulf (F := Ideal) (φ := .f32)
          (Host.gather gather_S50000x64_S800000x1_S800000x64_1_0_n_n_0_1_164 (lin x W) (colOf src))
          (broadcastInDim S800000x64 ![0, 1] bcast_S800000x1_S800000x64_0_1
            (broadcastInDim S800000x1 ![0] bcast_S800000_S800000x1_0 (normRows src dst)))))
      (mulf (F := Ideal) (φ := .f32) (lin x W)
        (broadcastInDim S50000x64 ![0, 1] bcast_S50000x1_S50000x64_0_1
          (broadcastInDim S50000x1 ![0] bcast_S50000_S50000x1_0
            (mulf (F := Ideal) (φ := .f32) (dinvRows dst) (dinvRows dst))))))
    (broadcastInDim S50000x64 ![0, 1] bcast_S1x64_S50000x64_0_1 (broadcastInDim S1x64 ![1] bcast_S64_S1x64_1 b))

/-- One layer over the two rows; `relu` takes the maximum with the all-zero array. -/
def rlayerRows (relu : Bool) (src dst : IVec S800000 32) (x : FVec Ideal S50000x64 .f32) (W : FVec Ideal S64x64 .f32)
    (b : FVec Ideal S64 .f32) : FVec Ideal S50000x64 .f32 :=
  match relu with
  | true => maximumf (F := Ideal) (φ := .f32) (preRows src dst x W b)
      (broadcastInDim S50000x64 ![] bcast_S_S50000x64 (constant (F := Ideal) S_ .f32 0x00000000#32))
  | false => preRows src dst x W b

/-- The layer over the edge list is the layer over the edge list's two rows. -/
theorem rlayer_rows (relu : Bool) (ei : IVec S2x800000 32) (x : FVec Ideal S50000x64 .f32) (W : FVec Ideal S64x64 .f32)
    (b : FVec Ideal S64 .f32) : rlayer relu ei x W b = rlayerRows relu (srcRow ei) (dstRow ei) x W b := by
  cases relu <;> rfl

end Cert.RTerm

end
-- ==== Proof.Val.RefRunL1.lean ====
/-
  The reference's layer 1, read off its operations.

  From any contents of the buffers, after the layer's operations its output buffer holds the layer term of what the
  two index rows, the layer's input rows, its weight matrix and its bias held before. The layer's operations are read
  in four stretches: after each stretch every buffer a later stretch reads holds its operations' composed function of
  the contents before the stretch, each operation's result being its function of its operands' results; a buffer a
  stretch does not write keeps its contents. Composing the four stretches in the program's order is the layer term.
-/
import proofs.«413695_j61357902791131_1_alg».proof.Proof.Val.RefRunOps
import proofs.«413695_j61357902791131_1_alg».proof.Proof.Val.RefRows

noncomputable section

namespace Cert.RefRun

open Cert.ReferenceIdeal Cert.ReferenceIdeal.Gen Idealize.ShloMosaic Idealize.ShloMosaic.TcCoe Idealize.SL.Sem Idealize.ShloMosaic.StableHlo

section Stretches

variable {F : FTy → Type} [FloatOps F]

set_option maxRecDepth 8192 in
set_option maxHeartbeats 4000000 in
theorem rd_L1u1_v16 (U : Valuation τ sig (Elt F)) :
    after opsL1s1 U (Proc.devRef .tc main_v16)
      = (Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (broadcastInDim S800000 ![] bcast_S_S800000 (constant S_ .f32 0x3F800000#32))) (broadcastInDim S50000 ![] bcast_S_S50000 (constant S_ .f32 0x3F800000#32)))) := by
  simp only [opsL1s1]
  after_results_simp <;> rfl

set_option maxRecDepth 8192 in
set_option maxHeartbeats 4000000 in
theorem rd_L1u1_v4 (U : Valuation τ sig (Elt F)) :
    after opsL1s1 U (Proc.devRef .tc main_v4)
      = (Host.dotGeneral dot_S50000x64_S64x64_S50000x64_1_0_0_1_n_n none (U (Proc.devRef .tc main_arg0)) (U (Proc.devRef .tc main_arg3))) := by
  simp only [opsL1s1]
  after_results_simp <;> rfl

set_option maxRecDepth 8192 in
set_option maxHeartbeats 4000000 in
theorem rd_L1u2_v31 (U : Valuation τ sig (Elt F)) :
    after opsL1s2 U (Proc.devRef .tc main_v31)
      = (mulf (Host.gather gather_S50000_S800000x1_S800000_n_0_n_n_0_1_1 (U (Proc.devRef .tc main_v16)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (Host.gather gather_S50000_S800000x1_S800000_n_0_n_n_0_1_1 (U (Proc.devRef .tc main_v16)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))))) := by
  simp only [opsL1s2]
  after_results_simp <;> rfl

set_option maxRecDepth 8192 in
set_option maxHeartbeats 4000000 in
theorem rd_L1u3_v42 (U : Valuation τ sig (Elt F)) :
    after opsL1s3 U (Proc.devRef .tc main_v42)
      = (mulf (Host.gather gather_S50000x64_S800000x1_S800000x64_1_0_n_n_0_1_164 (U (Proc.devRef .tc main_v4)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (broadcastInDim S800000x64 ![0, 1] bcast_S800000x1_S800000x64_0_1 (broadcastInDim S800000x1 ![0] bcast_S800000_S800000x1_0 (U (Proc.devRef .tc main_v31))))) := by
  simp only [opsL1s3]
  after_results_simp <;> rfl

set_option maxRecDepth 8192 in
set_option maxHeartbeats 4000000 in
theorem rd_L1u3_v32 (U : Valuation τ sig (Elt F)) :
    after opsL1s3 U (Proc.devRef .tc main_v32)
      = (broadcastInDim S50000x64 ![] bcast_S_S50000x64 (constant S_ .f32 0x00000000#32)) := by
  simp only [opsL1s3]
  after_results_simp <;> rfl

set_option maxRecDepth 8192 in
set_option maxHeartbeats 4000000 in
theorem rd_L1u4_v58 (U : Valuation τ sig (Elt F)) :
    after opsL1s4b (after opsL1s4a U) (Proc.devRef .tc main_v58)
      = (maximumf (addf (addf (Host.scatterAdd scatter_S50000x64_S800000x1_S800000x64_1_0_0_1 (U (Proc.devRef .tc main_v32)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (U (Proc.devRef .tc main_v42))) (mulf (U (Proc.devRef .tc main_v4)) (broadcastInDim S50000x64 ![0, 1] bcast_S50000x1_S50000x64_0_1 (broadcastInDim S50000x1 ![0] bcast_S50000_S50000x1_0 (mulf (U (Proc.devRef .tc main_v16)) (U (Proc.devRef .tc main_v16))))))) (broadcastInDim S50000x64 ![0, 1] bcast_S1x64_S50000x64_0_1 (broadcastInDim S1x64 ![1] bcast_S64_S1x64_1 (U (Proc.devRef .tc main_arg4))))) (broadcastInDim S50000x64 ![] bcast_S_S50000x64 (constant S_ .f32 0x00000000#32))) := by
  simp only [opsL1s4a, opsL1s4b]
  after_results_simp <;> rfl

end Stretches

set_option maxRecDepth 8192 in
set_option maxHeartbeats 4000000 in
/-- After layer 1's operations its output is the layer term of the contents before them. -/
theorem readL1 (V : Valuation τ sig (Elt Ideal)) :
    runL1 V (Proc.devRef .tc main_v58)
      = Cert.RTerm.rlayerRows true (V (Proc.devRef .tc main_v1)) (V (Proc.devRef .tc main_v3)) (V (Proc.devRef .tc main_arg0))
          (V (Proc.devRef .tc main_arg3)) (V (Proc.devRef .tc main_arg4)) := by
  unfold runL1
  rw [rd_L1u4_v58]
  rw [rd_L1u3_v32, opsL1s3_keep _ main_v3 (by decide), rd_L1u3_v42, opsL1s3_keep _ main_v4 (by decide), opsL1s3_keep _ main_v16 (by decide), opsL1s3_keep _ main_arg4 (by decide)]
  rw [opsL1s2_keep _ main_v3 (by decide), opsL1s2_keep _ main_v4 (by decide), opsL1s2_keep _ main_v1 (by decide), rd_L1u2_v31, opsL1s2_keep _ main_v16 (by decide), opsL1s2_keep _ main_arg4 (by decide)]
  rw [opsL1s1_keep _ main_v3 (by decide), rd_L1u1_v4, opsL1s1_keep _ main_v1 (by decide), rd_L1u1_v16, opsL1s1_keep _ main_arg4 (by decide)]
  rfl

end Cert.RefRun

end
-- ==== Proof.Val.RefRunL2.lean ====
/-
  The reference's layer 2, read off its operations.

  From any contents of the buffers, after the layer's operations its output buffer holds the layer term of what the
  two index rows, the layer's input rows, its weight matrix and its bias held before. The layer's operations are read
  in four stretches: after each stretch every buffer a later stretch reads holds its operations' composed function of
  the contents before the stretch, each operation's result being its function of its operands' results; a buffer a
  stretch does not write keeps its contents. Composing the four stretches in the program's order is the layer term.
-/
import proofs.«413695_j61357902791131_1_alg».proof.Proof.Val.RefRunOps
import proofs.«413695_j61357902791131_1_alg».proof.Proof.Val.RefRows

noncomputable section

namespace Cert.RefRun

open Cert.ReferenceIdeal Cert.ReferenceIdeal.Gen Idealize.ShloMosaic Idealize.ShloMosaic.TcCoe Idealize.SL.Sem Idealize.ShloMosaic.StableHlo

section Stretches

variable {F : FTy → Type} [FloatOps F]

set_option maxRecDepth 8192 in
set_option maxHeartbeats 4000000 in
theorem rd_L2u1_v71 (U : Valuation τ sig (Elt F)) :
    after opsL2s1 U (Proc.devRef .tc main_v71)
      = (Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (broadcastInDim S800000 ![] bcast_S_S800000 (constant S_ .f32 0x3F800000#32))) (broadcastInDim S50000 ![] bcast_S_S50000 (constant S_ .f32 0x3F800000#32)))) := by
  simp only [opsL2s1]
  after_results_simp <;> rfl

set_option maxRecDepth 8192 in
set_option maxHeartbeats 4000000 in
theorem rd_L2u1_v59 (U : Valuation τ sig (Elt F)) :
    after opsL2s1 U (Proc.devRef .tc main_v59)
      = (Host.dotGeneral dot_S50000x64_S64x64_S50000x64_1_0_0_1_n_n none (U (Proc.devRef .tc main_v58)) (U (Proc.devRef .tc main_arg5))) := by
  simp only [opsL2s1]
  after_results_simp <;> rfl

set_option maxRecDepth 8192 in
set_option maxHeartbeats 4000000 in
theorem rd_L2u2_v86 (U : Valuation τ sig (Elt F)) :
    after opsL2s2 U (Proc.devRef .tc main_v86)
      = (mulf (Host.gather gather_S50000_S800000x1_S800000_n_0_n_n_0_1_1 (U (Proc.devRef .tc main_v71)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (Host.gather gather_S50000_S800000x1_S800000_n_0_n_n_0_1_1 (U (Proc.devRef .tc main_v71)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))))) := by
  simp only [opsL2s2]
  after_results_simp <;> rfl

set_option maxRecDepth 8192 in
set_option maxHeartbeats 4000000 in
theorem rd_L2u3_v97 (U : Valuation τ sig (Elt F)) :
    after opsL2s3b (after opsL2s3a U) (Proc.devRef .tc main_v97)
      = (mulf (Host.gather gather_S50000x64_S800000x1_S800000x64_1_0_n_n_0_1_164 (U (Proc.devRef .tc main_v59)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (broadcastInDim S800000x64 ![0, 1] bcast_S800000x1_S800000x64_0_1 (broadcastInDim S800000x1 ![0] bcast_S800000_S800000x1_0 (U (Proc.devRef .tc main_v86))))) := by
  simp only [opsL2s3a, opsL2s3b]
  after_results_simp <;> rfl

set_option maxRecDepth 8192 in
set_option maxHeartbeats 4000000 in
theorem rd_L2u3_v87 (U : Valuation τ sig (Elt F)) :
    after opsL2s3b (after opsL2s3a U) (Proc.devRef .tc main_v87)
      = (broadcastInDim S50000x64 ![] bcast_S_S50000x64 (constant S_ .f32 0x00000000#32)) := by
  simp only [opsL2s3a, opsL2s3b]
  after_results_simp <;> rfl

set_option maxRecDepth 8192 in
set_option maxHeartbeats 4000000 in
theorem rd_L2u4_v113 (U : Valuation τ sig (Elt F)) :
    after opsL2s4 U (Proc.devRef .tc main_v113)
      = (maximumf (addf (addf (Host.scatterAdd scatter_S50000x64_S800000x1_S800000x64_1_0_0_1 (U (Proc.devRef .tc main_v87)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (U (Proc.devRef .tc main_v97))) (mulf (U (Proc.devRef .tc main_v59)) (broadcastInDim S50000x64 ![0, 1] bcast_S50000x1_S50000x64_0_1 (broadcastInDim S50000x1 ![0] bcast_S50000_S50000x1_0 (mulf (U (Proc.devRef .tc main_v71)) (U (Proc.devRef .tc main_v71))))))) (broadcastInDim S50000x64 ![0, 1] bcast_S1x64_S50000x64_0_1 (broadcastInDim S1x64 ![1] bcast_S64_S1x64_1 (U (Proc.devRef .tc main_arg6))))) (broadcastInDim S50000x64 ![] bcast_S_S50000x64 (constant S_ .f32 0x00000000#32))) := by
  simp only [opsL2s4]
  after_results_simp <;> rfl

end Stretches

set_option maxRecDepth 8192 in
set_option maxHeartbeats 4000000 in
/-- After layer 2's operations its output is the layer term of the contents before them. -/
theorem readL2 (V : Valuation τ sig (Elt Ideal)) :
    runL2 V (Proc.devRef .tc main_v113)
      = Cert.RTerm.rlayerRows true (V (Proc.devRef .tc main_v1)) (V (Proc.devRef .tc main_v3)) (V (Proc.devRef .tc main_v58))
          (V (Proc.devRef .tc main_arg5)) (V (Proc.devRef .tc main_arg6)) := by
  unfold runL2
  rw [rd_L2u4_v113]
  rw [rd_L2u3_v87, keepL2u3 _ main_v3 (by decide), rd_L2u3_v97, keepL2u3 _ main_v59 (by decide), keepL2u3 _ main_v71 (by decide), keepL2u3 _ main_arg6 (by decide)]
  rw [opsL2s2_keep _ main_v3 (by decide), opsL2s2_keep _ main_v59 (by decide), opsL2s2_keep _ main_v1 (by decide), rd_L2u2_v86, opsL2s2_keep _ main_v71 (by decide), opsL2s2_keep _ main_arg6 (by decide)]
  rw [opsL2s1_keep _ main_v3 (by decide), rd_L2u1_v59, opsL2s1_keep _ main_v1 (by decide), rd_L2u1_v71, opsL2s1_keep _ main_arg6 (by decide)]
  rfl

end Cert.RefRun

end
-- ==== Proof.Val.RefRunL3.lean ====
/-
  The reference's layer 3, read off its operations.

  From any contents of the buffers, after the layer's operations its output buffer holds the layer term of what the
  two index rows, the layer's input rows, its weight matrix and its bias held before. The layer's operations are read
  in four stretches: after each stretch every buffer a later stretch reads holds its operations' composed function of
  the contents before the stretch, each operation's result being its function of its operands' results; a buffer a
  stretch does not write keeps its contents. Composing the four stretches in the program's order is the layer term.
-/
import proofs.«413695_j61357902791131_1_alg».proof.Proof.Val.RefRunOps
import proofs.«413695_j61357902791131_1_alg».proof.Proof.Val.RefRows

noncomputable section

namespace Cert.RefRun

open Cert.ReferenceIdeal Cert.ReferenceIdeal.Gen Idealize.ShloMosaic Idealize.ShloMosaic.TcCoe Idealize.SL.Sem Idealize.ShloMosaic.StableHlo

section Stretches

variable {F : FTy → Type} [FloatOps F]

set_option maxRecDepth 8192 in
set_option maxHeartbeats 4000000 in
theorem rd_L3u1_v126 (U : Valuation τ sig (Elt F)) :
    after opsL3s1 U (Proc.devRef .tc main_v126)
      = (Host.rsqrt (addf (Host.scatterAdd scatter_S50000_S800000x1_S800000_n_0_0_1 (broadcastInDim S50000 ![] bcast_S_S50000 (constant S_ .f32 0x00000000#32)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (broadcastInDim S800000 ![] bcast_S_S800000 (constant S_ .f32 0x3F800000#32))) (broadcastInDim S50000 ![] bcast_S_S50000 (constant S_ .f32 0x3F800000#32)))) := by
  simp only [opsL3s1]
  after_results_simp <;> rfl

set_option maxRecDepth 8192 in
set_option maxHeartbeats 4000000 in
theorem rd_L3u1_v114 (U : Valuation τ sig (Elt F)) :
    after opsL3s1 U (Proc.devRef .tc main_v114)
      = (Host.dotGeneral dot_S50000x64_S64x64_S50000x64_1_0_0_1_n_n none (U (Proc.devRef .tc main_v113)) (U (Proc.devRef .tc main_arg7))) := by
  simp only [opsL3s1]
  after_results_simp <;> rfl

set_option maxRecDepth 8192 in
set_option maxHeartbeats 4000000 in
theorem rd_L3u2_v141 (U : Valuation τ sig (Elt F)) :
    after opsL3s2 U (Proc.devRef .tc main_v141)
      = (mulf (Host.gather gather_S50000_S800000x1_S800000_n_0_n_n_0_1_1 (U (Proc.devRef .tc main_v126)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (Host.gather gather_S50000_S800000x1_S800000_n_0_n_n_0_1_1 (U (Proc.devRef .tc main_v126)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))))) := by
  simp only [opsL3s2]
  after_results_simp <;> rfl

set_option maxRecDepth 8192 in
set_option maxHeartbeats 4000000 in
theorem rd_L3u2_cst_35 (U : Valuation τ sig (Elt F)) :
    after opsL3s2 U (Proc.devRef .tc main_cst_35)
      = (constant S_ .f32 0x00000000#32) := by
  simp only [opsL3s2]
  after_results_simp <;> rfl

set_option maxRecDepth 8192 in
set_option maxHeartbeats 4000000 in
theorem rd_L3u3_v152 (U : Valuation τ sig (Elt F)) :
    after opsL3s3 U (Proc.devRef .tc main_v152)
      = (mulf (Host.gather gather_S50000x64_S800000x1_S800000x64_1_0_n_n_0_1_164 (U (Proc.devRef .tc main_v114)) (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))) (broadcastInDim S800000x64 ![0, 1] bcast_S800000x1_S800000x64_0_1 (broadcastInDim S800000x1 ![0] bcast_S800000_S800000x1_0 (U (Proc.devRef .tc main_v141))))) := by
  simp only [opsL3s3]
  after_results_simp <;> rfl

set_option maxRecDepth 8192 in
set_option maxHeartbeats 4000000 in
theorem rd_L3u3_v142 (U : Valuation τ sig (Elt F)) :
    after opsL3s3 U (Proc.devRef .tc main_v142)
      = (broadcastInDim S50000x64 ![] bcast_S_S50000x64 (U (Proc.devRef .tc main_cst_35))) := by
  simp only [opsL3s3]
  after_results_simp <;> rfl

set_option maxRecDepth 8192 in
set_option maxHeartbeats 4000000 in
theorem rd_L3u4_v167 (U : Valuation τ sig (Elt F)) :
    after opsL3s4 U (Proc.devRef .tc main_v167)
      = (addf (addf (Host.scatterAdd scatter_S50000x64_S800000x1_S800000x64_1_0_0_1 (U (Proc.devRef .tc main_v142)) (broadcastInDim S800000x1 ![0] bcast_S800000_S800000x1_0 (select (cmpi .slt (U (Proc.devRef .tc main_v3)) (broadcastInDim S800000 ![] bcast_S_S800000 (constantI S_ 32 0#32))) (addi (U (Proc.devRef .tc main_v3)) (broadcastInDim S800000 ![] bcast_S_S800000 (constantI S_ 32 50000#32))) (U (Proc.devRef .tc main_v3)))) (U (Proc.devRef .tc main_v152))) (mulf (U (Proc.devRef .tc main_v114)) (broadcastInDim S50000x64 ![0, 1] bcast_S50000x1_S50000x64_0_1 (broadcastInDim S50000x1 ![0] bcast_S50000_S50000x1_0 (mulf (U (Proc.devRef .tc main_v126)) (U (Proc.devRef .tc main_v126))))))) (broadcastInDim S50000x64 ![0, 1] bcast_S1x64_S50000x64_0_1 (broadcastInDim S1x64 ![1] bcast_S64_S1x64_1 (U (Proc.devRef .tc main_arg8))))) := by
  simp only [opsL3s4]
  after_results_simp <;> rfl

end Stretches

set_option maxRecDepth 8192 in
set_option maxHeartbeats 4000000 in
/-- After layer 3's operations its output is the layer term of the contents before them. -/
theorem readL3 (V : Valuation τ sig (Elt Ideal)) :
    runL3 V (Proc.devRef .tc main_v167)
      = Cert.RTerm.rlayerRows false (V (Proc.devRef .tc main_v1)) (V (Proc.devRef .tc main_v3)) (V (Proc.devRef .tc main_v113))
          (V (Proc.devRef .tc main_arg7)) (V (Proc.devRef .tc main_arg8)) := by
  unfold runL3
  rw [rd_L3u4_v167]
  rw [rd_L3u3_v142, opsL3s3_keep _ main_v3 (by decide), rd_L3u3_v152, opsL3s3_keep _ main_v114 (by decide), opsL3s3_keep _ main_v126 (by decide), opsL3s3_keep _ main_arg8 (by decide)]
  rw [rd_L3u2_cst_35, opsL3s2_keep _ main_v3 (by decide), opsL3s2_keep _ main_v114 (by decide), opsL3s2_keep _ main_v1 (by decide), rd_L3u2_v141, opsL3s2_keep _ main_v126 (by decide), opsL3s2_keep _ main_arg8 (by decide)]
  rw [opsL3s1_keep _ main_v3 (by decide), rd_L3u1_v114, opsL3s1_keep _ main_v1 (by decide), rd_L3u1_v126, opsL3s1_keep _ main_arg8 (by decide)]
  rfl

end Cert.RefRun

end
-- ==== Proof.Val.RefRunP.lean ====
/-
  The reference's index rows and its pooled read-out, read off their operations.

  From any contents of the buffers: after the first four operations the two row buffers hold the edge list's two rows;
  after the last thirty-four, read in three stretches, the result buffer holds the pooling term of what the third
  layer's output, the labels, the read-out matrix and the read-out bias held before.
-/
import proofs.«413695_j61357902791131_1_alg».proof.Proof.Val.RefRunOps
import proofs.«413695_j61357902791131_1_alg».proof.Proof.Val.RLayer
import proofs.«413695_j61357902791131_1_alg».proof.Proof.Val.RPool

noncomputable section

namespace Cert.RefRun

open Cert.ReferenceIdeal Cert.ReferenceIdeal.Gen Idealize.ShloMosaic Idealize.ShloMosaic.TcCoe Idealize.SL.Sem Idealize.ShloMosaic.StableHlo

section Stretches

variable {F : FTy → Type} [FloatOps F]

set_option maxRecDepth 8192 in
set_option maxHeartbeats 4000000 in
theorem rd_Au1_v1 (U : Valuation τ sig (Elt F)) :
    after opsA U (Proc.devRef .tc main_v1)
      = (shapeCast _ (extractStridedSlice S1x800000 ![0, 0] (U (Proc.devRef .tc main_arg1)) slices_S2x800000_S1x800000_0_0) shapeCasts_S1x800000_S800000) := by
  simp only [opsA]
  after_results_simp <;> rfl

set_option maxRecDepth 8192 in
set_option maxHeartbeats 4000000 in
theorem rd_Au1_v3 (U : Valuation τ sig (Elt F)) :
    after opsA U (Proc.devRef .tc main_v3)
      = (shapeCast _ (extractStridedSlice S1x800000 ![1, 0] (U (Proc.devRef .tc main_arg1)) slices_S2x800000_S1x800000_1_0) shapeCasts_S1x800000_S800000) := by
  simp only [opsA]
  after_results_simp <;> rfl

set_option maxRecDepth 8192 in
set_option maxHeartbeats 4000000 in
theorem rd_Pu1_v175 (U : Valuation τ sig (Elt F)) :
    after opsP1 U (Proc.devRef .tc main_v175)
      = (Host.scatterAdd scatter_S256x64_S50000x1_S50000x64_1_0_0_1 (broadcastInDim S256x64 ![] bcast_S_S256x64 (constant S_ .f32 0x00000000#32)) (broadcastInDim S50000x1 ![0] bcast_S50000_S50000x1_0 (select (cmpi .slt (U (Proc.devRef .tc main_arg2)) (broadcastInDim S50000 ![] bcast_S_S50000 (constantI S_ 32 0#32))) (addi (U (Proc.devRef .tc main_arg2)) (broadcastInDim S50000 ![] bcast_S_S50000 (constantI S_ 32 256#32))) (U (Proc.devRef .tc main_arg2)))) (U (Proc.devRef .tc main_v167))) := by
  simp only [opsP1]
  after_results_simp <;> rfl

set_option maxRecDepth 8192 in
set_option maxHeartbeats 4000000 in
theorem rd_Pu2_v189 (U : Valuation τ sig (Elt F)) :
    after opsP2 U (Proc.devRef .tc main_v189)
      = (Host.divf (U (Proc.devRef .tc main_v175)) (broadcastInDim S256x64 ![0, 1] bcast_S256x1_S256x64_0_1 (broadcastInDim S256x1 ![0] bcast_S256_S256x1_0 (maximumf (Host.scatterAdd scatter_S256_S50000x1_S50000_n_0_0_1 (broadcastInDim S256 ![] bcast_S_S256 (constant S_ .f32 0x00000000#32)) (broadcastInDim S50000x1 ![0] bcast_S50000_S50000x1_0 (select (cmpi .slt (U (Proc.devRef .tc main_arg2)) (broadcastInDim S50000 ![] bcast_S_S50000 (constantI S_ 32 0#32))) (addi (U (Proc.devRef .tc main_arg2)) (broadcastInDim S50000 ![] bcast_S_S50000 (constantI S_ 32 256#32))) (U (Proc.devRef .tc main_arg2)))) (broadcastInDim S50000 ![] bcast_S_S50000 (constant S_ .f32 0x3F800000#32))) (broadcastInDim S256 ![] bcast_S_S256 (constant S_ .f32 0x3F800000#32)))))) := by
  simp only [opsP2]
  after_results_simp <;> rfl

set_option maxRecDepth 8192 in
set_option maxHeartbeats 4000000 in
theorem rd_Pu3_v193 (U : Valuation τ sig (Elt F)) :
    after opsP3 U (Proc.devRef .tc main_v193)
      = (addf (Host.dotGeneral dot_S256x64_S64x10_S256x10_1_0_0_1_n_n none (U (Proc.devRef .tc main_v189)) (U (Proc.devRef .tc main_arg9))) (broadcastInDim S256x10 ![0, 1] bcast_S1x10_S256x10_0_1 (broadcastInDim S1x10 ![1] bcast_S10_S1x10_1 (U (Proc.devRef .tc main_arg10))))) := by
  simp only [opsP3]
  after_results_simp <;> rfl

end Stretches

/-- After the first four operations the source row's buffer holds row 0 of the edge list. -/
theorem readA1 (V : Valuation τ sig (Elt Ideal)) :
    runA V (Proc.devRef .tc main_v1) = Cert.RTerm.srcRow (V (Proc.devRef .tc main_arg1)) := by
  unfold runA
  rw [rd_Au1_v1]
  rfl

/-- After the first four operations the target row's buffer holds row 1 of the edge list. -/
theorem readA3 (V : Valuation τ sig (Elt Ideal)) :
    runA V (Proc.devRef .tc main_v3) = Cert.RTerm.dstRow (V (Proc.devRef .tc main_arg1)) := by
  unfold runA
  rw [rd_Au1_v3]
  rfl

set_option maxRecDepth 8192 in
set_option maxHeartbeats 4000000 in
/-- After the read-out's operations the result is the pooling term of the contents before them. -/
theorem readP (V : Valuation τ sig (Elt Ideal)) :
    runP V (Proc.devRef .tc main_v193)
      = Cert.RTerm.rpool (V (Proc.devRef .tc main_v167)) (V (Proc.devRef .tc main_arg2)) (V (Proc.devRef .tc main_arg9)) (V (Proc.devRef .tc main_arg10)) := by
  unfold runP
  rw [rd_Pu3_v193]
  rw [rd_Pu2_v189, opsP2_keep _ main_arg9 (by decide), opsP2_keep _ main_arg10 (by decide)]
  rw [rd_Pu1_v175, opsP1_keep _ main_arg2 (by decide), opsP1_keep _ main_arg9 (by decide), opsP1_keep _ main_arg10 (by decide)]
  rfl

end Cert.RefRun

end
-- ==== Proof.Val.RefRun.lean ====
/-
  The reference program's run, read back as one term of its arguments.

  The reference's operations run in order: first the edge list is split into its two rows, then three layers one after
  the other (each reads the two rows, the previous layer's output, a weight matrix and a bias), then the pooling and
  read-out stage. Each stretch of operations leaves, in the buffer of its last operation, the stretch's term of what it
  read, and leaves every buffer it does not write as it was; composing the stretches gives the nested layer and pooling
  term of the launch contents of the eleven arguments, and the arguments themselves are never written.
-/
import proofs.«413695_j61357902791131_1_alg».proof.Proof.Val.RefRunOps
import proofs.«413695_j61357902791131_1_alg».proof.Proof.Val.RefRows
import proofs.«413695_j61357902791131_1_alg».proof.Proof.Val.RefRunL1
import proofs.«413695_j61357902791131_1_alg».proof.Proof.Val.RefRunL2
import proofs.«413695_j61357902791131_1_alg».proof.Proof.Val.RefRunL3
import proofs.«413695_j61357902791131_1_alg».proof.Proof.Val.RefRunP
import proofs.«413695_j61357902791131_1_alg».proof.Proof.Val.RLayer
import proofs.«413695_j61357902791131_1_alg».proof.Proof.Val.RPool
import proofs.«413695_j61357902791131_1_alg».proof.Proof.Val.RefResult

noncomputable section

namespace Cert.RTerm

open Cert.ReferenceIdeal Cert.ReferenceIdeal.Gen Idealize.ShloMosaic Idealize.ShloMosaic.TcCoe Idealize.SL.Sem
open Idealize.ShloMosaic.StableHlo Cert.RefRun

/-- A buffer that no stretch writes holds, after all of them, what it held before. -/
theorem keep_all (V0 : Valuation τ sig (Elt Ideal)) (r : Ref sig .tc)
    (hA : r ∉ opsA_W) (h1 : r ∉ opsL1_W) (h2 : r ∉ opsL2_W) (h3 : r ∉ opsL3_W) (hP : r ∉ opsP_W) :
    after (ops (F := Ideal)) V0 (Proc.devRef .tc r) = V0 (Proc.devRef .tc r) := by
  rw [after_ops, keepP _ r hP, keepL3 _ r h3, keepL2 _ r h2, keepL1 _ r h1, keepA _ r hA]

/-- After all the stretches the result buffer holds the nested layer and pooling term of the arguments' first contents. -/
theorem read_result (V0 : Valuation τ sig (Elt Ideal)) :
    after (ops (F := Ideal)) V0 (Proc.devRef .tc main_v193)
      = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [after_ops]
  -- the edge list's two rows
  generalize hA : runA (F := Ideal) V0 = VA
  have ak : ∀ r : Ref sig .tc, r ∉ opsA_W → VA (Proc.devRef .tc r) = V0 (Proc.devRef .tc r) :=
    fun r h => by rw [← hA]; exact keepA V0 r h
  have a1 : VA (Proc.devRef .tc main_v1) = srcRow (V0 (Proc.devRef .tc main_arg1)) := by rw [← hA]; exact readA1 V0
  have a3 : VA (Proc.devRef .tc main_v3) = dstRow (V0 (Proc.devRef .tc main_arg1)) := by rw [← hA]; exact readA3 V0
  -- the first layer
  generalize h1 : runL1 (F := Ideal) VA = V1
  have bk : ∀ r : Ref sig .tc, r ∉ opsA_W → r ∉ opsL1_W → V1 (Proc.devRef .tc r) = V0 (Proc.devRef .tc r) :=
    fun r h ha => by rw [← h1, keepL1 VA r ha, ak r h]
  have b1 : V1 (Proc.devRef .tc main_v1) = srcRow (V0 (Proc.devRef .tc main_arg1)) := by
    rw [← h1, keepL1 VA main_v1 (by decide), a1]
  have b3 : V1 (Proc.devRef .tc main_v3) = dstRow (V0 (Proc.devRef .tc main_arg1)) := by
    rw [← h1, keepL1 VA main_v3 (by decide), a3]
  have b58 : V1 (Proc.devRef .tc main_v58)
      = rlayer true (V0 (Proc.devRef .tc main_arg1)) (V0 (Proc.devRef .tc main_arg0)) (V0 (Proc.devRef .tc main_arg3))
          (V0 (Proc.devRef .tc main_arg4)) := by
    rw [← h1, readL1 VA, a1, a3, ak main_arg0 (by decide), ak main_arg3 (by decide), ak main_arg4 (by decide),
      ← rlayer_rows]
  -- the second layer
  generalize h2 : runL2 (F := Ideal) V1 = V2
  have ck : ∀ r : Ref sig .tc, r ∉ opsA_W → r ∉ opsL1_W → r ∉ opsL2_W →
      V2 (Proc.devRef .tc r) = V0 (Proc.devRef .tc r) :=
    fun r h ha hb => by rw [← h2, keepL2 V1 r hb, bk r h ha]
  have c1 : V2 (Proc.devRef .tc main_v1) = srcRow (V0 (Proc.devRef .tc main_arg1)) := by
    rw [← h2, keepL2 V1 main_v1 (by decide), b1]
  have c3 : V2 (Proc.devRef .tc main_v3) = dstRow (V0 (Proc.devRef .tc main_arg1)) := by
    rw [← h2, keepL2 V1 main_v3 (by decide), b3]
  have c113 : V2 (Proc.devRef .tc main_v113)
      = rlayer true (V0 (Proc.devRef .tc main_arg1))
          (rlayer true (V0 (Proc.devRef .tc main_arg1)) (V0 (Proc.devRef .tc main_arg0)) (V0 (Proc.devRef .tc main_arg3))
            (V0 (Proc.devRef .tc main_arg4)))
          (V0 (Proc.devRef .tc main_arg5)) (V0 (Proc.devRef .tc main_arg6)) := by
    rw [← h2, readL2 V1, b1, b3, b58, bk main_arg5 (by decide) (by decide), bk main_arg6 (by decide) (by decide),
      ← rlayer_rows]
  -- the third layer
  generalize h3 : runL3 (F := Ideal) V2 = V3
  have dk : ∀ r : Ref sig .tc, r ∉ opsA_W → r ∉ opsL1_W → r ∉ opsL2_W → r ∉ opsL3_W →
      V3 (Proc.devRef .tc r) = V0 (Proc.devRef .tc r) :=
    fun r h ha hb hc => by rw [← h3, keepL3 V2 r hc, ck r h ha hb]
  have d167 : V3 (Proc.devRef .tc main_v167)
      = rlayer false (V0 (Proc.devRef .tc main_arg1))
          (rlayer true (V0 (Proc.devRef .tc main_arg1))
            (rlayer true (V0 (Proc.devRef .tc main_arg1)) (V0 (Proc.devRef .tc main_arg0)) (V0 (Proc.devRef .tc main_arg3))
              (V0 (Proc.devRef .tc main_arg4)))
            (V0 (Proc.devRef .tc main_arg5)) (V0 (Proc.devRef .tc main_arg6)))
          (V0 (Proc.devRef .tc main_arg7)) (V0 (Proc.devRef .tc main_arg8)) := by
    rw [← h3, readL3 V2, c1, c3, c113, ck main_arg7 (by decide) (by decide) (by decide),
      ck main_arg8 (by decide) (by decide) (by decide), ← rlayer_rows]
  -- the pooling and read-out stage
  rw [readP V3, d167, dk main_arg2 (by decide) (by decide) (by decide) (by decide),
    dk main_arg9 (by decide) (by decide) (by decide) (by decide),
    dk main_arg10 (by decide) (by decide) (by decide) (by decide)]
  rfl

/-- On every device, from any memory with zero counters: every weakly fair execution of the reference program
    terminates with the result buffer at the nested layer and pooling term of the arguments' launch contents, and the
    arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v193)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c main_v193).trans (read_result (launchContents m c)),
      (h c main_arg0).trans (keep_all (launchContents m c) main_arg0 (by decide) (by decide) (by decide) (by decide) (by decide)),
      (h c main_arg1).trans (keep_all (launchContents m c) main_arg1 (by decide) (by decide) (by decide) (by decide) (by decide)),
      (h c main_arg2).trans (keep_all (launchContents m c) main_arg2 (by decide) (by decide) (by decide) (by decide) (by decide)),
      (h c main_arg3).trans (keep_all (launchContents m c) main_arg3 (by decide) (by decide) (by decide) (by decide) (by decide)),
      (h c main_arg4).trans (keep_all (launchContents m c) main_arg4 (by decide) (by decide) (by decide) (by decide) (by decide)),
      (h c main_arg5).trans (keep_all (launchContents m c) main_arg5 (by decide) (by decide) (by decide) (by decide) (by decide)),
      (h c main_arg6).trans (keep_all (launchContents m c) main_arg6 (by decide) (by decide) (by decide) (by decide) (by decide)),
      (h c main_arg7).trans (keep_all (launchContents m c) main_arg7 (by decide) (by decide) (by decide) (by decide) (by decide)),
      (h c main_arg8).trans (keep_all (launchContents m c) main_arg8 (by decide) (by decide) (by decide) (by decide) (by decide)),
      (h c main_arg9).trans (keep_all (launchContents m c) main_arg9 (by decide) (by decide) (by decide) (by decide) (by decide)),
      (h c main_arg10).trans (keep_all (launchContents m c) main_arg10 (by decide) (by decide) (by decide) (by decide) (by decide))⟩)
    (run_after (F := Ideal) m ρ)

end Cert.RTerm

end
-- ==== Proof.LibRowGather.lean ====
/-
  A row gather read at an index.

  jnp's `table[idx]` of a matrix `table : [N, C]` at a vector of row numbers lowers to a `stablehlo.gather` whose
  start indices are the column `[n, 1]` of row numbers: operand axis 0 is collapsed and is the one start-indexed axis,
  axis 1 of the result is the one offset axis and carries the whole row (slice sizes `[1, C]`). Result element
  `(k, q)` is then the table's entry `(r, q)`, where `r` is the `k`-th row number read as a signed integer and
  clamped into `[0, N - 1]`: a row gather never reads outside the table, a negative row number reads row 0 and one
  past the end reads the last row.
-/
import Idealize.ShloMosaic.Lib.ValueIdx

noncomputable section

namespace Idealize.ShloMosaic.RowGather

open Idealize.ShloMosaic Idealize.ShloMosaic.ValueIdx

variable {α : Type}

/-- The dimension numbers of a row gather from a table `[N, C]` by a column `[n, 1]` of row numbers into `[n, C]`; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, q)`: the table at row `idx[k, 0]`, read signed and clamped into `[0, N - 1]`, and
    column `q`. On the row axis the start is the clamped row number and nothing is added to it (the axis is collapsed and
    there is no batching axis); on the column axis the start is zero (the axis is not start-indexed) and the offset is
    the result's own column. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (k : Fin n) (q : Fin C) :
    Host.gather (rowDims N C n wf) x idx (ix2 k q)
      = x (ix2 ⟨min (idx (ix2 k (0 : Fin 1))).toInt.toNat (N - 1), by omega⟩ q) := by
  unfold Host.gather
  congr 1
  funext a
  refine Fin.ext ?_
  match a with
  | ⟨0, _⟩ =>
    show (rowDims N C n wf).start (ix2 k q) idx 0 + (rowDims N C n wf).batchCoord (ix2 k q) 0
        + (rowDims N C n wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 k q) ⟨List.idxOf (0 : Fin 2) (rowDims N C n wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowDims N C n wf).start (ix2 k q) idx 1 + (rowDims N C n wf).batchCoord (ix2 k q) 1
        + (rowDims N C n wf).offCoord (ix2 k q) 1 = q.val
    rw [GatherDims.batchCoord_eq_zero _ _ _ List.not_mem_nil]
    unfold GatherDims.start
    have h1 : ¬ (1 : Fin 2) ∈ ([0] : List (Fin 2)) := by decide
    rw [dif_neg (show ¬ (1 : Fin 2) ∈ (rowDims N C n wf).startIndexMap from h1)]
    unfold GatherDims.offCoord
    rw [dif_pos ((GatherDims.mem_sKept _ _).mpr ⟨h1, List.not_mem_nil⟩), Nat.zero_add]
    rfl

end Idealize.ShloMosaic.RowGather

end
-- ==== Proof.LibRowScatter.lean ====
/-
  A row scatter-add read at an index, over the extended reals.

  jax's `segment_sum(upd, ids, N)` of updates `upd : [n, C]` lowers to a `stablehlo.scatter` with an `add` body whose scatter
  indices are the column `[n, 1]` of row numbers: operand axis 0 is the one inserted window axis and the one scattered axis,
  update axis 1 is the one window axis and carries the whole row. Update element `(e, p)` lands on operand element `(r, p)`
  exactly when the `e`-th row number, read as a signed integer and NOT clamped, is `r`; a row number outside `[0, N)` drops
  its row. Result element `(r, q)` is then the operand's plus the sum of `upd (e, q)` over the rows `e` numbered `r`.
-/
import Mathlib.Algebra.BigOperators.Group.Finset.Defs
import Idealize.ShloMosaic.Lib.ValueIdx
import Idealize.ShloMosaic.PureOps.Ideal

noncomputable section

namespace Idealize.ShloMosaic.RowScatter

open Idealize.ShloMosaic Idealize.ShloMosaic.ValueIdx

/-- The dimension numbers of a row scatter into a table `[N, C]` of updates `[n, C]` by a column `[n, 1]` of row numbers;
    their conditions `wf` are decided on a program's literal shapes. -/
abbrev rowDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- On the row axis the window starts at the update row's number, read signed off the column of row numbers: the axis is the
    one the map names, and the scatter-indices index read is the update's row with `0` on the index vector's axis. -/
theorem start_row {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 0 = (idx (ix2 e (0 : Fin 1))).toInt := by
  unfold ScatterDims.start
  rw [dif_pos (show (0 : Fin 2) ∈ (rowDims N C n wf).scatterDimsToOperandDims from List.mem_singleton.mpr rfl)]
  have hsi : (rowDims N C n wf).siIdx (ix2 e p) ⟨List.idxOf (0 : Fin 2) (rowDims N C n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero: the map does not name that axis. -/
theorem start_col {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) :
    (rowDims N C n wf).start (ix2 e p) idx 1 = 0 := by
  unfold ScatterDims.start
  have h1 : ¬ (1 : Fin 2) ∈ ([0] : List (Fin 2)) := by decide
  rw [dif_neg (show ¬ (1 : Fin 2) ∈ (rowDims N C n wf).scatterDimsToOperandDims from h1)]

/-- The row axis is the inserted window axis: its window coordinate is zero. -/
theorem window_row {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 0 = 0 := by
  unfold ScatterDims.window
  have h0 : ¬ (0 : Fin 2) ∈ ([1] : List (Fin 2)) := by decide
  rw [dif_neg (show ¬ (0 : Fin 2) ∈ (rowDims N C n wf).sKept from h0)]

/-- The column axis is the one kept operand axis: its window coordinate is the update's own column. -/
theorem window_col {N C n : Nat}
    (wf : ScatterDims.WF ⟨2, ![N, C]⟩ ⟨2, ![n, 1]⟩ ⟨2, ![n, C]⟩ [1] [0] [0] 1) (e : Fin n) (p : Fin C) :
    (rowDims N C n wf).window (ix2 e p) 1 = p.val := by
  unfold ScatterDims.window
  rw [dif_pos (show (1 : Fin 2) ∈ (rowDims N C n wf).sKept from List.mem_singleton.mpr rfl)]
  rfl

/-- Where an update element lands: `(e, p)` lands on `(r, q)` exactly when row `e`'s number, read signed, is `r`, and the
    columns agree. -/
theorem resultIdx?_eq_some_iff {N C n w : Nat}
    (wf : ScatterDims.WF ⟨2, ![N, C]⟩ ⟨2, ![n, 1]⟩ ⟨2, ![n, C]⟩ [1] [0] [0] 1)
    (idx : IVec ⟨2, ![n, 1]⟩ w) (e : Fin n) (p : Fin C) (r : Fin N) (q : Fin C) :
    (rowDims N C n wf).resultIdx? (ix2 e p) idx = some (ix2 r q)
      ↔ (idx (ix2 e (0 : Fin 1))).toInt = (r.val : Int) ∧ p = q := by
  have hs0 := start_row wf idx e p
  have hs1 := start_col wf idx e p
  have hw0 := window_row wf e p
  have hw1 := window_col wf e p
  unfold ScatterDims.resultIdx?
  constructor
  · intro h
    split at h
    · rename_i hb
      have hf := Option.some.inj h
      have h0 := congrArg Fin.val (congrFun hf 0)
      have h1 := congrArg Fin.val (congrFun hf 1)
      have hb0 := (hb 0).1
      simp only [hs0, hw0] at h0 hb0
      simp only [hs1, hw1] at h1
      change ((idx (ix2 e (0 : Fin 1))).toInt + ((0 : Nat) : Int)).toNat = r.val at h0
      change ((0 : Int) + (p.val : Int)).toNat = q.val at h1
      refine ⟨by omega, Fin.ext (by omega)⟩
    · exact absurd h (by simp)
  · rintro ⟨hr, rfl⟩
    have hb : ∀ a, 0 ≤ (rowDims N C n wf).start (ix2 e p) idx a + (rowDims N C n wf).window (ix2 e p) a
        ∧ (rowDims N C n wf).start (ix2 e p) idx a + (rowDims N C n wf).window (ix2 e p) a
          < (⟨2, ![N, C]⟩ : Shape).size a := by
      intro a
      match a with
      | ⟨0, _⟩ =>
        have hN : r.val < N := r.isLt
        show 0 ≤ (rowDims N C n wf).start (ix2 e p) idx 0 + (rowDims N C n wf).window (ix2 e p) 0
          ∧ (rowDims N C n wf).start (ix2 e p) idx 0 + (rowDims N C n wf).window (ix2 e p) 0 < (N : Int)
        rw [hs0, hw0, hr]; omega
      | ⟨1, _⟩ =>
        have hC : p.val < C := p.isLt
        show 0 ≤ (rowDims N C n wf).start (ix2 e p) idx 1 + (rowDims N C n wf).window (ix2 e p) 1
          ∧ (rowDims N C n wf).start (ix2 e p) idx 1 + (rowDims N C n wf).window (ix2 e p) 1 < (C : Int)
        rw [hs1, hw1]; omega
    rw [dif_pos hb]
    congr 1
    funext a
    refine Fin.ext ?_
    match a with
    | ⟨0, _⟩ =>
      show ((rowDims N C n wf).start (ix2 e p) idx 0 + (rowDims N C n wf).window (ix2 e p) 0).toNat = r.val
      rw [hs0, hw0, hr]; omega
    | ⟨1, _⟩ =>
      show ((rowDims N C n wf).start (ix2 e p) idx 1 + (rowDims N C n wf).window (ix2 e p) 1).toNat = p.val
      rw [hs1, hw1]; omega

/-- THE ROW SCATTER-ADD READ AT `(r, q)`: the operand's element plus the sum, over the update rows `e` whose row number read
    signed is `r`, of the update's element `(e, q)`. The update elements landing on `(r, q)` are exactly the `(e, q)` with
    row `e` numbered `r`, one for each such row: the sum over them is re-indexed by the row. -/
theorem scatterAdd_rows_apply {N C n w : Nat}
    (wf : ScatterDims.WF ⟨2, ![N, C]⟩ ⟨2, ![n, 1]⟩ ⟨2, ![n, C]⟩ [1] [0] [0] 1)
    (x : (⟨2, ![N, C]⟩ : Shape).Idx → EReal) (idx : IVec ⟨2, ![n, 1]⟩ w)
    (upd : (⟨2, ![n, C]⟩ : Shape).Idx → EReal) (r : Fin N) (q : Fin C) :
    Ideal.hostScatterAdd (rowDims N C n wf) x idx upd (ix2 r q)
      = x (ix2 r q) + ∑ e ∈ Finset.univ.filter (fun e : Fin n => (idx (ix2 e (0 : Fin 1))).toInt = (r.val : Int)),
          upd (ix2 e q) := by
  unfold Ideal.hostScatterAdd
  congr 1
  symm
  refine Finset.sum_nbij' (fun e : Fin n => ix2 e q) (fun j => (j 0 : Fin n)) ?_ ?_ ?_ ?_ ?_
  · intro e he
    rw [Finset.mem_filter] at he ⊢
    exact ⟨Finset.mem_univ _, (resultIdx?_eq_some_iff wf idx e q r q).mpr ⟨he.2, rfl⟩⟩
  · intro j hj
    obtain ⟨e, p, rfl⟩ : ∃ (e : Fin n) (p : Fin C), j = ix2 e p := ⟨j 0, j 1, eq_ix2 j⟩
    rw [Finset.mem_filter] at hj
    exact Finset.mem_filter.mpr ⟨Finset.mem_univ e, ((resultIdx?_eq_some_iff wf idx e p r q).mp hj.2).1⟩
  · intro e _
    rfl
  · intro j hj
    obtain ⟨e, p, rfl⟩ : ∃ (e : Fin n) (p : Fin C), j = ix2 e p := ⟨j 0, j 1, eq_ix2 j⟩
    rw [Finset.mem_filter] at hj
    have hpq := ((resultIdx?_eq_some_iff wf idx e p r q).mp hj.2).2
    subst hpq
    rfl
  · intro e _
    rfl

end Idealize.ShloMosaic.RowScatter

end
-- ==== Proof.Val.LayerLaw.lean ====
/-
  The layer law over the extended reals: the kernel program's layer equals the reference's.

  With `n e` the weight of edge `e`, `s i` the self weight of node `i` (the square of the inverse square root of its
  degree), `S i` the edges whose wrapped target is `i` and `src e` the clamped wrapped source of `e`, the kernel program
  computes at node `i` and feature `j`
      (∑ k, ((0 + ∑ e ∈ S i, x[src e, k] · n e) + s i · x[i, k]) · W[k, j]) + b j
  and the reference
      ((0 + ∑ e ∈ S i, (∑ k, x[src e, k] · W[k, j]) · n e) + (∑ k, x[i, k] · W[k, j]) · s i) + b j.
  Over the reals the two are equal by distributivity and the exchange of the two finite sums. Over the extended reals
  distributivity fails at the infinities, so every factor is first shown to be a real: `x`, `W`, `b` by hypothesis; the
  degree is one plus a finite sum of ones, a positive real, so its inverse square root is a real; a gather of a real
  array is real; `n` and `s` are products of reals.
-/
import proofs.«413695_j61357902791131_1_alg».proof.Proof.Val.KTerm
import proofs.«413695_j61357902791131_1_alg».proof.Proof.Val.RLayer
import proofs.«413695_j61357902791131_1_alg».proof.Proof.LibRowGather
import proofs.«413695_j61357902791131_1_alg».proof.Proof.LibRowScatter
import Idealize.ShloMosaic.PureOps.Ideal.Laws
import Idealize.ShloMosaic.Lib.ValueIdx
import Idealize.ShloMosaic.Lib.ValueLayout
import Idealize.ShloMosaic.Lib.StackMember

noncomputable section

namespace Cert.LayerLaw

open Idealize.ShloMosaic Idealize.ShloMosaic.ValueIdx

/-! ## The algebra -/

/-- A finite sum of reals, each read as an extended real, is their real sum read as an extended real. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The layer law over the reals: multiplying the weighted neighbour sum plus the weighted own row through the weight
    column is the weighted neighbour sum of the mapped rows plus the weighted mapped own row. -/
theorem real_law {E K : Type} [Fintype K] (S : Finset E) (X : E → K → ℝ) (xi W : K → ℝ) (n : E → ℝ) (s b : ℝ) :
    (∑ k, ((∑ e ∈ S, X e k * n e) + s * xi k) * W k) + b
      = ((∑ e ∈ S, (∑ k, X e k * W k) * n e) + (∑ k, xi k * W k) * s) + b := by
  simp only [add_mul, Finset.sum_add_distrib, Finset.sum_mul]
  congr 2
  · rw [Finset.sum_comm]
    exact Finset.sum_congr rfl fun e _ => Finset.sum_congr rfl fun k _ => by ring
  · exact Finset.sum_congr rfl fun k _ => by ring

/-- The layer law over the extended reals, every factor a real: the two readings agree, and their value is a real. -/
theorem ereal_law {E K : Type} [Fintype K] (S : Finset E) (X : E → K → EReal) (xi W : K → EReal) (n : E → EReal)
    (s b : EReal) (hX : ∀ e k, ∃ r : ℝ, X e k = (r : EReal)) (hxi : ∀ k, ∃ r : ℝ, xi k = (r : EReal))
    (hW : ∀ k, ∃ r : ℝ, W k = (r : EReal)) (hn : ∀ e, ∃ r : ℝ, n e = (r : EReal)) (hs : ∃ r : ℝ, s = (r : EReal))
    (hb : ∃ r : ℝ, b = (r : EReal)) :
    (∑ k, ((0 + ∑ e ∈ S, X e k * n e) + s * xi k) * W k) + b
        = ((0 + ∑ e ∈ S, (∑ k, X e k * W k) * n e) + (∑ k, xi k * W k) * s) + b
      ∧ ∃ r : ℝ, (∑ k, ((0 + ∑ e ∈ S, X e k * n e) + s * xi k) * W k) + b = (r : EReal) := by
  choose Xr hXr using hX
  choose xir hxir using hxi
  choose Wr hWr using hW
  choose nr hnr using hn
  obtain ⟨sr, rfl⟩ := hs
  obtain ⟨br, rfl⟩ := hb
  have e1 : (∑ k, ((0 + ∑ e ∈ S, X e k * n e) + (sr : EReal) * xi k) * W k) + (br : EReal)
      = (((∑ k, ((∑ e ∈ S, Xr e k * nr e) + sr * xir k) * Wr k) + br : ℝ) : EReal) := by
    simp only [hXr, hxir, hWr, hnr, zero_add, ← EReal.coe_mul, ← EReal.coe_add, coe_sum]
  have e2 : ((0 + ∑ e ∈ S, (∑ k, X e k * W k) * n e) + (∑ k, xi k * W k) * (sr : EReal)) + (br : EReal)
      = ((((∑ e ∈ S, (∑ k, Xr e k * Wr k) * nr e) + (∑ k, xir k * Wr k) * sr) + br : ℝ) : EReal) := by
    simp only [hXr, hxir, hWr, hnr, zero_add, ← EReal.coe_mul, ← EReal.coe_add, coe_sum]
  refine ⟨?_, _, e1⟩
  rw [e1, e2, real_law]

/-! ## Layout reads -/

/-- A vector made a column and spread over `c` columns reads, at `(e, q)`, its entry `e`. -/
theorem spread_col {α : Type} {n c : ℕ} (hn : n ≠ 1) (v : (⟨1, ![n]⟩ : Shape).Idx → α)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) (e : Fin n) (q : Fin c) :
    broadcastInDim ⟨2, ![n, c]⟩ ![0, 1] h2 (broadcastInDim ⟨2, ![n, 1]⟩ ![0] h1 v) (ix2 e q) = v (ix1 e) := by
  rw [broadcastInDim_apply ![0, 1] h2 _ (ix2 e q) (ix2 e (0 : Fin 1)) (fun a => by
    match a with
    | ⟨0, _⟩ => exact (if_neg hn).symm
    | ⟨1, _⟩ => rfl)]
  exact broadcastInDim_apply ![0] h1 v (ix2 e (0 : Fin 1)) (ix1 e) (fun a => by
    match a with
    | ⟨0, _⟩ => exact (if_neg hn).symm)

/-- A vector made a row and spread over `n` rows reads, at `(i, q)`, its entry `q`. -/
theorem spread_row {α : Type} {n c : ℕ} (hc : c ≠ 1) (v : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (i : Fin n) (q : Fin c) :
    broadcastInDim ⟨2, ![n, c]⟩ ![0, 1] h2 (broadcastInDim ⟨2, ![1, c]⟩ ![1] h1 v) (ix2 i q) = v (ix1 q) := by
  rw [broadcastInDim_apply ![0, 1] h2 _ (ix2 i q) (ix2 (0 : Fin 1) q) (fun a => by
    match a with
    | ⟨0, _⟩ => rfl
    | ⟨1, _⟩ => exact (if_neg hc).symm)]
  exact broadcastInDim_apply ![1] h1 v (ix2 (0 : Fin 1) q) (ix1 q) (fun a => by
    match a with
    | ⟨0, _⟩ => exact (if_neg hc).symm)

/-- The all-zero array reads zero. -/
theorem zeros_apply {T : Shape} (h : (⟨0, ![]⟩ : Shape).BroadcastsInDim T (![] : Fin 0 → Fin T.rank)) (j : T.Idx) :
    broadcastInDim T ![] h (constant (F := Ideal) ⟨0, ![]⟩ .f32 0x00000000#32) j = (0 : EReal) := by
  rw [broadcastInDim_apply ![] h _ j ix0 (fun a => a.elim0), constant_apply]
  exact Ideal.ofBits_zero_f32

/-- The all-one array reads one. -/
theorem ones_apply {T : Shape} (h : (⟨0, ![]⟩ : Shape).BroadcastsInDim T (![] : Fin 0 → Fin T.rank)) (j : T.Idx) :
    broadcastInDim T ![] h (constant (F := Ideal) ⟨0, ![]⟩ .f32 0x3F800000#32) j = (1 : EReal) := by
  rw [broadcastInDim_apply ![] h _ j ix0 (fun a => a.elim0), constant_apply]
  exact IdealRules.sign_bit.ideal_onePat .f32

/-- A vector cast to a column reads, at `(i, u)`, its entry `i`. -/
theorem column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The neighbour sum -/

/-- The edges whose target column entry, read signed, is node `i`. -/
def into (dI : IVec ⟨2, ![800000, 1]⟩ 32) (i : Fin 50000) : Finset (Fin 800000) :=
  Finset.univ.filter fun e => (dI (ix2 e (0 : Fin 1))).toInt = (i.val : Int)

/-- The row an edge's source column entry reads: signed, clamped into the table. -/
def rowOf (sI : IVec ⟨2, ![800000, 1]⟩ 32) (e : Fin 800000) : Fin 50000 :=
  ⟨min (sI (ix2 e (0 : Fin 1))).toInt.toNat (50000 - 1), by omega⟩

/-- The accumulating scatter over the extended reals is the exact one. -/
theorem scatterAdd_eq {s si u : Shape} {w : ℕ} (d : ScatterDims s si u) (x : FVec Ideal s .f32) (idx : IVec si w)
    (upd : FVec Ideal u .f32) :
    Host.scatterAdd (F := Ideal) (φ := .f32) d x idx upd = Ideal.hostScatterAdd d x idx upd := rfl

/-- The weighted neighbour sum of the rows of a table `x`, at node `i` and feature `k`: zero plus the sum over the edges
    into `i` of the source's row entry times the edge's weight. -/
theorem neighbourSum_apply
    (ds : ScatterDims ⟨2, ![50000, 64]⟩ ⟨2, ![800000, 1]⟩ ⟨2, ![800000, 64]⟩)
    (ws : ScatterDims.WF ⟨2, ![50000, 64]⟩ ⟨2, ![800000, 1]⟩ ⟨2, ![800000, 64]⟩ [1] [0] [0] 1)
    (hds : ds = RowScatter.rowDims 50000 64 800000 ws)
    (dg : GatherDims ⟨2, ![50000, 64]⟩ ⟨2, ![800000, 1]⟩ ⟨2, ![800000, 64]⟩)
    (wg : GatherDims.WF ⟨2, ![50000, 64]⟩ ⟨2, ![800000, 1]⟩ ⟨2, ![800000, 64]⟩ [1] [0] [] [0] [] 1 ![1, 64])
    (hdg : dg = RowGather.rowDims 50000 64 800000 wg)
    (h0 : (⟨0, ![]⟩ : Shape).BroadcastsInDim ⟨2, ![50000, 64]⟩ (![] : Fin 0 → Fin 2))
    (h1 : (⟨1, ![800000]⟩ : Shape).BroadcastsInDim ⟨2, ![800000, 1]⟩ (![0] : Fin 1 → Fin 2))
    (h2 : (⟨2, ![800000, 1]⟩ : Shape).BroadcastsInDim ⟨2, ![800000, 64]⟩ (![0, 1] : Fin 2 → Fin 2))
    (x : FVec Ideal ⟨2, ![50000, 64]⟩ .f32) (sI dI : IVec ⟨2, ![800000, 1]⟩ 32)
    (nrm : FVec Ideal ⟨1, ![800000]⟩ .f32) (i : Fin 50000) (k : Fin 64) :
    Host.scatterAdd (F := Ideal) (φ := .f32) ds
        (broadcastInDim ⟨2, ![50000, 64]⟩ ![] h0 (constant (F := Ideal) ⟨0, ![]⟩ .f32 0x00000000#32)) dI
        (mulf (F := Ideal) (φ := .f32) (Host.gather dg x sI)
          (broadcastInDim ⟨2, ![800000, 64]⟩ ![0, 1] h2 (broadcastInDim ⟨2, ![800000, 1]⟩ ![0] h1 nrm))) (ix2 i k)
      = 0 + ∑ e ∈ into dI i, x (ix2 (rowOf sI e) k) * nrm (ix1 e) := by
  subst hds hdg
  rw [scatterAdd_eq, RowScatter.scatterAdd_rows_apply, zeros_apply]
  unfold into rowOf
  refine congrArg (0 + ·) (Finset.sum_congr rfl fun e _ => ?_)
  rw [mulf_apply, RowGather.gather_rows_apply (by decide) wg x sI e k, spread_col (by decide) nrm h1 h2 e k]

/-! ## Every factor is a real -/

/-- A product of two reals is a real. -/
theorem mul_real {a b : EReal} (ha : ∃ r : ℝ, a = (r : EReal)) (hb : ∃ r : ℝ, b = (r : EReal)) :
    ∃ r : ℝ, a * b = (r : EReal) := by
  obtain ⟨u, rfl⟩ := ha
  obtain ⟨v, rfl⟩ := hb
  exact ⟨u * v, (EReal.coe_mul u v).symm⟩

/-- The inverse square root of one plus a count of ones is a real: the count is a finite sum of ones, a nonnegative
    real, so the argument is a positive real. -/
theorem rsqrt_count_real {s si su : Shape} {w : ℕ} (d : ScatterDims s si su) (idx : IVec si w)
    (z o' : FVec Ideal s .f32) (o : FVec Ideal su .f32) (hz : ∀ p, z p = (0 : EReal)) (ho : ∀ j, o j = (1 : EReal))
    (ho' : ∀ p, o' p = (1 : EReal)) (p : s.Idx) :
    ∃ r : ℝ, Host.rsqrt (F := Ideal) (φ := .f32)
      (addf (F := Ideal) (φ := .f32) (Host.scatterAdd (F := Ideal) (φ := .f32) d z idx o) o') p = (r : EReal) := by
  rw [scatterAdd_eq]
  show ∃ r : ℝ, Ideal.rsqrt ((z p + ∑ j ∈ Finset.univ.filter (fun j => d.resultIdx? j idx = some p), o j) + o' p)
    = (r : EReal)
  have hc : ∑ j ∈ Finset.univ.filter (fun j => d.resultIdx? j idx = some p), o j
      = ((∑ _j ∈ Finset.univ.filter (fun j => d.resultIdx? j idx = some p), (1 : ℝ) : ℝ) : EReal) := by
    rw [← coe_sum]
    exact Finset.sum_congr rfl fun j _ => (ho j).trans EReal.coe_one.symm
  rw [hz, ho', hc, zero_add, ← EReal.coe_one, ← EReal.coe_add]
  have hpos : 0 < (∑ _j ∈ Finset.univ.filter (fun j => d.resultIdx? j idx = some p), (1 : ℝ)) + 1 :=
    add_pos_of_nonneg_of_pos (Finset.sum_nonneg fun _ _ => zero_le_one) one_pos
  rw [Ideal.rsqrt_coe, if_neg (not_lt.mpr hpos.le), if_neg hpos.ne']
  exact ⟨_, rfl⟩

/-- A gather of an array of reals reads a real. -/
theorem gather_real {s si t : Shape} {w : ℕ} (d : GatherDims s si t) (x : s.Idx → EReal) (idx : IVec si w)
    (hx : ∀ p, ∃ r : ℝ, x p = (r : EReal)) (j : t.Idx) : ∃ r : ℝ, Host.gather d x idx j = (r : EReal) :=
  hx (d.operandIdx j idx)

/-- The inverse square root of every node's degree is a real. -/
theorem dinv_real (ei : IVec Cert.KernelIdeal.S2x800000 32) (p : Cert.KernelIdeal.S50000.Idx) :
    ∃ r : ℝ, Cert.KTerm.dinv ei p = (r : EReal) := by
  unfold Cert.KTerm.dinv
  exact rsqrt_count_real _ _ _ _ _ (zeros_apply _) (ones_apply _) (ones_apply _) p

/-- Every edge's weight is a real. -/
theorem norm_real (ei : IVec Cert.KernelIdeal.S2x800000 32) (q : Cert.KernelIdeal.S800000.Idx) :
    ∃ r : ℝ, Cert.KTerm.norm ei q = (r : EReal) := by
  unfold Cert.KTerm.norm
  rw [mulf_apply]
  exact mul_real (gather_real _ _ _ (dinv_real ei) q) (gather_real _ _ _ (dinv_real ei) q)

/-! ## The kernel program's layer at an index -/

open Cert.KernelIdeal Cert.KernelIdeal.Gen in
/-- The kernel program's neighbour sum at node `i` and feature `k`. -/
theorem agg_at (ei : IVec Cert.KernelIdeal.S2x800000 32) (x : FVec Ideal Cert.KernelIdeal.S50000x64 .f32)
    (i : Fin 50000) (k : Fin 64) :
    Cert.KTerm.agg ei x (ix2 i k)
      = 0 + ∑ e ∈ into (Cert.KTerm.dstIdx ei) i,
          x (ix2 (rowOf (Cert.KTerm.srcIdx ei) e) k) * Cert.KTerm.norm ei (ix1 e) := by
  unfold Cert.KTerm.agg
  exact neighbourSum_apply _ scatter_S50000x64_S800000x1_S800000x64_1_0_0_1_wf rfl
    _ gather_S50000x64_S800000x1_S800000x64_1_0_n_n_0_1_164_wf rfl _ _ _ x _ _ _ i k

/-- The kernel program's self weight at node `i`. -/
theorem selfScale_at (ei : IVec Cert.KernelIdeal.S2x800000 32) (i : Fin 50000) :
    Cert.KTerm.selfScale ei (ix2 i (0 : Fin 1)) = Cert.KTerm.dinv ei (ix1 i) * Cert.KTerm.dinv ei (ix1 i) := by
  unfold Cert.KTerm.selfScale
  rw [column_apply, mulf_apply]

/-- The kernel program's bias row at feature `j`. -/
theorem bias2_at (b : FVec Ideal Cert.KernelIdeal.S64 .f32) (j : Fin 64) :
    Cert.KTerm.bias2 b (ix2 (0 : Fin 1) j) = b (ix1 j) := by
  unfold Cert.KTerm.bias2
  exact shapeCast_a_1a_apply b _ 0 j

/-- The kernel program's layer before the clamp, at node `i` and feature `j`. -/
theorem kernel_at (ei : IVec Cert.KernelIdeal.S2x800000 32) (x : FVec Ideal Cert.KernelIdeal.S50000x64 .f32)
    (W : FVec Ideal Cert.KernelIdeal.S64x64 .f32) (b : FVec Ideal Cert.KernelIdeal.S64 .f32) (i : Fin 50000) (j : Fin 64) :
    Cert.Spec.combineAt (Cert.KTerm.agg ei x) x (Cert.KTerm.selfScale ei) W (Cert.KTerm.bias2 b) i j
      = (∑ k : Fin 64, ((0 + ∑ e ∈ into (Cert.KTerm.dstIdx ei) i,
              x (ix2 (rowOf (Cert.KTerm.srcIdx ei) e) k) * Cert.KTerm.norm ei (ix1 e))
            + Cert.KTerm.dinv ei (ix1 i) * Cert.KTerm.dinv ei (ix1 i) * x (ix2 i k)) * W (ix2 k j)) + b (ix1 j) := by
  unfold Cert.Spec.combineAt
  rw [bias2_at, selfScale_at]
  refine congrArg (· + b (ix1 j)) (Finset.sum_congr rfl fun k _ => ?_)
  rw [agg_at]

/-! ## The reference's layer at an index -/

/-- The two programs spell the wrapped source column, the wrapped target column, the inverse square root of the degree and
    the edge weight by the same operations. -/
theorem srcIdx_eq (ei : IVec Cert.KernelIdeal.S2x800000 32) : Cert.RTerm.srcIdx ei = Cert.KTerm.srcIdx ei := rfl
theorem dstIdx_eq (ei : IVec Cert.KernelIdeal.S2x800000 32) : Cert.RTerm.dstIdx ei = Cert.KTerm.dstIdx ei := rfl
theorem dinv_eq (ei : IVec Cert.KernelIdeal.S2x800000 32) : Cert.RTerm.dinv ei = Cert.KTerm.dinv ei := rfl
theorem norm_eq (ei : IVec Cert.KernelIdeal.S2x800000 32) : Cert.RTerm.norm ei = Cert.KTerm.norm ei := rfl

/-- The reference's linear map at node `i` and feature `j`: the sum over the 64 contracted features. -/
theorem lin_at (x : FVec Ideal Cert.ReferenceIdeal.S50000x64 .f32) (W : FVec Ideal Cert.ReferenceIdeal.S64x64 .f32)
    (i : Fin 50000) (j : Fin 64) :
    Cert.RTerm.lin x W (ix2 i j) = ∑ k : Fin 64, x (ix2 i k) * W (ix2 k j) := by
  unfold Cert.RTerm.lin
  exact StackMember.dotGeneral_plain_apply none x W i j

open Cert.ReferenceIdeal Cert.ReferenceIdeal.Gen in
/-- The reference's layer before the clamp, at node `i` and feature `j`. -/
theorem reference_at (ei : IVec Cert.ReferenceIdeal.S2x800000 32) (x : FVec Ideal Cert.ReferenceIdeal.S50000x64 .f32)
    (W : FVec Ideal Cert.ReferenceIdeal.S64x64 .f32) (b : FVec Ideal Cert.ReferenceIdeal.S64 .f32) (i : Fin 50000)
    (j : Fin 64) :
    Cert.RTerm.pre ei x W b (ix2 i j)
      = ((0 + ∑ e ∈ into (Cert.KTerm.dstIdx ei) i,
              (∑ k : Fin 64, x (ix2 (rowOf (Cert.KTerm.srcIdx ei) e) k) * W (ix2 k j)) * Cert.KTerm.norm ei (ix1 e))
          + (∑ k : Fin 64, x (ix2 i k) * W (ix2 k j)) * (Cert.KTerm.dinv ei (ix1 i) * Cert.KTerm.dinv ei (ix1 i)))
        + b (ix1 j) := by
  have hN := neighbourSum_apply scatter_S50000x64_S800000x1_S800000x64_1_0_0_1
    scatter_S50000x64_S800000x1_S800000x64_1_0_0_1_wf rfl gather_S50000x64_S800000x1_S800000x64_1_0_n_n_0_1_164
    gather_S50000x64_S800000x1_S800000x64_1_0_n_n_0_1_164_wf rfl bcast_S_S50000x64 bcast_S800000_S800000x1_0
    bcast_S800000x1_S800000x64_0_1 (Cert.RTerm.lin x W) (Cert.RTerm.srcIdx ei) (Cert.RTerm.dstIdx ei)
    (Cert.RTerm.norm ei) i j
  have hS := spread_col (by decide) (mulf (F := Ideal) (φ := .f32) (Cert.RTerm.dinv ei) (Cert.RTerm.dinv ei))
    bcast_S50000_S50000x1_0 bcast_S50000x1_S50000x64_0_1 i j
  have hB := spread_row (by decide) b bcast_S64_S1x64_1 bcast_S1x64_S50000x64_0_1 i j
  unfold Cert.RTerm.pre
  rw [addf_apply, addf_apply, mulf_apply, hN, hS, mulf_apply, hB, srcIdx_eq, dstIdx_eq, dinv_eq, norm_eq]
  simp only [lin_at]

/-! ## The law -/

/-- The kernel program's layer without the clamp, at an index. -/
theorem layer_false_at (ei : IVec Cert.KernelIdeal.S2x800000 32) (x : FVec Ideal Cert.KernelIdeal.S50000x64 .f32)
    (W : FVec Ideal Cert.KernelIdeal.S64x64 .f32) (b : FVec Ideal Cert.KernelIdeal.S64 .f32) (i : Fin 50000) (j : Fin 64) :
    Cert.KTerm.layer false ei x W b (ix2 i j)
      = Cert.Spec.combineAt (Cert.KTerm.agg ei x) x (Cert.KTerm.selfScale ei) W (Cert.KTerm.bias2 b) i j := by
  unfold Cert.KTerm.layer Cert.Spec.combine
  exact if_neg Bool.false_ne_true

/-- The kernel program's layer with the clamp, at an index. -/
theorem layer_true_at (ei : IVec Cert.KernelIdeal.S2x800000 32) (x : FVec Ideal Cert.KernelIdeal.S50000x64 .f32)
    (W : FVec Ideal Cert.KernelIdeal.S64x64 .f32) (b : FVec Ideal Cert.KernelIdeal.S64 .f32) (i : Fin 50000) (j : Fin 64) :
    Cert.KTerm.layer true ei x W b (ix2 i j)
      = max (Cert.Spec.combineAt (Cert.KTerm.agg ei x) x (Cert.KTerm.selfScale ei) W (Cert.KTerm.bias2 b) i j) 0 := by
  unfold Cert.KTerm.layer Cert.Spec.combine
  exact if_pos rfl

/-- The reference's layer without the clamp is the unclamped term. -/
theorem rlayer_false_at (ei : IVec Cert.ReferenceIdeal.S2x800000 32) (x : FVec Ideal Cert.ReferenceIdeal.S50000x64 .f32)
    (W : FVec Ideal Cert.ReferenceIdeal.S64x64 .f32) (b : FVec Ideal Cert.ReferenceIdeal.S64 .f32)
    (y : Cert.ReferenceIdeal.S50000x64.Idx) :
    Cert.RTerm.rlayer false ei x W b y = Cert.RTerm.pre ei x W b y := by
  unfold Cert.RTerm.rlayer
  rfl

/-- The reference's layer with the clamp, at an index: the maximum of the unclamped term and zero. -/
theorem rlayer_true_at (ei : IVec Cert.ReferenceIdeal.S2x800000 32) (x : FVec Ideal Cert.ReferenceIdeal.S50000x64 .f32)
    (W : FVec Ideal Cert.ReferenceIdeal.S64x64 .f32) (b : FVec Ideal Cert.ReferenceIdeal.S64 .f32)
    (y : Cert.ReferenceIdeal.S50000x64.Idx) :
    Cert.RTerm.rlayer true ei x W b y = max (Cert.RTerm.pre ei x W b y) 0 := by
  unfold Cert.RTerm.rlayer
  show maximumf _ _ _ = _
  rw [maximumf_apply, zeros_apply]

/-- At every index the kernel program's layer is the reference's, and its value is a real. -/
theorem layer_at (relu : Bool) (ei : IVec Cert.KernelIdeal.S2x800000 32) (x : FVec Ideal Cert.KernelIdeal.S50000x64 .f32)
    (W : FVec Ideal Cert.KernelIdeal.S64x64 .f32) (b : FVec Ideal Cert.KernelIdeal.S64 .f32)
    (hx : ∀ i, ∃ r : ℝ, x i = (r : EReal)) (hW : ∀ i, ∃ r : ℝ, W i = (r : EReal))
    (hb : ∀ i, ∃ r : ℝ, b i = (r : EReal)) (y : Cert.KernelIdeal.S50000x64.Idx) :
    Cert.KTerm.layer relu ei x W b y = Cert.RTerm.rlayer relu ei x W b y
      ∧ ∃ r : ℝ, Cert.KTerm.layer relu ei x W b y = (r : EReal) := by
  obtain ⟨i, j, rfl⟩ : ∃ (i : Fin 50000) (j : Fin 64), y = ix2 i j := ⟨y 0, y 1, eq_ix2 y⟩
  have key := ereal_law (into (Cert.KTerm.dstIdx ei) i) (fun e k => x (ix2 (rowOf (Cert.KTerm.srcIdx ei) e) k))
    (fun k => x (ix2 i k)) (fun k => W (ix2 k j)) (fun e => Cert.KTerm.norm ei (ix1 e))
    (Cert.KTerm.dinv ei (ix1 i) * Cert.KTerm.dinv ei (ix1 i)) (b (ix1 j)) (fun _ _ => hx _) (fun _ => hx _)
    (fun _ => hW _) (fun _ => norm_real ei _) (mul_real (dinv_real ei _) (dinv_real ei _)) (hb _)
  beta_reduce at key
  obtain ⟨hKR, r, hr⟩ := key
  rw [← kernel_at ei x W b i j] at hKR hr
  rw [← reference_at ei x W b i j] at hKR
  cases relu
  · rw [layer_false_at, rlayer_false_at]
    exact ⟨hKR, r, hr⟩
  · rw [layer_true_at, rlayer_true_at, ← hKR]
    refine ⟨rfl, ?_⟩
    rw [hr]
    rcases le_total ((r : ℝ) : EReal) 0 with h | h
    · exact ⟨0, (max_eq_right h).trans EReal.coe_zero.symm⟩
    · exact ⟨r, max_eq_left h⟩

/-- THE LAYER LAW: on real inputs the kernel program's layer is the reference's. -/
theorem layer_eq (relu : Bool) (ei : IVec Cert.KernelIdeal.S2x800000 32) (x : FVec Ideal Cert.KernelIdeal.S50000x64 .f32)
    (W : FVec Ideal Cert.KernelIdeal.S64x64 .f32) (b : FVec Ideal Cert.KernelIdeal.S64 .f32)
    (hx : ∀ i, ∃ r : ℝ, x i = (r : EReal)) (hW : ∀ i, ∃ r : ℝ, W i = (r : EReal))
    (hb : ∀ i, ∃ r : ℝ, b i = (r : EReal)) :
    Cert.KTerm.layer relu ei x W b = Cert.RTerm.rlayer relu ei x W b :=
  funext fun y => (layer_at relu ei x W b hx hW hb y).1

/-- On real inputs every entry of the kernel program's layer is a real. -/
theorem layer_real (relu : Bool) (ei : IVec Cert.KernelIdeal.S2x800000 32) (x : FVec Ideal Cert.KernelIdeal.S50000x64 .f32)
    (W : FVec Ideal Cert.KernelIdeal.S64x64 .f32) (b : FVec Ideal Cert.KernelIdeal.S64 .f32)
    (hx : ∀ i, ∃ r : ℝ, x i = (r : EReal)) (hW : ∀ i, ∃ r : ℝ, W i = (r : EReal))
    (hb : ∀ i, ∃ r : ℝ, b i = (r : EReal)) :
    ∀ i, ∃ r : ℝ, Cert.KTerm.layer relu ei x W b i = (r : EReal) :=
  fun y => (layer_at relu ei x W b hx hW hb y).2

end Cert.LayerLaw

end
-- ==== Proof.Val.PoolLaw.lean ====
/-
  The pool law, over the extended reals.

  The pooled read-out written with the indicator of the node labels,
      sum[g, k] = ∑ n, hot (label n) g · h[n, k],   cnt[g] = ∑ n, hot (label n) g,
      out[g, j] = (∑ k, (sum[g, k] / max cnt[g] 1) · Wfc[k, j]) + bfc[j],
  is the reference's pooling and read-out stage: the indicator is one exactly at the nodes whose label, read signed, is
  `g` (and `0 · v = 0`, `1 · v = v` for every extended real `v`), so both sums run over the nodes the graph owns; that is
  what a scatter-add onto zeros by the column of labels reads at `g` — by rows for the sums, by single elements (ones)
  for the counts. A label that is not negative is not wrapped. Both sides then divide by the count clamped below at one,
  contract with the read-out matrix and add the bias. No distributivity is used, so nothing is asked of the entries.
-/
import proofs.«413695_j61357902791131_1_alg».proof.Proof.Val.KTerm
import proofs.«413695_j61357902791131_1_alg».proof.Proof.Val.RPool
import proofs.«413695_j61357902791131_1_alg».proof.Proof.LibRowScatter
import Idealize.ShloMosaic.PureOps.Ideal.Laws
import Idealize.ShloMosaic.Lib.ValueIdx
import Idealize.ShloMosaic.Lib.ValueLayout
import Idealize.ShloMosaic.Lib.IdealHost

noncomputable section

namespace Cert.PoolLaw

open Idealize.ShloMosaic Idealize.ShloMosaic.ValueIdx

/-- The dimension numbers of a scatter into a vector `[N]` of updates `[n]` by a column `[n, 1]` of positions. -/
abbrev vecDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- The window starts at the update's position, read signed off the column of positions. -/
theorem vec_start {N n w : Nat}
    (wf : ScatterDims.WF ⟨1, ![N]⟩ ⟨2, ![n, 1]⟩ ⟨1, ![n]⟩ [] [0] [0] 1)
    (idx : IVec ⟨2, ![n, 1]⟩ w) (e : Fin n) :
    (vecDims N n wf).start (ix1 e) idx 0 = (idx (ix2 e (0 : Fin 1))).toInt := by
  unfold ScatterDims.start
  rw [dif_pos (show (0 : Fin 1) ∈ (vecDims N n wf).scatterDimsToOperandDims from List.mem_singleton.mpr rfl)]
  have hsi : (vecDims N n wf).siIdx (ix1 e) ⟨List.idxOf (0 : Fin 1) (vecDims N n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is the inserted window axis: its window coordinate is zero. -/
theorem vec_window {N n : Nat}
    (wf : ScatterDims.WF ⟨1, ![N]⟩ ⟨2, ![n, 1]⟩ ⟨1, ![n]⟩ [] [0] [0] 1) (e : Fin n) :
    (vecDims N n wf).window (ix1 e) 0 = 0 := by
  unfold ScatterDims.window
  have h0 : ¬ (0 : Fin 1) ∈ ([] : List (Fin 1)) := by decide
  rw [dif_neg (show ¬ (0 : Fin 1) ∈ (vecDims N n wf).sKept from h0)]

/-- Where an update lands: update `e` lands on `r` exactly when its position, read signed, is `r`. -/
theorem vec_resultIdx?_eq_some_iff {N n w : Nat}
    (wf : ScatterDims.WF ⟨1, ![N]⟩ ⟨2, ![n, 1]⟩ ⟨1, ![n]⟩ [] [0] [0] 1)
    (idx : IVec ⟨2, ![n, 1]⟩ w) (e : Fin n) (r : Fin N) :
    (vecDims N n wf).resultIdx? (ix1 e) idx = some (ix1 r)
      ↔ (idx (ix2 e (0 : Fin 1))).toInt = (r.val : Int) := by
  have hs0 := vec_start wf idx e
  have hw0 := vec_window wf e
  unfold ScatterDims.resultIdx?
  constructor
  · intro h
    split at h
    · rename_i hb
      have hf := Option.some.inj h
      have h0 := congrArg Fin.val (congrFun hf 0)
      have hb0 := (hb 0).1
      simp only [hs0, hw0] at h0 hb0
      change ((idx (ix2 e (0 : Fin 1))).toInt + ((0 : Nat) : Int)).toNat = r.val at h0
      omega
    · exact absurd h (by simp)
  · intro hr
    have hb : ∀ a, 0 ≤ (vecDims N n wf).start (ix1 e) idx a + (vecDims N n wf).window (ix1 e) a
        ∧ (vecDims N n wf).start (ix1 e) idx a + (vecDims N n wf).window (ix1 e) a
          < (⟨1, ![N]⟩ : Shape).size a := by
      intro a
      match a with
      | ⟨0, _⟩ =>
        have hN : r.val < N := r.isLt
        show 0 ≤ (vecDims N n wf).start (ix1 e) idx 0 + (vecDims N n wf).window (ix1 e) 0
          ∧ (vecDims N n wf).start (ix1 e) idx 0 + (vecDims N n wf).window (ix1 e) 0 < (N : Int)
        rw [hs0, hw0, hr]; omega
    rw [dif_pos hb]
    congr 1
    funext a
    refine Fin.ext ?_
    match a with
    | ⟨0, _⟩ =>
      show ((vecDims N n wf).start (ix1 e) idx 0 + (vecDims N n wf).window (ix1 e) 0).toNat = r.val
      rw [hs0, hw0, hr]; omega

/-- The vector scatter-add read at `r`: the operand's element plus the sum of the updates whose position, read signed,
    is `r`. -/
theorem scatterAdd_vec_apply {N n w : Nat}
    (wf : ScatterDims.WF ⟨1, ![N]⟩ ⟨2, ![n, 1]⟩ ⟨1, ![n]⟩ [] [0] [0] 1)
    (x : (⟨1, ![N]⟩ : Shape).Idx → EReal) (idx : IVec ⟨2, ![n, 1]⟩ w)
    (upd : (⟨1, ![n]⟩ : Shape).Idx → EReal) (r : Fin N) :
    Ideal.hostScatterAdd (vecDims N n wf) x idx upd (ix1 r)
      = x (ix1 r) + ∑ e ∈ Finset.univ.filter (fun e : Fin n => (idx (ix2 e (0 : Fin 1))).toInt = (r.val : Int)),
          upd (ix1 e) := by
  unfold Ideal.hostScatterAdd
  congr 1
  symm
  refine Finset.sum_nbij' (fun e : Fin n => ix1 e) (fun j => (j 0 : Fin n)) ?_ ?_ ?_ ?_ ?_
  · intro e he
    rw [Finset.mem_filter] at he ⊢
    exact ⟨Finset.mem_univ _, (vec_resultIdx?_eq_some_iff wf idx e r).mpr he.2⟩
  · intro j hj
    obtain ⟨e, rfl⟩ : ∃ (e : Fin n), j = ix1 e := ⟨j 0, eq_ix1 j⟩
    rw [Finset.mem_filter] at hj
    exact Finset.mem_filter.mpr ⟨Finset.mem_univ e, (vec_resultIdx?_eq_some_iff wf idx e r).mp hj.2⟩
  · intro e _
    rfl
  · intro j hj
    obtain ⟨e, rfl⟩ : ∃ (e : Fin n), j = ix1 e := ⟨j 0, eq_ix1 j⟩
    rfl
  · intro e _
    rfl

/-! ## The node labels -/

/-- The labels as a column read the labels. -/
theorem labels2_apply (bt : IVec ⟨1, ![50000]⟩ 32) (n : Fin 50000) :
    Cert.KTerm.labels2 bt (ix2 n (0 : Fin 1)) = bt (ix1 n) := by
  unfold Cert.KTerm.labels2
  exact shapeCast_apply bt _ (ix2 n (0 : Fin 1)) (ix1 n) (by
    rw [Shape.rowMajor_val_one, Shape.rowMajor_val_two]
    show n.val = n.val * 1 + 0
    omega)

/-- The read-out's bias as a row reads the bias. -/
theorem biasfc2_apply (bfc : FVec Ideal ⟨1, ![10]⟩ .f32) (j : Fin 10) :
    Cert.KTerm.biasfc2 bfc (ix2 (0 : Fin 1) j) = bfc (ix1 j) := by
  unfold Cert.KTerm.biasfc2
  exact shapeCast_a_1a_apply bfc _ 0 j

/-- A label that is not negative is not wrapped. -/
theorem wrapLabels_apply (bt : IVec ⟨1, ![50000]⟩ 32) (n : Fin 50000) (h0 : 0 ≤ (bt (ix1 n)).toInt) :
    Cert.RTerm.wrapLabels bt (ix1 n) = bt (ix1 n) := by
  unfold Cert.RTerm.wrapLabels
  rw [select_apply]
  have hz : broadcastInDim Cert.ReferenceIdeal.S50000 ![] Cert.ReferenceIdeal.Gen.bcast_S_S50000
      (constantI Cert.ReferenceIdeal.S_ 32 0#32) (ix1 n) = 0#32 := by
    rw [broadcastInDim_scalar_apply]; rfl
  have hc : cmpi .slt bt (broadcastInDim Cert.ReferenceIdeal.S50000 ![] Cert.ReferenceIdeal.Gen.bcast_S_S50000
      (constantI Cert.ReferenceIdeal.S_ 32 0#32)) (ix1 n) = 0#1 := by
    show IntOp.cmpi .slt (bt (ix1 n)) _ = 0#1
    rw [hz]
    unfold IntOp.cmpi
    have : (bt (ix1 n)).slt 0#32 = false := by
      rw [BitVec.slt_eq_decide]
      simp only [BitVec.toInt_zero, decide_eq_false_iff_not, not_lt]
      exact h0
    simp only [this]
    rfl
  rw [hc]
  rfl

/-- The wrapped labels as a column read the labels, where these are not negative. -/
theorem labelIdx_apply (bt : IVec ⟨1, ![50000]⟩ 32) (n : Fin 50000) (h0 : 0 ≤ (bt (ix1 n)).toInt) :
    Cert.RTerm.labelIdx bt (ix2 n (0 : Fin 1)) = bt (ix1 n) := by
  unfold Cert.RTerm.labelIdx
  rw [broadcastInDim_apply _ Cert.ReferenceIdeal.Gen.bcast_S50000_S50000x1_0 (Cert.RTerm.wrapLabels bt) (ix2 n (0 : Fin 1)) (ix1 n)
    (fun a => match a with
      | ⟨0, _⟩ => by show n.val = if (50000 : Nat) = 1 then 0 else n.val; rw [if_neg (by decide)])]
  exact wrapLabels_apply bt n h0

/-! ## Which nodes a graph owns -/

/-- The 32-bit pattern of a graph number reads that number. -/
theorem toInt_ofNat_graph (g : Fin 256) : (BitVec.ofNat 32 g.val).toInt = (g.val : Int) := by
  have hg : g.val < 256 := g.isLt
  have hn : (BitVec.ofNat 32 g.val).toNat = g.val := by
    rw [BitVec.toNat_ofNat]; omega
  rw [BitVec.toInt_eq_toNat_of_lt (by rw [hn]; omega), hn]

/-- The indicator that a label names a graph, by the label's signed reading. -/
theorem hot_eq (b : BitVec 32) (g : Fin 256) :
    Cert.Spec.hot b g = if b.toInt = (g.val : Int) then 1 else 0 := by
  unfold Cert.Spec.hot
  by_cases hb : b = BitVec.ofNat 32 g.val
  · rw [if_pos hb, if_pos (by rw [hb]; exact toInt_ofNat_graph g)]
  · rw [if_neg hb, if_neg (fun h => hb (BitVec.eq_of_toInt_eq (h.trans (toInt_ofNat_graph g).symm)))]

/-- A graph's row sum over the indicator is the sum over the nodes it owns. -/
theorem poolSum_eq (h : FVec Ideal ⟨2, ![50000, 64]⟩ .f32) (bt : IVec ⟨1, ![50000]⟩ 32) (g : Fin 256) (k : Fin 64) :
    Cert.Spec.poolSum h (Cert.KTerm.labels2 bt) g k
      = ∑ n ∈ Finset.univ.filter (fun n : Fin 50000 => (bt (ix1 n)).toInt = (g.val : Int)), h (ix2 n k) := by
  unfold Cert.Spec.poolSum
  rw [Finset.sum_filter]
  refine Finset.sum_congr rfl fun n _ => ?_
  rw [labels2_apply, hot_eq]
  by_cases hn : (bt (ix1 n)).toInt = (g.val : Int)
  · rw [if_pos hn, if_pos hn, one_mul]
  · rw [if_neg hn, if_neg hn, zero_mul]

/-- A graph's node count over the indicator is the number of nodes it owns. -/
theorem poolCnt_eq (bt : IVec ⟨1, ![50000]⟩ 32) (g : Fin 256) :
    Cert.Spec.poolCnt (Cert.KTerm.labels2 bt) g
      = ∑ n ∈ Finset.univ.filter (fun n : Fin 50000 => (bt (ix1 n)).toInt = (g.val : Int)), (1 : EReal) := by
  unfold Cert.Spec.poolCnt
  rw [Finset.sum_filter]
  refine Finset.sum_congr rfl fun n _ => ?_
  rw [labels2_apply, hot_eq]

/-! ## The reference's scatter-adds -/

/-- The reference's row sums read the sum over the nodes the graph owns. -/
theorem sums_apply (h : FVec Ideal ⟨2, ![50000, 64]⟩ .f32) (bt : IVec ⟨1, ![50000]⟩ 32)
    (hbt : ∀ n : Fin 50000, 0 ≤ (bt (ix1 n)).toInt) (g : Fin 256) (k : Fin 64) :
    Cert.RTerm.sums h bt (ix2 g k)
      = ∑ n ∈ Finset.univ.filter (fun n : Fin 50000 => (bt (ix1 n)).toInt = (g.val : Int)), h (ix2 n k) := by
  unfold Cert.RTerm.sums
  show Ideal.hostScatterAdd (RowScatter.rowDims 256 64 50000 Cert.ReferenceIdeal.Gen.scatter_S256x64_S50000x1_S50000x64_1_0_0_1_wf)
    _ (Cert.RTerm.labelIdx bt) h (ix2 g k) = _
  rw [RowScatter.scatterAdd_rows_apply]
  have hz : broadcastInDim Cert.ReferenceIdeal.S256x64 ![] Cert.ReferenceIdeal.Gen.bcast_S_S256x64
      (constant (F := Ideal) Cert.ReferenceIdeal.S_ .f32 0x00000000#32) (ix2 g k) = (0 : EReal) := by
    rw [broadcastInDim_scalar_apply]
    exact Ideal.ofBits_zero_f32
  rw [hz, zero_add]
  refine Finset.sum_congr ?_ fun _ _ => rfl
  refine Finset.filter_congr fun n _ => ?_
  rw [labelIdx_apply bt n (hbt n)]

/-- The reference's counts read the number of nodes the graph owns. -/
theorem cnts_apply (bt : IVec ⟨1, ![50000]⟩ 32) (hbt : ∀ n : Fin 50000, 0 ≤ (bt (ix1 n)).toInt) (g : Fin 256) :
    Cert.RTerm.cnts bt (ix1 g)
      = ∑ n ∈ Finset.univ.filter (fun n : Fin 50000 => (bt (ix1 n)).toInt = (g.val : Int)), (1 : EReal) := by
  unfold Cert.RTerm.cnts
  show Ideal.hostScatterAdd (vecDims 256 50000 Cert.ReferenceIdeal.Gen.scatter_S256_S50000x1_S50000_n_0_0_1_wf)
    _ (Cert.RTerm.labelIdx bt) _ (ix1 g) = _
  rw [scatterAdd_vec_apply]
  have hz : broadcastInDim Cert.ReferenceIdeal.S256 ![] Cert.ReferenceIdeal.Gen.bcast_S_S256
      (constant (F := Ideal) Cert.ReferenceIdeal.S_ .f32 0x00000000#32) (ix1 g) = (0 : EReal) := by
    rw [broadcastInDim_scalar_apply]
    exact Ideal.ofBits_zero_f32
  rw [hz, zero_add]
  have ho : ∀ e : Fin 50000, broadcastInDim Cert.ReferenceIdeal.S50000 ![] Cert.ReferenceIdeal.Gen.bcast_S_S50000
      (constant (F := Ideal) Cert.ReferenceIdeal.S_ .f32 0x3F800000#32) (ix1 e) = (1 : EReal) := by
    intro e
    rw [broadcastInDim_scalar_apply]
    exact Ideal.ofBits_one_f32
  refine Finset.sum_congr ?_ fun e _ => ho e
  refine Finset.filter_congr fun n _ => ?_
  rw [labelIdx_apply bt n (hbt n)]

/-! ## The read-out -/

/-- The divisor at a graph's row: the graph's count clamped below at one, whatever the feature. -/
theorem denom_apply (bt : IVec ⟨1, ![50000]⟩ 32) (g : Fin 256) (k : Fin 64) :
    Cert.RTerm.denom bt (ix2 g k) = max (Cert.RTerm.cnts bt (ix1 g)) 1 := by
  unfold Cert.RTerm.denom
  rw [broadcastInDim_apply _ Cert.ReferenceIdeal.Gen.bcast_S256x1_S256x64_0_1 _ (ix2 g k) (ix2 g (0 : Fin 1))
    (fun a => match a with
      | ⟨0, _⟩ => by show g.val = if (256 : Nat) = 1 then 0 else g.val; rw [if_neg (by decide)]
      | ⟨1, _⟩ => by show 0 = if (1 : Nat) = 1 then 0 else k.val; rw [if_pos rfl])]
  rw [broadcastInDim_apply _ Cert.ReferenceIdeal.Gen.bcast_S256_S256x1_0 _ (ix2 g (0 : Fin 1)) (ix1 g)
    (fun a => match a with
      | ⟨0, _⟩ => by show g.val = if (256 : Nat) = 1 then 0 else g.val; rw [if_neg (by decide)])]
  have ho : broadcastInDim Cert.ReferenceIdeal.S256 ![] Cert.ReferenceIdeal.Gen.bcast_S_S256
      (constant (F := Ideal) Cert.ReferenceIdeal.S_ .f32 0x3F800000#32) (ix1 g) = (1 : EReal) := by
    rw [broadcastInDim_scalar_apply]
    exact Ideal.ofBits_one_f32
  show max (Cert.RTerm.cnts bt (ix1 g)) (broadcastInDim Cert.ReferenceIdeal.S256 ![] Cert.ReferenceIdeal.Gen.bcast_S_S256
      (constant (F := Ideal) Cert.ReferenceIdeal.S_ .f32 0x3F800000#32) (ix1 g)) = _
  rw [ho]

/-- The read-out's bias spread over the graphs reads the bias at the class. -/
theorem rbias_apply (bfc : FVec Ideal ⟨1, ![10]⟩ .f32) (g : Fin 256) (j : Fin 10) :
    broadcastInDim Cert.ReferenceIdeal.S256x10 ![0, 1] Cert.ReferenceIdeal.Gen.bcast_S1x10_S256x10_0_1
      (broadcastInDim Cert.ReferenceIdeal.S1x10 ![1] Cert.ReferenceIdeal.Gen.bcast_S10_S1x10_1 bfc) (ix2 g j) = bfc (ix1 j) := by
  rw [broadcastInDim_apply _ Cert.ReferenceIdeal.Gen.bcast_S1x10_S256x10_0_1 _ (ix2 g j) (ix2 (0 : Fin 1) j)
    (fun a => match a with
      | ⟨0, _⟩ => by show 0 = if (1 : Nat) = 1 then 0 else g.val; rw [if_pos rfl]
      | ⟨1, _⟩ => by show j.val = if (10 : Nat) = 1 then 0 else j.val; rw [if_neg (by decide)])]
  rw [broadcastInDim_apply _ Cert.ReferenceIdeal.Gen.bcast_S10_S1x10_1 bfc (ix2 (0 : Fin 1) j) (ix1 j)
    (fun a => match a with
      | ⟨0, _⟩ => by show j.val = if (10 : Nat) = 1 then 0 else j.val; rw [if_neg (by decide)])]

local notation "dotFC" => Cert.ReferenceIdeal.dot_S256x64_S64x10_S256x10_1_0_0_1_n_n

/-- The read-out product at a graph and a class: the sum over the features of the row's entry times the matrix's. -/
theorem dot_apply (A : FVec Ideal ⟨2, ![256, 64]⟩ .f32) (W : FVec Ideal ⟨2, ![64, 10]⟩ .f32) (g : Fin 256) (j : Fin 10) :
    Host.dotGeneral (F := Ideal) dotFC none A W (ix2 g j) = ∑ k : Fin 64, A (ix2 g k) * W (ix2 k j) := by
  simp only [Host.dotGeneral]
  rw [Ideal.dotGeneral_apply, ← Equiv.sum_comp (contrEquiv1 dotFC 64 rfl rfl).symm]
  refine Finset.sum_congr rfl fun k _ => ?_
  have hk := contrEquiv1_symm_val dotFC 64 rfl rfl k
  have el : (dotFC).lhsIdx (ix2 g j) ((contrEquiv1 dotFC 64 rfl rfl).symm k) = ix2 g k := funext fun a => Fin.ext (by
    match a with
    | ⟨0, _⟩ =>
      show ((dotFC).lhsIdx (ix2 g j) ((contrEquiv1 dotFC 64 rfl rfl).symm k) 0).val = g.val
      unfold DotDims.lhsIdx
      rw [dif_neg (show ¬(0 : Fin 2) ∈ (dotFC).lhsBatch by decide),
        dif_pos (show (0 : Fin 2) ∈ (dotFC).lhsNonContracting by decide)]
      rfl
    | ⟨1, _⟩ => exact ((dotFC).lhsIdx_val_of_single rfl _ _).trans hk)
  have er : (dotFC).rhsIdx (ix2 g j) ((contrEquiv1 dotFC 64 rfl rfl).symm k) = ix2 k j := funext fun a => Fin.ext (by
    match a with
    | ⟨0, _⟩ => exact ((dotFC).rhsIdx_val_of_single rfl _ _).trans hk
    | ⟨1, _⟩ =>
      show ((dotFC).rhsIdx (ix2 g j) ((contrEquiv1 dotFC 64 rfl rfl).symm k) 1).val = j.val
      unfold DotDims.rhsIdx
      rw [dif_neg (show ¬(1 : Fin 2) ∈ (dotFC).rhsBatch by decide),
        dif_pos (show (1 : Fin 2) ∈ (dotFC).rhsNonContracting by decide)]
      rfl)
  rw [el, er]

/-- THE POOL LAW: the pooled read-out over the indicator of the labels is the reference's pooling and read-out stage, the
    labels being graph numbers that are not negative. (A label of 256 or more owns no row on either side; the upper bound
    is not used.) -/
theorem pool_eq (h : FVec Ideal ⟨2, ![50000, 64]⟩ .f32) (bt : IVec ⟨1, ![50000]⟩ 32)
    (Wfc : FVec Ideal ⟨2, ![64, 10]⟩ .f32) (bfc : FVec Ideal ⟨1, ![10]⟩ .f32)
    (hbt : ∀ n, 0 ≤ (bt n).toInt ∧ (bt n).toInt < 256) :
    Cert.Spec.pool h (Cert.KTerm.labels2 bt) Wfc (Cert.KTerm.biasfc2 bfc) = Cert.RTerm.rpool h bt Wfc bfc := by
  have hbt0 : ∀ n : Fin 50000, 0 ≤ (bt (ix1 n)).toInt := fun n => (hbt (ix1 n)).1
  funext y
  obtain ⟨g, j, rfl⟩ : ∃ (g : Fin 256) (j : Fin 10), y = ix2 g j := ⟨y 0, y 1, eq_ix2 y⟩
  show Cert.Spec.poolAt h (Cert.KTerm.labels2 bt) Wfc (Cert.KTerm.biasfc2 bfc) g j = _
  unfold Cert.Spec.poolAt Cert.RTerm.rpool
  show _ = Host.dotGeneral (F := Ideal) dotFC none (Host.divf (F := Ideal) (φ := .f32) (Cert.RTerm.sums h bt) (Cert.RTerm.denom bt)) Wfc (ix2 g j)
    + broadcastInDim Cert.ReferenceIdeal.S256x10 ![0, 1] Cert.ReferenceIdeal.Gen.bcast_S1x10_S256x10_0_1
      (broadcastInDim Cert.ReferenceIdeal.S1x10 ![1] Cert.ReferenceIdeal.Gen.bcast_S10_S1x10_1 bfc) (ix2 g j)
  rw [dot_apply, rbias_apply, biasfc2_apply]
  refine congrArg (fun s : EReal => s + bfc (ix1 j)) (Finset.sum_congr rfl fun k _ => ?_)
  rw [hostDivf_apply, sums_apply h bt hbt0, denom_apply, cnts_apply bt hbt0, poolSum_eq, poolCnt_eq]

end Cert.PoolLaw

end
-- ==== Proof.Val.Bridge.lean ====
/-
  The two programs compute one function of the arguments.

  The kernel program's result is three layer steps followed by the pooled read-out, each layer step applying the weight
  matrix AFTER the weighted neighbour sum; the reference applies the weight matrix first and sums afterwards. Over the
  reals the two orders agree (a finite sum commutes with a linear map); over the extended reals that needs every factor
  to be a real, which the precondition gives for the arguments and each layer step preserves. The pooled read-out of the
  kernel program sums, per graph, the rows whose label is that graph through an indicator, the reference through a
  scatter by the label: the same sum once every label lies in [0, 256).
-/
import proofs.«413695_j61357902791131_1_alg».proof.Defs
import proofs.«413695_j61357902791131_1_alg».proof.Proof.Gen.Pre_finite_inputs
import proofs.«413695_j61357902791131_1_alg».proof.Proof.KI.Run
import proofs.«413695_j61357902791131_1_alg».proof.Proof.Val.KTerm
import proofs.«413695_j61357902791131_1_alg».proof.Proof.Val.PreRead
import proofs.«413695_j61357902791131_1_alg».proof.Proof.Val.KernelValue
import proofs.«413695_j61357902791131_1_alg».proof.Proof.Val.RefResult
import proofs.«413695_j61357902791131_1_alg».proof.Proof.Val.RefRun
import proofs.«413695_j61357902791131_1_alg».proof.Proof.Val.LayerLaw
import proofs.«413695_j61357902791131_1_alg».proof.Proof.Val.PoolLaw

noncomputable section

open Idealize.ShloMosaic Idealize.ShloMosaic.TcCoe Idealize.SL.Sem

namespace Cert.Bridge

open Cert.KernelIdeal

/-- Three layer steps and the pooled read-out, written the kernel program's way and the reference's way, agree on
    arguments that are reals with labels in [0, 256): the layer law three times, each step's output being real again,
    then the pool law. -/
theorem result_law (x : FVec Ideal S50000x64 .f32) (ei : IVec S2x800000 32) (bt : IVec S50000 32)
    (W1 : FVec Ideal S64x64 .f32) (b1 : FVec Ideal S64 .f32) (W2 : FVec Ideal S64x64 .f32) (b2 : FVec Ideal S64 .f32)
    (W3 : FVec Ideal S64x64 .f32) (b3 : FVec Ideal S64 .f32) (Wfc : FVec Ideal S64x10 .f32) (bfc : FVec Ideal S10 .f32)
    (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hW3 : ∀ i, ∃ r : ℝ, W3 i = (r : EReal)) (hb3 : ∀ i, ∃ r : ℝ, b3 i = (r : EReal))
    (hbt : ∀ n, 0 ≤ (bt n).toInt ∧ (bt n).toInt < 256) :
    Cert.KTerm.result x ei bt W1 b1 W2 b2 W3 b3 Wfc bfc = Cert.RTerm.result x ei bt W1 b1 W2 b2 W3 b3 Wfc bfc := by
  have e1 := Cert.LayerLaw.layer_eq true ei x W1 b1 hx hW1 hb1
  have r1 := Cert.LayerLaw.layer_real true ei x W1 b1 hx hW1 hb1
  have e2 := Cert.LayerLaw.layer_eq true ei _ W2 b2 r1 hW2 hb2
  have r2 := Cert.LayerLaw.layer_real true ei _ W2 b2 r1 hW2 hb2
  have e3 := Cert.LayerLaw.layer_eq false ei _ W3 b3 r2 hW3 hb3
  unfold Cert.KTerm.result Cert.RTerm.result
  rw [Cert.PoolLaw.pool_eq _ bt Wfc bfc hbt, e3, e2, e1]

/-- Both idealized programs, run from memories that agree on the arguments, end with the same result array: the kernel
    program's run leaves the pooled read-out of its three layer steps, the reference's run its own term, and the two are
    one function of arguments satisfying the precondition. -/
theorem algebraic : Cert.algebraic_KernelIdeal_ReferenceIdeal := by
  intro m ρ m' ρ' hpre hagree
  refine ⟨fun c => (Cert.KernelIdeal.Hand.dat3 (F := Ideal) (Cert.KernelIdeal.Hand.VE3 m ρ) c).arrAt 4 cfg3.N,
    Cert.KernelIdeal.Hand.run_main (F := Ideal) m ρ, ?_⟩
  refine (θ_run Cert.ReferenceIdeal.defs _ _).mono (fun r h c => ⟨(h c).1.trans ?_, (h c).2⟩)
    (Cert.RTerm.ref_run m' ρ')
  obtain ⟨a0, a1, a2, a3, a4, a5, a6, a7, a8, a9, a10⟩ := hagree c
  obtain ⟨hx, hW1, hb1, hW2, hb2, hW3, hb3, hWfc, hbfc, hbt⟩ := Cert.PreRead.reads m hpre c
  rw [a0, a1, a2, a3, a4, a5, a6, a7, a8, a9, a10]
  exact (result_law _ _ _ _ _ _ _ _ _ _ _ hx hW1 hb1 hW2 hb2 hW3 hb3 hbt).symm.trans
    (Cert.KernelIdeal.Val.result_eq m ρ c).symm

end Cert.Bridge

end
-- ==== Proof.lean ====
/-
  The certificate of the three-layer graph convolution with mean pooling and a linear read-out against its reference.

  The three frames: the kernel program (four regions among four stretches of host operations) runs to the end, faults
  nowhere and leaves its eleven arguments unchanged — proved once, generically in the float instance, through the launch
  theorem for a list of segments, and read at the word-level instance and at the extended reals; the reference is a
  straight line of host operations, whose run is read back operation by operation. The idealization rewrote nothing, so
  there is nothing to preserve. The value claim: both programs end with the same 256 x 10 array, because aggregating the
  neighbours' rows and multiplying by the weight matrix commute over the reals, and pooling through an indicator matrix is
  pooling through a scatter by the label.
-/
import proofs.«413695_j61357902791131_1_alg».proof.Defs
import proofs.«413695_j61357902791131_1_alg».proof.Proof.Gen.Kernel
import proofs.«413695_j61357902791131_1_alg».proof.Proof.Gen.KernelIdeal
import proofs.«413695_j61357902791131_1_alg».proof.Proof.Gen.ReferenceIdeal
import proofs.«413695_j61357902791131_1_alg».proof.Proof.Gen.Pre_finite_inputs
import proofs.«413695_j61357902791131_1_alg».proof.Proof.K.Run
import proofs.«413695_j61357902791131_1_alg».proof.Proof.KI.Run
import proofs.«413695_j61357902791131_1_alg».proof.Proof.Val.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ
/-- The idealized kernel program runs and keeps its arguments. -/
theorem frame_ki : Cert.frame_KernelIdeal := fun m ρ _ => Cert.KernelIdeal.Hand.frame m ρ
/-- The idealized reference runs and keeps its arguments: its run with the result dropped. -/
theorem frame_ri : Cert.frame_ReferenceIdeal := fun m ρ _ =>
  (θ_run Cert.ReferenceIdeal.defs _ _).mono (fun _ h c => (h c).2) (Cert.RTerm.ref_run m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
